-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part6 {F : FTy → Type} [FloatOps F] (main_v98 : IVec S_ 1) (main_v101 : IVec S2048 1) (main_c_39 : IVec S_ 1) : IVec S_ 1 :=
  let main_v102 : IVec S_ 1 := (fun x v => Host.reduce IntOp.andi x v reducesTo_S2048_S_d0 h_S_) main_v101 main_c_39
  let main_v103 : IVec S_ 1 := andi main_v98 main_v102
  main_v103

def fn_part5 {F : FTy → Type} [FloatOps F] (main_arg18 : FVec F S2048 .f32) (main_arg19 : FVec F S2048x2048 .f32) (main_arg20 : FVec F S2048 .f32) (main_v83 : IVec S_ 1) (main_v84 : FVec F S2048x2048 .f32) (main_cst_32 : FVec F S_ .f32) : IVec S_ 1 :=
  let main_v85 : FVec F S2048x2048 .f32 := broadcastInDim S2048x2048 ![] bcast_S_S2048x2048 main_cst_32
  let main_v86 : IVec S2048x2048 1 := cmpf .olt main_v84 main_v85
  let main_c_33 : IVec S_ 1 := constantI S_ 1 1#1
  let main_v87 : IVec S_ 1 := (fun x v => Host.reduce IntOp.andi x v reducesTo_S2048x2048_S_d0_1 h_S_) main_v86 main_c_33
  let main_v88 : IVec S_ 1 := andi main_v83 main_v87
  let main_v89 : FVec F S2048 .f32 := Host.absf main_arg18
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  let main_v94 : FVec F S2048x2048 .f32 := Host.absf main_arg19
  let main_cst_36 : FVec F S_ .f32 := constant S_ .f32 0x7F800000#32
  let main_v95 : FVec F S2048x2048 .f32 := broadcastInDim S2048x2048 ![] bcast_S_S2048x2048 main_cst_36
  let main_v96 : IVec S2048x2048 1 := cmpf .olt main_v94 main_v95
  let main_c_37 : IVec S_ 1 := constantI S_ 1 1#1
  let main_v97 : IVec S_ 1 := (fun x v => Host.reduce IntOp.andi x v reducesTo_S2048x2048_S_d0_1 h_S_) main_v96 main_c_37
  let main_v98 : IVec S_ 1 := andi main_v93 main_v97
  let main_v99 : FVec F S2048 .f32 := Host.absf main_arg20
  let main_cst_38 : FVec F S_ .f32 := constant S_ .f32 0x7F800000#32
  let main_v100 : FVec F S2048 .f32 := broadcastInDim S2048 ![] bcast_S_S2048 main_cst_38
  let main_v101 : IVec S2048 1 := cmpf .olt main_v99 main_v100
  let main_c_39 : IVec S_ 1 := constantI S_ 1 1#1
  fn_part6 (F := F) main_v98 main_v101 main_c_39

def fn_part4 {F : FTy → Type} [FloatOps F] (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048x2048 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S4096x2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S4096x2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S8192x2048 : Shape := ⟨2, ![8192, 2048]⟩
abbrev S8192 : Shape := ⟨1, ![8192]⟩
abbrev S4096x4096 : Shape := ⟨2, ![4096, 4096]⟩
abbrev S8192x4096 : Shape := ⟨2, ![8192, 4096]⟩
abbrev S1x8192 : Shape := ⟨2, ![1, 8192]⟩
abbrev S4096x8192 : Shape := ⟨2, ![4096, 8192]⟩
abbrev S1024x2048 : Shape := ⟨2, ![1024, 2048]⟩
abbrev S1x1024 : Shape := ⟨2, ![1, 1024]⟩
abbrev S1024x1024 : Shape := ⟨2, ![1024, 1024]⟩
abbrev S128x2048 : Shape := ⟨2, ![128, 2048]⟩

abbrev nBuf : Space → Nat
  | .hbm => 36
  | .vmem => 31
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S2048x2048, .f32⟩
  | .hbm, ⟨20, _⟩ => ⟨S2048, .f32⟩
  | .hbm, ⟨21, _⟩ => ⟨S8192x2048, .f32⟩
  | .hbm, ⟨22, _⟩ => ⟨S8192x2048, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S4096x4096, .f32⟩
  | .hbm, ⟨27, _⟩ => ⟨S8192x4096, .f32⟩
  | .hbm, ⟨28, _⟩ => ⟨S4096x4096, .bf16⟩
  | .hbm, ⟨29, _⟩ => ⟨S8192x4096, .bf16⟩
  | .hbm, ⟨30, _⟩ => ⟨S1x8192, .f32⟩
  | .hbm, ⟨31, _⟩ => ⟨S4096x8192, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | .local _ .vmem, ⟨26, _⟩ => ⟨S128x2048, .f32⟩
  | .local _ .vmem, ⟨27, _⟩ => ⟨S128x2048, .f32⟩
  | .local _ .vmem, ⟨28, _⟩ => ⟨S128x2048, .f32⟩
  | .local _ .vmem, ⟨29, _⟩ => ⟨S128x2048, .f32⟩
  | .local _ .vmem, ⟨30, _⟩ => ⟨S128x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11_0 : Ref sig .tc := ⟨.hbm, 32, rfl⟩
abbrev main_v11_1 : Ref sig .tc := ⟨.hbm, 33, rfl⟩
abbrev main_v11_2 : Ref sig .tc := ⟨.hbm, 34, rfl⟩
abbrev main_v11_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc1_stg10_0 : Ref sig .tc := ⟨.vmem, 29, rfl⟩
abbrev cc1_stg10_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc1_sem10_0 : DmaSem sig := 28
abbrev cc1_sem10_1 : DmaSem sig := 29

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_2 (i : grid1.Coords) : Fin 2 → Nat :=
  let arg0 : BitVec 32 := BitVec.ofNat 32 (i 0).val
  let c2_i32 : BitVec 32 := 2#32
  let c0_i32 : BitVec 32 := 0#32
  ![arg0.toNat, c2_i32.toNat]

def cc1_transform_3 (i : grid1.Coords) : Fin 2 → Nat :=
  let arg0 : BitVec 32 := BitVec.ofNat 32 (i 0).val
  let c3_i32 : BitVec 32 := 3#32
  let c0_i32 : BitVec 32 := 0#32
  ![arg0.toNat, c3_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S128x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S128x2048 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  concatenates_S2048x2048_S2048x2048_S2048x2048_S2048x2048_S8192x2048_d0 : Shape.Concatenates [S2048x2048, S2048x2048, S2048x2048, S2048x2048] S8192x2048 0
  concatenates_S2048_S2048_S2048_S2048_S8192_d0 : Shape.Concatenates [S2048, S2048, S2048, S2048] S8192 0
  concatenates_S4096x2048_S4096x2048_S4096x4096_d1 : Shape.Concatenates [S4096x2048, S4096x2048] S4096x4096 1
  concatenates_S8192x2048_S8192x2048_S8192x4096_d1 : Shape.Concatenates [S8192x2048, S8192x2048] S8192x4096 1
  bitsLt_bf16_f32 : FTy.bits .bf16 < FTy.bits .f32
  shapeCasts_S8192_S1x8192 : S8192.ShapeCasts S1x8192
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x4096.size a
  hwx0_0 : ∀ i : grid0.Coords, EltTy.bits .bf16 = 32 ∨ (Rect.block (s := S4096x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x4096.size a
  hwx0_1 : ∀ i : grid0.Coords, EltTy.bits .bf16 = 32 ∨ (Rect.block (s := S8192x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x8192.size a
  hwx0_3 : ∀ i : grid0.Coords, EltTy.bits .f32 = 32 ∨ (Rect.block (s := S4096x8192) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x2048.size a ≤ S4096x8192.size a
  hwx1_0 : ∀ i : grid1.Coords, EltTy.bits .f32 = 32 ∨ (Rect.block (s := S4096x8192) S128x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x2048.size a ≤ S4096x8192.size a
  hwx1_1 : ∀ i : grid1.Coords, EltTy.bits .f32 = 32 ∨ (Rect.block (s := S4096x8192) S128x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x2048.size a ≤ S4096x8192.size a
  hwx1_2 : ∀ i : grid1.Coords, EltTy.bits .f32 = 32 ∨ (Rect.block (s := S4096x8192) S128x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x2048.size a ≤ S4096x8192.size a
  hwx1_3 : ∀ i : grid1.Coords, EltTy.bits .f32 = 32 ∨ (Rect.block (s := S4096x8192) S128x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x2048.size a ≤ S4096x2048.size a
  hwx1_4 : ∀ i : grid1.Coords, EltTy.bits .f32 = 32 ∨ (Rect.block (s := S4096x2048) S128x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x2048.size a ≤ S4096x2048.size a
  hwx1_5 : ∀ i : grid1.Coords, EltTy.bits .f32 = 32 ∨ (Rect.block (s := S4096x2048) S128x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x2048.size a ≤ S4096x2048.size a
  hwx1_6 : ∀ i : grid1.Coords, EltTy.bits .f32 = 32 ∨ (Rect.block (s := S4096x2048) S128x2048.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x2048.size a ≤ S4096x2048.size a
  hwx1_7 : ∀ i : grid1.Coords, EltTy.bits .f32 = 32 ∨ (Rect.block (s := S4096x2048) S128x2048.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S128x2048.size a ≤ S4096x2048.size a
  hwx1_8 : ∀ i : grid1.Coords, EltTy.bits .f32 = 32 ∨ (Rect.block (s := S4096x2048) S128x2048.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S128x2048.size a ≤ S4096x2048.size a
  hwx1_9 : ∀ i : grid1.Coords, EltTy.bits .f32 = 32 ∨ (Rect.block (s := S4096x2048) S128x2048.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S128x2048.size a ≤ S4096x2048.size a
  hwx1_10 : ∀ i : grid1.Coords, EltTy.bits .f32 = 32 ∨ (Rect.block (s := S4096x2048) S128x2048.size (cc1_transform_10 i) (hinb1_10 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v7) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v10) S128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S128x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S128x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S128x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S128x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S128x2048.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg4) S128x2048.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v11_0) S128x2048.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v11_1) S128x2048.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v11_2) S128x2048.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v11_3) S128x2048.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 88
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S2048x2048, .f32⟩
  | .hbm, ⟨20, _⟩ => ⟨S2048, .f32⟩
  | .hbm, ⟨21, _⟩ => ⟨S2048x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S2048x2048, .f32⟩
  | .hbm, ⟨27, _⟩ => ⟨S4096x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S2048x2048, .f32⟩
  | .hbm, ⟨34, _⟩ => ⟨S4096x2048, .f32⟩
  | .hbm, ⟨35, _⟩ => ⟨S1x2048, .f32⟩
  | .hbm, ⟨36, _⟩ => ⟨S4096x2048, .f32⟩
  | .hbm, ⟨37, _⟩ => ⟨S4096x2048, .f32⟩
  | .hbm, ⟨38, _⟩ => ⟨S2048x2048, .f32⟩
  | .hbm, ⟨39, _⟩ => ⟨S4096x2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S2048x2048, .f32⟩
  | .hbm, ⟨45, _⟩ => ⟨S4096x2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S2048x2048, .f32⟩
  | .hbm, ⟨50, _⟩ => ⟨S4096x2048, .f32⟩
  | .hbm, ⟨51, _⟩ => ⟨S1x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S2048x2048, .f32⟩
  | .hbm, ⟨56, _⟩ => ⟨S4096x2048, .f32⟩
  | .hbm, ⟨57, _⟩ => ⟨S1x2048, .f32⟩
  | .hbm, ⟨58, _⟩ => ⟨S4096x2048, .f32⟩
  | .hbm, ⟨59, _⟩ => ⟨S4096x2048, .f32⟩
  | .hbm, ⟨60, _⟩ => ⟨S2048x2048, .f32⟩
  | .hbm, ⟨61, _⟩ => ⟨S4096x2048, .f32⟩
  | .hbm, ⟨62, _⟩ => ⟨S1x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S_, .f32⟩
  | .hbm, ⟨69, _⟩ => ⟨S4096x2048, .f32⟩
  | .hbm, ⟨70, _⟩ => ⟨S4096x2048, .f32⟩
  | .hbm, ⟨71, _⟩ => ⟨S_, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S4096x2048, .f32⟩
  | .hbm, ⟨81, _⟩ => ⟨S4096x2048, .f32⟩
  | .hbm, ⟨82, _⟩ => ⟨S4096x2048, .f32⟩
  | .hbm, ⟨83, _⟩ => ⟨S4096x2048, .f32⟩
  | .hbm, ⟨84, _⟩ => ⟨S4096x2048, .f32⟩
  | .hbm, ⟨85, _⟩ => ⟨S4096x2048, .f32⟩
  | .hbm, ⟨86, _⟩ => ⟨S4096x2048, .f32⟩
  | .hbm, ⟨87, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst : Ref sig .tc := ⟨.hbm, 68, rfl⟩
abbrev main_v47 : Ref sig .tc := ⟨.hbm, 69, rfl⟩
abbrev main_v48 : Ref sig .tc := ⟨.hbm, 70, rfl⟩
abbrev main_cst_0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.K.R0Runs.lean ====
/-
  Region 0, the product pre = [x,h]·[[W,R]]ᵀ + bias blocked over the contraction axis in two halves:
  what the two cases of its body are stated over. The windows' blocks read off the arrays at the entry
  contents V; the two branch conditions in closed form over the 64 grid points (the first holds at the even
  points, where the accumulator is reset, the second at the odd points, where the sum and the bias row are
  stored); where the output window is idle; the staging memrefs and the accumulator.
-/
import proofs.«109682_j16561393893827_1_alg».proof.Proof.Gen.Kernel.Launch
import proofs.«109682_j16561393893827_1_alg».proof.Proof.Gen.Kernel.Skeleton
import proofs.«109682_j16561393893827_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the left operand's block) holds its block at every point, for any proof data whose array
    is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the right operand's block) likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row's block) likewise: it is fetched at the even points only, and at an odd point
    its block index is the one of the point before, so the buffer still holds this point's block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first condition: the contraction coordinate is 0 (the accumulator is reset). -/
abbrev cond0_0 (i : grid0.Coords) : Prop := (Scalar.cmpi .ne (Scalar.extui (Scalar.cmpi .eq (BitVec.ofNat 32 (i 2).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second condition: the contraction coordinate is 1 (the sum is complete and is stored with the bias). -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At the points of case A (the first half of the contraction) the output is idle: nothing is stored into it, -/
theorem idleAt0_3_A : ∀ t : Fin cfg0.N, cond0_0 (grid0.coords t) → ¬cond0_1 (grid0.coords t) → cfg0.idle 3 (grid0.coords t) = true := by decide +kernel
/-- and its block is not written back there. -/
theorem noFlush0_3_A : ∀ t : Fin cfg0.N, cond0_0 (grid0.coords t) → ¬cond0_1 (grid0.coords t) → (cfg0.win 3).flush t = false := by decide +kernel
/-- At the points of case B (the second half) the output is live: the body stores into it. -/
theorem liveAt0_3_B : ∀ t : Fin cfg0.N, ¬cond0_0 (grid0.coords t) → cond0_1 (grid0.coords t) → cfg0.idle 3 (grid0.coords t) = false := by decide +kernel

/-! ## The staging memrefs and the accumulator -/

/-- One staging buffer of the output window, through which its contents are stated (the choice does not matter). -/
abbrev VO0_3 : View sig .tc .vmem S1024x1024 .f32 := (Memref.whole cc0_stg3_0 : Memref sig .tc .vmem S1024x1024 .f32).view
/-- Each window's current staging memref at point t, and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0_0 : Memref sig .tc .vmem S1024x1024 .f32 := Memref.whole cc0_scratch0
/-- The accumulator as a view: what it holds between points is stated through it. -/
abbrev VS0_0 : View sig .tc .vmem S1024x1024 .f32 := scM0_0.view

/-- The scoped buffers of the core that region 0 neither stages through nor accumulates in (the second
    region's staging buffers), each whole at some contents: they pass through region 0 untouched. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f))

/-- The region's invariant with the accumulator as a memref owned at some contents; the other scoped buffers
    (the second region's staging buffers) stay as a chain of buffers each at some contents. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_eq]; simp only [scM0_0, owns_whole]; try rfl

end Cert.Kernel.Fr

end
-- ==== Proof.K.R0RunA.lean ====
/-
  Region 0, case A of the body (the contraction coordinate is 0: the even grid points). The accumulator is
  stored whole with zeros, read back, and stored whole again with the zeros plus the product of the two operand
  blocks; the bias row is not read and nothing is stored into the output block, which is handed back as found.
  The run of the body from the windows' blocks, with the pieces the accumulator ends with as its witness.
-/
import proofs.«109682_j16561393893827_1_alg».proof.Proof.K.R0Runs

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- Case A: on whole memrefs — the three inputs' at their blocks, the output's at contents xi3 it is handed back
    at, the accumulator's at anything — the body runs to the continuation holding the inputs' and the output's as
    they were and the accumulator with its pieces LS0 written (last store first). -/
noncomputable def kernelRun0_A (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S1024x2048 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_kernel i arg3 harg3 arg4 harg4 arg5 harg5 arg6 harg6 arg7 harg7) K } := by
  refine ⟨[], ?_, fun xi3 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.K.R0RunB.lean ====
/-
  Region 0, case B of the body (the contraction coordinate is 1: the odd grid points). The accumulator
  enters at what the point before left in it; it is stored whole with itself plus the product of the two operand
  blocks, read back, and the output block is stored whole with that sum plus the bias row broadcast over the rows.
  The run of the body from the windows' blocks and the entering accumulator, with the pieces the output block and
  the accumulator end with as its witness.
-/
import proofs.«109682_j16561393893827_1_alg».proof.Proof.K.R0RunA

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- Case B: on whole memrefs — the three inputs' at their blocks, the output's at anything, the accumulator's at
    the contents xs0 the point before left — the body runs to the continuation holding the inputs' as they were,
    the output's buffer with its pieces L3 written and the accumulator with its pieces LS0 written. -/
noncomputable def kernelRun0_B (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S1024x2048 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_kernel i arg3 harg3 arg4 harg4 arg5 harg5 arg6 harg6 arg7 harg7) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.K.R0Frame.lean ====
/-
  Region 0, the product pre = [x,h]·[[W,R]]ᵀ + bias blocked over the contraction axis in two halves: the
  proof data of its pipeline at the entry contents V, and the body obligation. What the output block's buffer and
  the accumulator hold after each grid point is defined by recursion on the point: at an even point the
  accumulator is zeros plus the first half's product (the output's buffer is not touched); at the odd point after
  it the accumulator is what the even point left plus the second half's product, and the output block is that sum
  plus the bias row. Between points the region's invariant holds the accumulator at exactly these contents.
-/
import proofs.«109682_j16561393893827_1_alg».proof.Proof.K.R0RunB

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-- Case A stores nothing into the output block: no pieces, a placeholder nothing consults (at these points the
    block is neither written back nor read at the next point). -/
def out0_A_3 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S1024x2048 .bf16) (x2 : Vec F S1x1024 .f32) : Vec F S1024x1024 .f32 :=
  VO0_3.read (Elt F) (VO0_3.writes (Elt F) VO0_3.junk (kernelRun0_A c i arg3 harg3 arg4 harg4 arg5 harg5 arg6 harg6 arg7 harg7 hc0 hc1 x0 x1 x2).1)

/-- Case A's pieces for the accumulator (the reset, then the first accumulation, each of the whole buffer)
    cover it. -/
theorem scover0_A_0 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S1024x2048 .bf16) (x2 : Vec F S1x1024 .f32) (y : S1024x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S1024x1024.size (by sl_kernel_rfl) y

/-- What case A leaves in the accumulator: its pieces read back. -/
def sout0_A_0 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S1024x2048 .bf16) (x2 : Vec F S1x1024 .f32) : Vec F S1024x1024 .f32 :=
  VS0_0.read (Elt F) (VS0_0.writes (Elt F) VS0_0.junk (kernelRun0_A c i arg3 harg3 arg4 harg4 arg5 harg5 arg6 harg6 arg7 harg7 hc0 hc1 x0 x1 x2).2.1)

/-- Case B's one store into the output block is of the whole block, so its pieces cover it. -/
theorem cover0_B_3 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S1024x2048 .bf16) (x2 : Vec F S1x1024 .f32) (xs0 : Vec F S1024x1024 .f32) (y : S1024x1024.Idx) :
    ∃ pc ∈ (kernelRun0_B c i arg3 harg3 arg4 harg4 arg5 harg5 arg6 harg6 arg7 harg7 hc0 hc1 x0 x1 x2 xs0).1, y ∈ pc.1.set :=
  View.cover_of_tiledL (kernelRun0_B c i arg3 harg3 arg4 harg4 arg5 harg5 arg6 harg6 arg7 harg7 hc0 hc1 x0 x1 x2 xs0).1 S1024x1024.size (by sl_kernel_rfl) y

/-- What case B leaves in the output block's buffer: its pieces read back. -/
def out0_B_3 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S1024x2048 .bf16) (x2 : Vec F S1x1024 .f32) (xs0 : Vec F S1024x1024 .f32) : Vec F S1024x1024 .f32 :=
  VO0_3.read (Elt F) (VO0_3.writes (Elt F) VO0_3.junk (kernelRun0_B c i arg3 harg3 arg4 harg4 arg5 harg5 arg6 harg6 arg7 harg7 hc0 hc1 x0 x1 x2 xs0).1)

/-- Case B's piece for the accumulator (the second accumulation, of the whole buffer) covers it. -/
theorem scover0_B_0 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S1024x2048 .bf16) (x2 : Vec F S1x1024 .f32) (xs0 : Vec F S1024x1024 .f32) (y : S1024x1024.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S1024x1024.size (by sl_kernel_rfl) y

/-- What case B leaves in the accumulator: its pieces read back. -/
def sout0_B_0 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S1024x2048 .bf16) (x2 : Vec F S1x1024 .f32) (xs0 : Vec F S1024x1024 .f32) : Vec F S1024x1024 .f32 :=
  VS0_0.read (Elt F) (VS0_0.writes (Elt F) VS0_0.junk (kernelRun0_B c i arg3 harg3 arg4 harg4 arg5 harg5 arg6 harg6 arg7 harg7 hc0 hc1 x0 x1 x2 xs0).2.1)

/-! ## What the output block's buffer and the accumulator hold after each point -/

/-- After the body at position n: (the output window's staging buffer, the accumulator). An even point is in
    case A, run at the point's blocks; an odd point is in case B, run at the point's blocks over the accumulator
    the point before left. No point is in both cases or in neither. -/
def outsAt0 (c : Dev nD) : (n : ℕ) → n < cfg0.N → Vec F S1024x1024 .f32 × Vec F S1024x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 2 = 0 then
      if h1 : (n + 1) % 2 = 1 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 2 = 1 then
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        False.elim (by omega)

/-- At an even point: case A's contents. -/
theorem outsAt0_A (c : Dev nD) (t : Fin cfg0.N) (h0 : t.val % 2 = 0) (h1 : ¬t.val % 2 = 1) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- At an odd point: case B's contents, over what the point before left in the accumulator. -/
theorem outsAt0_B (c : Dev nD) (t : Fin cfg0.N) (h0 : ¬t.val % 2 = 0) (h1 : t.val % 2 = 1) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the launch hands the region (every
    scoped buffer at anything); afterwards the accumulator at what the point before left in it, the other scoped
    buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl

/-- After point n (before point n + 1): the accumulator at that point's contents. -/
theorem PhiS_succ (c : Dev nD) (n : ℕ) (hn : n < cfg0.N) :
    PhiS V c (n + 1) hn = iprop(iprop(owns (c : Thread nD τ) scM0_0 fullShare ((outsAt0 V c n hn).2) ∗ rest0 (F := F) c) ∗ (∃ r, prngReg c r)) := rfl

/-- Before a point that is not the first: the accumulator at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of region 0's pipeline on core c: the arrays as the region finds them; after the body at
    point t each input's buffer at its block and the output's at outsAt0's first component; the invariant PhiS;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the parity of the point says which case it is
    in. At an even point the invariant hands the body the accumulator at anything (it is reset before it is read)
    and the output's buffer comes back as found; at an odd point the invariant hands it the accumulator at what
    the even point before left, and the output's buffer comes back covered by the one store. Either way the
    invariant takes the accumulator back at this point's contents; the other scoped buffers, the generator
    register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 2 = 0
  · by_cases h1 : t.val % 2 = 1
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hr⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 2 = 1
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_B t (fun h => h0 ((hcond0_0 t).mp h)) ((hcond0_1 t).mpr h1)], after0_3]
      rw [outsAt0_B V c t h0 h1]
      unfold out0_B_3 sout0_B_0; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_B_3 c _ _ _ _ _ _ _ _ _ _ _ _ _ _ _ _ _)
    · exfalso; omega

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives back what the launch handed over: the accumulator's named
    contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.Fr

end
-- ==== Proof.K.R1Frame.lean ====
/-
  Region 1, the pointwise recombination of the four gate pre-activations with the carried state: the proof data of
  its pipeline at the entry contents V (four of its input windows read one array, the stacked pre-activation matrix,
  each at a quarter share), the body's triple and obligation, and the dealing of that array's share among the four
  windows on entry and its reassembly on exit.
-/
import proofs.«109682_j16561393893827_1_alg».proof.Proof.Gen.Kernel.Launch
import proofs.«109682_j16561393893827_1_alg».proof.Proof.Gen.Kernel.Skeleton
import proofs.«109682_j16561393893827_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The shares -/

/-- The share each window holds of its array: a quarter for each of the four windows on the stacked
    pre-activation matrix (the two halves of each half of the whole), the whole for the others. -/
def qsh1 : Fin 11 → PosShare TreeShare
  | ⟨0, _⟩ => fullShare.left.left
  | ⟨1, _⟩ => fullShare.left.right
  | ⟨2, _⟩ => fullShare.right.left
  | ⟨3, _⟩ => fullShare.right.right
  | _ => fullShare

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is V's and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is V's and whose body leaves the block in place: the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is V's and whose body leaves the block in place: the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is V's and whose body leaves the block in place: the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is V's and whose body leaves the block in place: the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is V's and whose body leaves the block in place: the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is V's and whose body leaves the block in place: the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and every store is of the whole 128 x 2048 buffer -/

abbrev r1_0 : Rect S128x2048 := Rect.unit (s := S128x2048) ![0, 0] S128x2048.size inb_S128x2048_S128x2048_0_0

/-! ## What the body leaves in each output window's buffer -/

/-- What the body leaves in each output window's staging buffer, from the seven input blocks: its one store,
    of the whole buffer (window 7 the new hidden state, 8 the new cell state, 9 the new normalizer, 10 the new
    stabilizer). -/
def out1_7 (x0 x1 x2 x3 x4 x5 x6 : Vec F S128x2048 .f32) : Vec F S128x2048 .f32 :=
  View.canon [⟨r1_0, k1_pay8 (View.ld x0 r1_0) (View.ld x1 r1_0) (View.ld x2 r1_0) (View.ld x3 r1_0) (View.ld x6 r1_0) (View.ld x4 r1_0) (View.ld x5 r1_0)⟩]
def out1_8 (x0 x1 x2 x3 x4 x5 x6 : Vec F S128x2048 .f32) : Vec F S128x2048 .f32 :=
  View.canon [⟨r1_0, k1_pay6 (View.ld x0 r1_0) (View.ld x1 r1_0) (View.ld x2 r1_0) (View.ld x6 r1_0) (View.ld x4 r1_0)⟩]
def out1_9 (x0 x1 x2 x3 x4 x5 x6 : Vec F S128x2048 .f32) : Vec F S128x2048 .f32 :=
  View.canon [⟨r1_0, k1_pay7 (View.ld x1 r1_0) (View.ld x2 r1_0) (View.ld x6 r1_0) (View.ld x5 r1_0)⟩]
def out1_10 (x0 x1 x2 x3 x4 x5 x6 : Vec F S128x2048 .f32) : Vec F S128x2048 .f32 :=
  View.canon [⟨r1_0, k1_pay3 (View.ld x1 r1_0) (View.ld x2 r1_0) (View.ld x6 r1_0)⟩]

/-- One store of the whole buffer tiles it (checked by evaluation), so it covers it. -/
theorem cover1 (p0 : Vec F S128x2048 .f32) (y : S128x2048.Idx) :
    ∃ pc ∈ ([⟨r1_0, p0⟩] : List (View.Piece (Elt F) S128x2048 .f32)), y ∈ pc.1.set :=
  View.cover_of_tiled [⟨r1_0, p0⟩] S128x2048.size (by rfl) y

/-! ## The body's triple -/

set_option maxHeartbeats 4000000 in
/-- The kernel body on whole staging memrefs, the inputs' at read contents and the outputs' at anything, runs to
    the continuation holding the inputs' as they were and each output's at its closed form of the inputs'. -/
theorem sound_kernel1 (c : Dev nD) (E : Set ℕ) (i : grid1.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole)
    (x0 x1 x2 x3 x4 x5 x6 : Vec F S128x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6) ∗ owns (c : Thread nD τ) arg9 fullShare (out1_8 x0 x1 x2 x3 x4 x5 x6) ∗ owns (c : Thread nD τ) arg10 fullShare (out1_9 x0 x1 x2 x3 x4 x5 x6) ∗ owns (c : Thread nD τ) arg11 fullShare (out1_10 x0 x1 x2 x3 x4 x5 x6)) -∗ K ⟨⟩))
      ⊢ wp frame (wpE (defs₀ (F := F)) Variants.none c none) E (cc1__gate_kernel i arg1 harg1 arg2 harg2 arg3 harg3 arg4 harg4 arg5 harg5 arg6 harg6 arg7 harg7 arg8 harg8 arg9 harg9 arg10 harg10 arg11 harg11) K := by
  simp only [cc1__gate_kernel_eq_skeleton]; unfold cc1__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1 _)
  isplitl [H8]
  · iexists _; isplitr
    swap; · iexact H8
    ipureintro
    exact View.read_writes_eq_canon _ _ _ (cover1 _)
  isplitl [H9]
  · iexists _; isplitr
    swap; · iexact H9
    ipureintro
    exact View.read_writes_eq_canon _ _ _ (cover1 _)
  iexists _; isplitr
  swap; · iexact H10
  ipureintro
  exact View.read_writes_eq_canon _ _ _ (cover1 _)

/-! ## The pipeline's proof data -/

/-- The proof data of the pipeline on core c: the arrays as the region finds them; after the body at point t each
    input's buffer at its block and each output's at its closed form of the input blocks; the class invariant (the
    scoped rest and the generator register, untouched); nothing owed; the shares above. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
    | ⟨10, _⟩ => out1_10 (iblk1 V c 0 t) (iblk1 V c 1 t) (iblk1 V c 2 t) (iblk1 V c 3 t) (iblk1 V c 4 t) (iblk1 V c 5 t) (iblk1 V c 6 t)
  Φ _ := Pipeline.ΦA spec1 c
  q := qsh1
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The dealing of the shared array's share -/

/-- Two propositions that entail each other are equal. -/
theorem eq_of_equiv {P Q : sProp 𝕄} (h : P ⊣⊢ Q) : P = Q := Idealize.SL.BI.Entails.antisymm h.1 h.2

/-- A whole share is its four quarters: the two halves of each of its two halves. -/
theorem pointsTo_quarters {ℓ : Loc nD τ sig} (f : Buf (Elt F) ℓ) :
    (ℓ ↦{fullShare} f : sProp 𝕄)
      = iprop((ℓ ↦{fullShare.left.left} f) ∗ (ℓ ↦{fullShare.left.right} f) ∗ (ℓ ↦{fullShare.right.left} f) ∗ (ℓ ↦{fullShare.right.right} f)) := by
  have h : (ℓ ↦{fullShare} f : sProp 𝕄) = iprop((ℓ ↦{fullShare.left} f) ∗ (ℓ ↦{fullShare.right} f)) :=
    eq_of_equiv (pointsTo_share (PosShare.mem_left_op_right fullShare))
  have hl : (ℓ ↦{fullShare.left} f : sProp 𝕄) = iprop((ℓ ↦{fullShare.left.left} f) ∗ (ℓ ↦{fullShare.left.right} f)) :=
    eq_of_equiv (pointsTo_share (PosShare.mem_left_op_right fullShare.left))
  have hr : (ℓ ↦{fullShare.right} f : sProp 𝕄) = iprop((ℓ ↦{fullShare.right.left} f) ∗ (ℓ ↦{fullShare.right.right} f)) :=
    eq_of_equiv (pointsTo_share (PosShare.mem_left_op_right fullShare.right))
  rw [h, hl, hr]
  apply eq_of_equiv
  constructor
  · iintro ⟨⟨H0, H1⟩, H2, H3⟩
    isplitl [H0]; · iexact H0
    isplitl [H1]; · iexact H1
    isplitl [H2]; · iexact H2
    iexact H3
  · iintro ⟨H0, H1, H2, H3⟩
    isplitl [H0 H1]
    · isplitl [H0]; · iexact H0
      iexact H1
    isplitl [H2]; · iexact H2
    iexact H3

/-- The distinct buffers behind the eleven windows' arrays are eight: the stacked pre-activation matrix, the three
    carried states, and the four results. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v10) ↦{fullShare} Vc main_v10)
        ∗ (((c : Thread nD τ).loc main_arg2) ↦{fullShare} Vc main_arg2)
        ∗ (((c : Thread nD τ).loc main_arg3) ↦{fullShare} Vc main_arg3)
        ∗ (((c : Thread nD τ).loc main_arg4) ↦{fullShare} Vc main_arg4)
        ∗ (((c : Thread nD τ).loc main_v11_0) ↦{fullShare} Vc main_v11_0)
        ∗ (((c : Thread nD τ).loc main_v11_1) ↦{fullShare} Vc main_v11_1)
        ∗ (((c : Thread nD τ).loc main_v11_2) ↦{fullShare} Vc main_v11_2)
        ∗ (((c : Thread nD τ).loc main_v11_3) ↦{fullShare} Vc main_v11_3)) := by
  unfold Pipeline.arrBufs
  exact bigSep_eq_bigSepL_of_eq [main_v10, main_arg2, main_arg3, main_arg4, main_v11_0, main_v11_1, main_v11_2, main_v11_3] (by decide) (by decide) _

/-- The windows' arrays at contents read off one valuation of the buffers, window by window: each array is a whole
    buffer; the four windows on the stacked matrix hold a quarter each, every other window its buffer whole. -/
theorem arrays1_eq (c : Dev nD) (Vc : (b : Ref sig .tc) → Buf (Elt F) ((c : Thread nD τ).loc b)) :
    (dat1 V c).arrays (fun w => Vc (Pipeline.arrRef spec1 w))
      = iprop((((c : Thread nD τ).loc main_v10) ↦{fullShare.left.left} Vc main_v10)
        ∗ (((c : Thread nD τ).loc main_v10) ↦{fullShare.left.right} Vc main_v10)
        ∗ (((c : Thread nD τ).loc main_v10) ↦{fullShare.right.left} Vc main_v10)
        ∗ (((c : Thread nD τ).loc main_v10) ↦{fullShare.right.right} Vc main_v10)
        ∗ (((c : Thread nD τ).loc main_arg2) ↦{fullShare} Vc main_arg2)
        ∗ (((c : Thread nD τ).loc main_arg3) ↦{fullShare} Vc main_arg3)
        ∗ (((c : Thread nD τ).loc main_arg4) ↦{fullShare} Vc main_arg4)
        ∗ (((c : Thread nD τ).loc main_v11_0) ↦{fullShare} Vc main_v11_0)
        ∗ (((c : Thread nD τ).loc main_v11_1) ↦{fullShare} Vc main_v11_1)
        ∗ (((c : Thread nD τ).loc main_v11_2) ↦{fullShare} Vc main_v11_2)
        ∗ (((c : Thread nD τ).loc main_v11_3) ↦{fullShare} Vc main_v11_3)) := by
  have hset : ∀ w : Fin 11, (cfg1.win w).arr.view.set = Finset.univ := fun w => (arr_whole1 w).set_eq_univ
  unfold Dat.arrays
  rw [bigSep_W1]
  simp only [hset 0, hset 1, hset 2, hset 3, hset 4, hset 5, hset 6, hset 7, hset 8, hset 9, hset 10]
  rfl

/-- The windows' arrays at one valuation of the buffers are the distinct buffers behind them at that valuation, each
    whole: the four quarters of the stacked matrix, held at one contents, are the whole of it. -/
theorem arrays1_eq_arrBufs (c : Dev nD) (Vc : (b : Ref sig .tc) → Buf (Elt F) ((c : Thread nD τ).loc b)) :
    (dat1 V c).arrays (fun w => Vc (Pipeline.arrRef spec1 w))
      = (Pipeline.arrBufs (Ix := Unit) (Name := ℕ) (U := UR sig nD τ) (Lvl := ℕ) spec1 c Vc : sProp 𝕄) := by
  rw [arrays1_eq, arrBufs1_eq, pointsTo_quarters (Vc main_v10)]
  apply eq_of_equiv
  constructor
  · iintro ⟨H0, H1, H2, H3, H4, H5, H6, H7, H8, H9, H10⟩
    isplitl [H0 H1 H2 H3]
    · isplitl [H0]; · iexact H0
      isplitl [H1]; · iexact H1
      isplitl [H2]; · iexact H2
      iexact H3
    isplitl [H4]; · iexact H4
    isplitl [H5]; · iexact H5
    isplitl [H6]; · iexact H6
    isplitl [H7]; · iexact H7
    isplitl [H8]; · iexact H8
    isplitl [H9]; · iexact H9
    iexact H10
  · iintro ⟨⟨H0, H1, H2, H3⟩, H4, H5, H6, H7, H8, H9, H10⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- ENTRY: the distinct buffers behind the windows' arrays, each whole, make the windows' arrays at their shares. -/
theorem hsplit1 (c : Dev nD) :
    (Pipeline.arrBufs (Ix := Unit) (Name := ℕ) (U := UR sig nD τ) (Lvl := ℕ) spec1 c (V c) : sProp 𝕄)
      ⊢ (dat1 V c).arrays ((dat1 V c).arrAt · 0) :=
  Entails.of_eq (arrays1_eq_arrBufs V c (V c)).symm

/-- EXIT: the windows' arrays at their final contents make the distinct buffers behind them, each whole, at any
    contents V' that agree with those. -/
theorem hjoin1 (V' : (c : Dev nD) → (b : Ref sig .tc) → Buf (Elt F) ((c : Thread nD τ).loc b)) (c : Dev nD)
    (hF : ∀ w, (dat1 V c).arrAt w cfg1.N = V' c (Pipeline.arrRef spec1 w)) :
    (dat1 V c).arrays ((dat1 V c).arrAt · cfg1.N)
      ⊢ (Pipeline.arrBufs (Ix := Unit) (Name := ℕ) (U := UR sig nD τ) (Lvl := ℕ) spec1 c (V' c) : sProp 𝕄) :=
  have hG : (fun w => (dat1 V c).arrAt w cfg1.N) = fun w => V' c (Pipeline.arrRef spec1 w) := funext hF
  (Entails.of_eq (congrArg (dat1 V c).arrays hG)).trans (Entails.of_eq (arrays1_eq_arrBufs V c (V' c)))

end Cert.Kernel.Fr

end
-- ==== Proof.K.Run.lean ====
/-
  The run of the whole program: one stretch of host operations, the blocked product, the pointwise recombination.
  The buffer contents at each boundary, the two kernel regions as segments over the thread state "every unscoped
  buffer at the boundary's contents", and the launch over the three segments: every weakly fair execution terminates
  and every final memory holds, at each unscoped buffer, the last boundary's contents; in particular each argument
  array ends as launched.
-/
import proofs.«109682_j16561393893827_1_alg».proof.Proof.K.R0Frame
import proofs.«109682_j16561393893827_1_alg».proof.Proof.K.R1Frame
import proofs.«109682_j16561393893827_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m ((c : Dev nD), b)
/-- After the host operations (the product's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b

theorem V1_eq (c : Dev nD) : ∀ b, V1 m c b = StableHlo.after hostOps0 (fun b => m (c, b)) (Proc.devRef .tc b) := fun _ => rfl

/-- At the product's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W2_v10 (c : Dev nD) : W2 m c (Proc.devRef .tc main_v10) = (dat0 (V1 m) c).arrAt 3 cfg0.N := W2_arr m c 3
/-- The same read at the TensorCore's references (the recombination's entry). -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the recombination's exit: each of its four results at what the pipeline leaves, every other buffer as entered. -/
def W3 (c : Dev nD) : Valuation τ sig (Elt F) :=
  Function.update (Function.update (Function.update (Function.update (W2 m c)
    (Proc.devRef .tc main_v11_0) ((dat1 (V2 m) c).arrAt 7 cfg1.N))
    (Proc.devRef .tc main_v11_1) ((dat1 (V2 m) c).arrAt 8 cfg1.N))
    (Proc.devRef .tc main_v11_2) ((dat1 (V2 m) c).arrAt 9 cfg1.N))
    (Proc.devRef .tc main_v11_3) ((dat1 (V2 m) c).arrAt 10 cfg1.N)
/-- The same read at the TensorCore's references. -/
abbrev V3 : (c : Dev nD) → (b : Ref sig .tc) → Buf (Elt F) ((c : Thread nD τ).loc b) := fun c b => W3 m c b

theorem W3_res7 (c : Dev nD) : W3 m c (Proc.devRef .tc main_v11_0) = (dat1 (V2 m) c).arrAt 7 cfg1.N := by
  unfold W3
  rw [Function.update_of_ne (StableHlo.devRef_ne_of_ne (by decide)), Function.update_of_ne (StableHlo.devRef_ne_of_ne (by decide)),
    Function.update_of_ne (StableHlo.devRef_ne_of_ne (by decide)), Function.update_self]
theorem W3_res8 (c : Dev nD) : W3 m c (Proc.devRef .tc main_v11_1) = (dat1 (V2 m) c).arrAt 8 cfg1.N := by
  unfold W3
  rw [Function.update_of_ne (StableHlo.devRef_ne_of_ne (by decide)), Function.update_of_ne (StableHlo.devRef_ne_of_ne (by decide)),
    Function.update_self]
theorem W3_res9 (c : Dev nD) : W3 m c (Proc.devRef .tc main_v11_2) = (dat1 (V2 m) c).arrAt 9 cfg1.N := by
  unfold W3
  rw [Function.update_of_ne (StableHlo.devRef_ne_of_ne (by decide)), Function.update_self]
theorem W3_res10 (c : Dev nD) : W3 m c (Proc.devRef .tc main_v11_3) = (dat1 (V2 m) c).arrAt 10 cfg1.N := by
  unfold W3
  rw [Function.update_self]
/-- Off the four results the recombination leaves every buffer as it found it. -/
theorem W3_of (c : Dev nD) (r : Ref sig .tc) (h : r ∉ ([main_v11_0, main_v11_1, main_v11_2, main_v11_3] : List (Ref sig .tc))) :
    W3 m c (Proc.devRef .tc r) = W2 m c (Proc.devRef .tc r) := by
  unfold W3
  rw [Function.update_of_ne (StableHlo.devRef_ne_of_ne (List.ne_of_not_mem_cons (List.not_mem_of_not_mem_cons (List.not_mem_of_not_mem_cons (List.not_mem_of_not_mem_cons h))))),
    Function.update_of_ne (StableHlo.devRef_ne_of_ne (List.ne_of_not_mem_cons (List.not_mem_of_not_mem_cons (List.not_mem_of_not_mem_cons h)))),
    Function.update_of_ne (StableHlo.devRef_ne_of_ne (List.ne_of_not_mem_cons (List.not_mem_of_not_mem_cons h))),
    Function.update_of_ne (StableHlo.devRef_ne_of_ne (List.ne_of_not_mem_cons h))]

/-- A buffer that no host operation writes and that is neither the product's result nor one of the recombination's
    results reaches the end as launched. -/
theorem W3_launch (c : Dev nD) (r : Ref sig .tc)
    (h3 : r ∉ ([main_v11_0, main_v11_1, main_v11_2, main_v11_3] : List (Ref sig .tc)))
    (h2 : ∀ w, Pipeline.arrRef spec0 w ≠ r) (h1 : r ∉ hostOps0_W) :
    W3 m c (Proc.devRef .tc r) = m ((c : Thread nD τ).loc r) :=
  (W3_of m c r h3).trans <| (W2_of_ne m c r h2).trans <| (V1_of m c r h1).trans rfl

/-! ### The arguments end as launched -/

theorem W3_main_arg0 (c : Dev nD) : W3 m c (Proc.devRef .tc main_arg0) = m ((c : Thread nD τ).loc main_arg0) :=
  W3_launch m c main_arg0 (by decide) (by decide) (by decide)
theorem W3_main_arg1 (c : Dev nD) : W3 m c (Proc.devRef .tc main_arg1) = m ((c : Thread nD τ).loc main_arg1) :=
  W3_launch m c main_arg1 (by decide) (by decide) (by decide)
theorem W3_main_arg2 (c : Dev nD) : W3 m c (Proc.devRef .tc main_arg2) = m ((c : Thread nD τ).loc main_arg2) :=
  W3_launch m c main_arg2 (by decide) (by decide) (by decide)
theorem W3_main_arg3 (c : Dev nD) : W3 m c (Proc.devRef .tc main_arg3) = m ((c : Thread nD τ).loc main_arg3) :=
  W3_launch m c main_arg3 (by decide) (by decide) (by decide)
theorem W3_main_arg4 (c : Dev nD) : W3 m c (Proc.devRef .tc main_arg4) = m ((c : Thread nD τ).loc main_arg4) :=
  W3_launch m c main_arg4 (by decide) (by decide) (by decide)
theorem W3_main_arg5 (c : Dev nD) : W3 m c (Proc.devRef .tc main_arg5) = m ((c : Thread nD τ).loc main_arg5) :=
  W3_launch m c main_arg5 (by decide) (by decide) (by decide)
theorem W3_main_arg6 (c : Dev nD) : W3 m c (Proc.devRef .tc main_arg6) = m ((c : Thread nD τ).loc main_arg6) :=
  W3_launch m c main_arg6 (by decide) (by decide) (by decide)
theorem W3_main_arg7 (c : Dev nD) : W3 m c (Proc.devRef .tc main_arg7) = m ((c : Thread nD τ).loc main_arg7) :=
  W3_launch m c main_arg7 (by decide) (by decide) (by decide)
theorem W3_main_arg8 (c : Dev nD) : W3 m c (Proc.devRef .tc main_arg8) = m ((c : Thread nD τ).loc main_arg8) :=
  W3_launch m c main_arg8 (by decide) (by decide) (by decide)
theorem W3_main_arg9 (c : Dev nD) : W3 m c (Proc.devRef .tc main_arg9) = m ((c : Thread nD τ).loc main_arg9) :=
  W3_launch m c main_arg9 (by decide) (by decide) (by decide)
theorem W3_main_arg10 (c : Dev nD) : W3 m c (Proc.devRef .tc main_arg10) = m ((c : Thread nD τ).loc main_arg10) :=
  W3_launch m c main_arg10 (by decide) (by decide) (by decide)
theorem W3_main_arg11 (c : Dev nD) : W3 m c (Proc.devRef .tc main_arg11) = m ((c : Thread nD τ).loc main_arg11) :=
  W3_launch m c main_arg11 (by decide) (by decide) (by decide)
theorem W3_main_arg12 (c : Dev nD) : W3 m c (Proc.devRef .tc main_arg12) = m ((c : Thread nD τ).loc main_arg12) :=
  W3_launch m c main_arg12 (by decide) (by decide) (by decide)
theorem W3_main_arg13 (c : Dev nD) : W3 m c (Proc.devRef .tc main_arg13) = m ((c : Thread nD τ).loc main_arg13) :=
  W3_launch m c main_arg13 (by decide) (by decide) (by decide)
theorem W3_main_arg14 (c : Dev nD) : W3 m c (Proc.devRef .tc main_arg14) = m ((c : Thread nD τ).loc main_arg14) :=
  W3_launch m c main_arg14 (by decide) (by decide) (by decide)
theorem W3_main_arg15 (c : Dev nD) : W3 m c (Proc.devRef .tc main_arg15) = m ((c : Thread nD τ).loc main_arg15) :=
  W3_launch m c main_arg15 (by decide) (by decide) (by decide)
theorem W3_main_arg16 (c : Dev nD) : W3 m c (Proc.devRef .tc main_arg16) = m ((c : Thread nD τ).loc main_arg16) :=
  W3_launch m c main_arg16 (by decide) (by decide) (by decide)
theorem W3_main_arg17 (c : Dev nD) : W3 m c (Proc.devRef .tc main_arg17) = m ((c : Thread nD τ).loc main_arg17) :=
  W3_launch m c main_arg17 (by decide) (by decide) (by decide)
theorem W3_main_arg18 (c : Dev nD) : W3 m c (Proc.devRef .tc main_arg18) = m ((c : Thread nD τ).loc main_arg18) :=
  W3_launch m c main_arg18 (by decide) (by decide) (by decide)
theorem W3_main_arg19 (c : Dev nD) : W3 m c (Proc.devRef .tc main_arg19) = m ((c : Thread nD τ).loc main_arg19) :=
  W3_launch m c main_arg19 (by decide) (by decide) (by decide)
theorem W3_main_arg20 (c : Dev nD) : W3 m c (Proc.devRef .tc main_arg20) = m ((c : Thread nD τ).loc main_arg20) :=
  W3_launch m c main_arg20 (by decide) (by decide) (by decide)

theorem V2_main_arg2 (c : Dev nD) : V2 m c main_arg2 = m ((c : Thread nD τ).loc main_arg2) :=
  (W2_of_ne m c main_arg2 (by decide)).trans <| (V1_of m c main_arg2 (by decide)).trans rfl
theorem V2_main_arg3 (c : Dev nD) : V2 m c main_arg3 = m ((c : Thread nD τ).loc main_arg3) :=
  (W2_of_ne m c main_arg3 (by decide)).trans <| (V1_of m c main_arg3 (by decide)).trans rfl
theorem V2_main_arg4 (c : Dev nD) : V2 m c main_arg4 = m ((c : Thread nD τ).loc main_arg4) :=
  (W2_of_ne m c main_arg4 (by decide)).trans <| (V1_of m c main_arg4 (by decide)).trans rfl

/-! ## What the recombination's exit needs of the last contents -/

/-- Each of the recombination's windows finds, in the last contents, what the pipeline leaves in its array: the seven
    inputs unchanged (four of them on the product's result), the four results at their write-backs. -/
theorem hF1 (c : Dev nD) : ∀ w : Fin cfg1.W, (dat1 (V2 m) c).arrAt w cfg1.N = V3 m c (Pipeline.arrRef spec1 w)
  | 0 => ((dat1 (V2 m) c).arrAt_in 0 rfl _).trans ((A_eq1 (V2 m) c 0).trans (W3_of m c main_v10 (by decide)).symm)
  | 1 => ((dat1 (V2 m) c).arrAt_in 1 rfl _).trans ((A_eq1 (V2 m) c 1).trans (W3_of m c main_v10 (by decide)).symm)
  | 2 => ((dat1 (V2 m) c).arrAt_in 2 rfl _).trans ((A_eq1 (V2 m) c 2).trans (W3_of m c main_v10 (by decide)).symm)
  | 3 => ((dat1 (V2 m) c).arrAt_in 3 rfl _).trans ((A_eq1 (V2 m) c 3).trans (W3_of m c main_v10 (by decide)).symm)
  | 4 => ((dat1 (V2 m) c).arrAt_in 4 rfl _).trans ((A_eq1 (V2 m) c 4).trans (W3_of m c main_arg2 (by decide)).symm)
  | 5 => ((dat1 (V2 m) c).arrAt_in 5 rfl _).trans ((A_eq1 (V2 m) c 5).trans (W3_of m c main_arg3 (by decide)).symm)
  | 6 => ((dat1 (V2 m) c).arrAt_in 6 rfl _).trans ((A_eq1 (V2 m) c 6).trans (W3_of m c main_arg4 (by decide)).symm)
  | 7 => (W3_res7 m c).symm
  | 8 => (W3_res8 m c).symm
  | 9 => (W3_res9 m c).symm
  | 10 => (W3_res10 m c).symm
  | ⟨_ + 11, h⟩ => absurd h (Nat.not_lt.2 (Nat.le_add_left _ _))

/-- The four results are among the recombination's arrays. -/
theorem res_mem_arr1 : ∀ r ∈ ([main_v11_0, main_v11_1, main_v11_2, main_v11_3] : List (Ref sig .tc)),
    r ∈ Finset.univ.image (Pipeline.arrRef spec1) := by decide

/-- Off the recombination's arrays the first and the last contents agree, so the buffers that bypass the region are
    the same resource at either. -/
theorem hrest1 (c : Dev nD) :
    (Pipeline.unscopedRest (Ix := Unit) (Name := ℕ) (U := UR sig nD τ) (Lvl := ℕ) spec1 c (V2 m c) : sProp 𝕄)
      = Pipeline.unscopedRest spec1 c (V3 m c) := by
  unfold Pipeline.unscopedRest
  exact bigSep_congr fun b hb => by
    rw [show V3 m c b = V2 m c b from W3_of m c b fun hmem => (Finset.mem_sdiff.mp hb).2 (res_mem_arr1 b hmem)]

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at
    some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The blocked product over the thread state: entered from every unscoped buffer at W1, left at W2. Its arrays split
    out of the unscoped buffers and put back at the exit contents; the generator register and the scoped buffers no
    window stages (the accumulator among them) into the invariant and out; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pointwise recombination over the thread state: entered from every unscoped buffer at W2, left at W3. Four of
    its input windows read one array, so the distinct buffers behind its windows are split out of the unscoped
    buffers, dealt to the windows at their shares, and collected again at the exit; the buffers that bypass the
    region are the same at the first and the last contents. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (StableHlo.held (c : Thread nD τ) (Pipeline.ucRefs τ sig) (W2 m c) : sProp 𝕄)
        ⊢ iprop((pdats m 1 c).arrays ((pdats m 1 c).arrAt · 0)
            ∗ Pipeline.unscopedRest (Ix := Unit) (Name := ℕ) (U := UR sig nD τ) (Lvl := ℕ) spec1 c (V2 m c)) := by
      rw [← Pipeline.unscopedBufs_held (Ix := Unit) (Name := ℕ) (U := UR sig nD τ) (Lvl := ℕ) c (W2 m c),
        Pipeline.unscopedBufs_split₀ (Ix := Unit) (Name := ℕ) (U := UR sig nD τ) (Lvl := ℕ) cfgs (1 : Fin 2) winFacts₀1.arr_unscoped c (V2 m c)]
      exact sep_mono (hsplit1 (V2 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
            ∗ Pipeline.unscopedRest (Ix := Unit) (Name := ℕ) (U := UR sig nD τ) (Lvl := ℕ) spec1 c (V2 m c))
        ⊢ (StableHlo.held (c : Thread nD τ) (Pipeline.ucRefs τ sig) (W3 m c) : sProp 𝕄) := by
      rw [← Pipeline.unscopedBufs_held (Ix := Unit) (Name := ℕ) (U := UR sig nD τ) (Lvl := ℕ) c (W3 m c),
        Pipeline.unscopedBufs_split₀ (Ix := Unit) (Name := ℕ) (U := UR sig nD τ) (Lvl := ℕ) cfgs (1 : Fin 2) winFacts₀1.arr_unscoped c (V3 m c),
        hrest1 m c]
      exact sep_mono (hjoin1 (V2 m) (V3 m) c (hF1 m c)) .rfl
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order: the host stretch from the launch contents, then the two regions. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- The program is the run of the segments. -/
theorem main_run (c : Dev nD) : main (F := F) c = Pipeline.Seg.run (segs m) := (main_chain c).trans (by chain_rfl)

set_option backward.isDefEq.respectTransparency.types false in
/-- THE RUN: from any memory with zero counters, every weakly fair execution of the program on the TensorCores
    terminates, nothing faulting, and every final memory holds, at each unscoped buffer of each core, the last
    boundary's contents W3. -/
theorem run_all : θ_run defs (onTc (τ := τ) (main (F := F))) ⟨m, fun _ => 0, ρ⟩
    (fun r => ∀ c : Dev nD, ∀ b ∈ Pipeline.ucRefs τ sig, r.2.mem ((c : Thread nD τ).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: every final memory has the argument arrays as launched, each read off the last contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    ⟨(h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c),
      (h c _ (mem_uc main_arg9 (by decide))).trans (W3_main_arg9 m c),
      (h c _ (mem_uc main_arg10 (by decide))).trans (W3_main_arg10 m c),
      (h c _ (mem_uc main_arg11 (by decide))).trans (W3_main_arg11 m c),
      (h c _ (mem_uc main_arg12 (by decide))).trans (W3_main_arg12 m c),
      (h c _ (mem_uc main_arg13 (by decide))).trans (W3_main_arg13 m c),
      (h c _ (mem_uc main_arg14 (by decide))).trans (W3_main_arg14 m c),
      (h c _ (mem_uc main_arg15 (by decide))).trans (W3_main_arg15 m c),
      (h c _ (mem_uc main_arg16 (by decide))).trans (W3_main_arg16 m c),
      (h c _ (mem_uc main_arg17 (by decide))).trans (W3_main_arg17 m c),
      (h c _ (mem_uc main_arg18 (by decide))).trans (W3_main_arg18 m c),
      (h c _ (mem_uc main_arg19 (by decide))).trans (W3_main_arg19 m c),
      (h c _ (mem_uc main_arg20 (by decide))).trans (W3_main_arg20 m c)⟩) (run_all m ρ)

end Cert.Kernel.Fr

end
-- ==== Proof.Ki.R0Runs.lean ====
/-
  Region 0, the product pre = [x,h]·[[W,R]]ᵀ + bias blocked over the contraction axis in two halves:
  what the two cases of its body are stated over. The windows' blocks read off the arrays at the entry
  contents V; the two branch conditions in closed form over the 64 grid points (the first holds at the even
  points, where the accumulator is reset, the second at the odd points, where the sum and the bias row are
  stored); where the output window is idle; the staging memrefs and the accumulator.
-/
import proofs.«109682_j16561393893827_1_alg».proof.Proof.Gen.KernelIdeal.Launch
import proofs.«109682_j16561393893827_1_alg».proof.Proof.Gen.KernelIdeal.Skeleton
import proofs.«109682_j16561393893827_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the left operand's block) holds its block at every point, for any proof data whose array
    is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the right operand's block) likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row's block) likewise: it is fetched at the even points only, and at an odd point
    its block index is the one of the point before, so the buffer still holds this point's block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first condition: the contraction coordinate is 0 (the accumulator is reset). -/
abbrev cond0_0 (i : grid0.Coords) : Prop := (Scalar.cmpi .ne (Scalar.extui (Scalar.cmpi .eq (BitVec.ofNat 32 (i 2).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second condition: the contraction coordinate is 1 (the sum is complete and is stored with the bias). -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At the points of case A (the first half of the contraction) the output is idle: nothing is stored into it, -/
theorem idleAt0_3_A : ∀ t : Fin cfg0.N, cond0_0 (grid0.coords t) → ¬cond0_1 (grid0.coords t) → cfg0.idle 3 (grid0.coords t) = true := by decide +kernel
/-- and its block is not written back there. -/
theorem noFlush0_3_A : ∀ t : Fin cfg0.N, cond0_0 (grid0.coords t) → ¬cond0_1 (grid0.coords t) → (cfg0.win 3).flush t = false := by decide +kernel
/-- At the points of case B (the second half) the output is live: the body stores into it. -/
theorem liveAt0_3_B : ∀ t : Fin cfg0.N, ¬cond0_0 (grid0.coords t) → cond0_1 (grid0.coords t) → cfg0.idle 3 (grid0.coords t) = false := by decide +kernel

/-! ## The staging memrefs and the accumulator -/

/-- One staging buffer of the output window, through which its contents are stated (the choice does not matter). -/
abbrev VO0_3 : View sig .tc .vmem S1024x1024 .f32 := (Memref.whole cc0_stg3_0 : Memref sig .tc .vmem S1024x1024 .f32).view
/-- Each window's current staging memref at point t, and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0_0 : Memref sig .tc .vmem S1024x1024 .f32 := Memref.whole cc0_scratch0
/-- The accumulator as a view: what it holds between points is stated through it. -/
abbrev VS0_0 : View sig .tc .vmem S1024x1024 .f32 := scM0_0.view

/-- The scoped buffers of the core that region 0 neither stages through nor accumulates in (the second
    region's staging buffers), each whole at some contents: they pass through region 0 untouched. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f))

/-- The region's invariant with the accumulator as a memref owned at some contents; the other scoped buffers
    (the second region's staging buffers) stay as a chain of buffers each at some contents. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_eq]; simp only [scM0_0, owns_whole]; try rfl

end Cert.KernelIdeal.Fr

end
-- ==== Proof.Ki.R0RunA.lean ====
/-
  Region 0, case A of the body (the contraction coordinate is 0: the even grid points). The accumulator is
  stored whole with zeros, read back, and stored whole again with the zeros plus the product of the two operand
  blocks; the bias row is not read and nothing is stored into the output block, which is handed back as found.
  The run of the body from the windows' blocks, with the pieces the accumulator ends with as its witness.
-/
import proofs.«109682_j16561393893827_1_alg».proof.Proof.Ki.R0Runs

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- Case A: on whole memrefs — the three inputs' at their blocks, the output's at contents xi3 it is handed back
    at, the accumulator's at anything — the body runs to the continuation holding the inputs' and the output's as
    they were and the accumulator with its pieces LS0 written (last store first). -/
noncomputable def kernelRun0_A (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S1024x2048 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_kernel i arg3 harg3 arg4 harg4 arg5 harg5 arg6 harg6 arg7 harg7) K } := by
  refine ⟨[], ?_, fun xi3 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.Ki.R0RunB.lean ====
/-
  Region 0, case B of the body (the contraction coordinate is 1: the odd grid points). The accumulator
  enters at what the point before left in it; it is stored whole with itself plus the product of the two operand
  blocks, read back, and the output block is stored whole with that sum plus the bias row broadcast over the rows.
  The run of the body from the windows' blocks and the entering accumulator, with the pieces the output block and
  the accumulator end with as its witness.
-/
import proofs.«109682_j16561393893827_1_alg».proof.Proof.Ki.R0RunA

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- Case B: on whole memrefs — the three inputs' at their blocks, the output's at anything, the accumulator's at
    the contents xs0 the point before left — the body runs to the continuation holding the inputs' as they were,
    the output's buffer with its pieces L3 written and the accumulator with its pieces LS0 written. -/
noncomputable def kernelRun0_B (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S1024x2048 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_kernel i arg3 harg3 arg4 harg4 arg5 harg5 arg6 harg6 arg7 harg7) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.Ki.R0Frame.lean ====
/-
  Region 0, the product pre = [x,h]·[[W,R]]ᵀ + bias blocked over the contraction axis in two halves: the
  proof data of its pipeline at the entry contents V, and the body obligation. What the output block's buffer and
  the accumulator hold after each grid point is defined by recursion on the point: at an even point the
  accumulator is zeros plus the first half's product (the output's buffer is not touched); at the odd point after
  it the accumulator is what the even point left plus the second half's product, and the output block is that sum
  plus the bias row. Between points the region's invariant holds the accumulator at exactly these contents.
-/
import proofs.«109682_j16561393893827_1_alg».proof.Proof.Ki.R0RunB

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-- Case A stores nothing into the output block: no pieces, a placeholder nothing consults (at these points the
    block is neither written back nor read at the next point). -/
def out0_A_3 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S1024x2048 .bf16) (x2 : Vec F S1x1024 .f32) : Vec F S1024x1024 .f32 :=
  VO0_3.read (Elt F) (VO0_3.writes (Elt F) VO0_3.junk (kernelRun0_A c i arg3 harg3 arg4 harg4 arg5 harg5 arg6 harg6 arg7 harg7 hc0 hc1 x0 x1 x2).1)

/-- Case A's pieces for the accumulator (the reset, then the first accumulation, each of the whole buffer)
    cover it. -/
theorem scover0_A_0 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S1024x2048 .bf16) (x2 : Vec F S1x1024 .f32) (y : S1024x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S1024x1024.size (by sl_kernel_rfl) y

/-- What case A leaves in the accumulator: its pieces read back. -/
def sout0_A_0 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S1024x2048 .bf16) (x2 : Vec F S1x1024 .f32) : Vec F S1024x1024 .f32 :=
  VS0_0.read (Elt F) (VS0_0.writes (Elt F) VS0_0.junk (kernelRun0_A c i arg3 harg3 arg4 harg4 arg5 harg5 arg6 harg6 arg7 harg7 hc0 hc1 x0 x1 x2).2.1)

/-- Case B's one store into the output block is of the whole block, so its pieces cover it. -/
theorem cover0_B_3 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S1024x2048 .bf16) (x2 : Vec F S1x1024 .f32) (xs0 : Vec F S1024x1024 .f32) (y : S1024x1024.Idx) :
    ∃ pc ∈ (kernelRun0_B c i arg3 harg3 arg4 harg4 arg5 harg5 arg6 harg6 arg7 harg7 hc0 hc1 x0 x1 x2 xs0).1, y ∈ pc.1.set :=
  View.cover_of_tiledL (kernelRun0_B c i arg3 harg3 arg4 harg4 arg5 harg5 arg6 harg6 arg7 harg7 hc0 hc1 x0 x1 x2 xs0).1 S1024x1024.size (by sl_kernel_rfl) y

/-- What case B leaves in the output block's buffer: its pieces read back. -/
def out0_B_3 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S1024x2048 .bf16) (x2 : Vec F S1x1024 .f32) (xs0 : Vec F S1024x1024 .f32) : Vec F S1024x1024 .f32 :=
  VO0_3.read (Elt F) (VO0_3.writes (Elt F) VO0_3.junk (kernelRun0_B c i arg3 harg3 arg4 harg4 arg5 harg5 arg6 harg6 arg7 harg7 hc0 hc1 x0 x1 x2 xs0).1)

/-- Case B's piece for the accumulator (the second accumulation, of the whole buffer) covers it. -/
theorem scover0_B_0 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S1024x2048 .bf16) (x2 : Vec F S1x1024 .f32) (xs0 : Vec F S1024x1024 .f32) (y : S1024x1024.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S1024x1024.size (by sl_kernel_rfl) y

/-- What case B leaves in the accumulator: its pieces read back. -/
def sout0_B_0 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S1024x2048 .bf16) (x2 : Vec F S1x1024 .f32) (xs0 : Vec F S1024x1024 .f32) : Vec F S1024x1024 .f32 :=
  VS0_0.read (Elt F) (VS0_0.writes (Elt F) VS0_0.junk (kernelRun0_B c i arg3 harg3 arg4 harg4 arg5 harg5 arg6 harg6 arg7 harg7 hc0 hc1 x0 x1 x2 xs0).2.1)

/-! ## What the output block's buffer and the accumulator hold after each point -/

/-- After the body at position n: (the output window's staging buffer, the accumulator). An even point is in
    case A, run at the point's blocks; an odd point is in case B, run at the point's blocks over the accumulator
    the point before left. No point is in both cases or in neither. -/
def outsAt0 (c : Dev nD) : (n : ℕ) → n < cfg0.N → Vec F S1024x1024 .f32 × Vec F S1024x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 2 = 0 then
      if h1 : (n + 1) % 2 = 1 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 2 = 1 then
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        False.elim (by omega)

/-- At an even point: case A's contents. -/
theorem outsAt0_A (c : Dev nD) (t : Fin cfg0.N) (h0 : t.val % 2 = 0) (h1 : ¬t.val % 2 = 1) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- At an odd point: case B's contents, over what the point before left in the accumulator. -/
theorem outsAt0_B (c : Dev nD) (t : Fin cfg0.N) (h0 : ¬t.val % 2 = 0) (h1 : t.val % 2 = 1) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the launch hands the region (every
    scoped buffer at anything); afterwards the accumulator at what the point before left in it, the other scoped
    buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl

/-- After point n (before point n + 1): the accumulator at that point's contents. -/
theorem PhiS_succ (c : Dev nD) (n : ℕ) (hn : n < cfg0.N) :
    PhiS V c (n + 1) hn = iprop(iprop(owns (c : Thread nD τ) scM0_0 fullShare ((outsAt0 V c n hn).2) ∗ rest0 (F := F) c) ∗ (∃ r, prngReg c r)) := rfl

/-- Before a point that is not the first: the accumulator at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of region 0's pipeline on core c: the arrays as the region finds them; after the body at
    point t each input's buffer at its block and the output's at outsAt0's first component; the invariant PhiS;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the parity of the point says which case it is
    in. At an even point the invariant hands the body the accumulator at anything (it is reset before it is read)
    and the output's buffer comes back as found; at an odd point the invariant hands it the accumulator at what
    the even point before left, and the output's buffer comes back covered by the one store. Either way the
    invariant takes the accumulator back at this point's contents; the other scoped buffers, the generator
    register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 2 = 0
  · by_cases h1 : t.val % 2 = 1
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hr⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 2 = 1
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_B t (fun h => h0 ((hcond0_0 t).mp h)) ((hcond0_1 t).mpr h1)], after0_3]
      rw [outsAt0_B V c t h0 h1]
      unfold out0_B_3 sout0_B_0; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_B_3 c _ _ _ _ _ _ _ _ _ _ _ _ _ _ _ _ _)
    · exfalso; omega

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives back what the launch handed over: the accumulator's named
    contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Fr

end
-- ==== Proof.Ki.R1Frame.lean ====
/-
  Region 1, the pointwise recombination of the four gate pre-activations with the carried state: the proof data of
  its pipeline at the entry contents V (four of its input windows read one array, the stacked pre-activation matrix,
  each at a quarter share), the body's triple and obligation, and the dealing of that array's share among the four
  windows on entry and its reassembly on exit.
-/
import proofs.«109682_j16561393893827_1_alg».proof.Proof.Gen.KernelIdeal.Launch
import proofs.«109682_j16561393893827_1_alg».proof.Proof.Gen.KernelIdeal.Skeleton
import proofs.«109682_j16561393893827_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The shares -/

/-- The share each window holds of its array: a quarter for each of the four windows on the stacked
    pre-activation matrix (the two halves of each half of the whole), the whole for the others. -/
def qsh1 : Fin 11 → PosShare TreeShare
  | ⟨0, _⟩ => fullShare.left.left
  | ⟨1, _⟩ => fullShare.left.right
  | ⟨2, _⟩ => fullShare.right.left
  | ⟨3, _⟩ => fullShare.right.right
  | _ => fullShare

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is V's and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is V's and whose body leaves the block in place: the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is V's and whose body leaves the block in place: the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is V's and whose body leaves the block in place: the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is V's and whose body leaves the block in place: the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is V's and whose body leaves the block in place: the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is V's and whose body leaves the block in place: the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and every store is of the whole 128 x 2048 buffer -/

abbrev r1_0 : Rect S128x2048 := Rect.unit (s := S128x2048) ![0, 0] S128x2048.size inb_S128x2048_S128x2048_0_0

/-! ## What the body leaves in each output window's buffer -/

/-- What the body leaves in each output window's staging buffer, from the seven input blocks: its one store,
    of the whole buffer (window 7 the new hidden state, 8 the new cell state, 9 the new normalizer, 10 the new
    stabilizer). -/
def out1_7 (x0 x1 x2 x3 x4 x5 x6 : Vec F S128x2048 .f32) : Vec F S128x2048 .f32 :=
  View.canon [⟨r1_0, k1_pay8 (View.ld x0 r1_0) (View.ld x1 r1_0) (View.ld x2 r1_0) (View.ld x3 r1_0) (View.ld x6 r1_0) (View.ld x4 r1_0) (View.ld x5 r1_0)⟩]
def out1_8 (x0 x1 x2 x3 x4 x5 x6 : Vec F S128x2048 .f32) : Vec F S128x2048 .f32 :=
  View.canon [⟨r1_0, k1_pay6 (View.ld x0 r1_0) (View.ld x1 r1_0) (View.ld x2 r1_0) (View.ld x6 r1_0) (View.ld x4 r1_0)⟩]
def out1_9 (x0 x1 x2 x3 x4 x5 x6 : Vec F S128x2048 .f32) : Vec F S128x2048 .f32 :=
  View.canon [⟨r1_0, k1_pay7 (View.ld x1 r1_0) (View.ld x2 r1_0) (View.ld x6 r1_0) (View.ld x5 r1_0)⟩]
def out1_10 (x0 x1 x2 x3 x4 x5 x6 : Vec F S128x2048 .f32) : Vec F S128x2048 .f32 :=
  View.canon [⟨r1_0, k1_pay3 (View.ld x1 r1_0) (View.ld x2 r1_0) (View.ld x6 r1_0)⟩]

/-- One store of the whole buffer tiles it (checked by evaluation), so it covers it. -/
theorem cover1 (p0 : Vec F S128x2048 .f32) (y : S128x2048.Idx) :
    ∃ pc ∈ ([⟨r1_0, p0⟩] : List (View.Piece (Elt F) S128x2048 .f32)), y ∈ pc.1.set :=
  View.cover_of_tiled [⟨r1_0, p0⟩] S128x2048.size (by rfl) y

/-! ## The body's triple -/

set_option maxHeartbeats 4000000 in
/-- The kernel body on whole staging memrefs, the inputs' at read contents and the outputs' at anything, runs to
    the continuation holding the inputs' as they were and each output's at its closed form of the inputs'. -/
theorem sound_kernel1 (c : Dev nD) (E : Set ℕ) (i : grid1.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole)
    (x0 x1 x2 x3 x4 x5 x6 : Vec F S128x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6) ∗ owns (c : Thread nD τ) arg9 fullShare (out1_8 x0 x1 x2 x3 x4 x5 x6) ∗ owns (c : Thread nD τ) arg10 fullShare (out1_9 x0 x1 x2 x3 x4 x5 x6) ∗ owns (c : Thread nD τ) arg11 fullShare (out1_10 x0 x1 x2 x3 x4 x5 x6)) -∗ K ⟨⟩))
      ⊢ wp frame (wpE (defs₀ (F := F)) Variants.none c none) E (cc1__gate_kernel i arg1 harg1 arg2 harg2 arg3 harg3 arg4 harg4 arg5 harg5 arg6 harg6 arg7 harg7 arg8 harg8 arg9 harg9 arg10 harg10 arg11 harg11) K := by
  simp only [cc1__gate_kernel_eq_skeleton]; unfold cc1__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1 _)
  isplitl [H8]
  · iexists _; isplitr
    swap; · iexact H8
    ipureintro
    exact View.read_writes_eq_canon _ _ _ (cover1 _)
  isplitl [H9]
  · iexists _; isplitr
    swap; · iexact H9
    ipureintro
    exact View.read_writes_eq_canon _ _ _ (cover1 _)
  iexists _; isplitr
  swap; · iexact H10
  ipureintro
  exact View.read_writes_eq_canon _ _ _ (cover1 _)

/-! ## The pipeline's proof data -/

/-- The proof data of the pipeline on core c: the arrays as the region finds them; after the body at point t each
    input's buffer at its block and each output's at its closed form of the input blocks; the class invariant (the
    scoped rest and the generator register, untouched); nothing owed; the shares above. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
    | ⟨10, _⟩ => out1_10 (iblk1 V c 0 t) (iblk1 V c 1 t) (iblk1 V c 2 t) (iblk1 V c 3 t) (iblk1 V c 4 t) (iblk1 V c 5 t) (iblk1 V c 6 t)
  Φ _ := Pipeline.ΦA spec1 c
  q := qsh1
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The dealing of the shared array's share -/

/-- Two propositions that entail each other are equal. -/
theorem eq_of_equiv {P Q : sProp 𝕄} (h : P ⊣⊢ Q) : P = Q := Idealize.SL.BI.Entails.antisymm h.1 h.2

/-- A whole share is its four quarters: the two halves of each of its two halves. -/
theorem pointsTo_quarters {ℓ : Loc nD τ sig} (f : Buf (Elt F) ℓ) :
    (ℓ ↦{fullShare} f : sProp 𝕄)
      = iprop((ℓ ↦{fullShare.left.left} f) ∗ (ℓ ↦{fullShare.left.right} f) ∗ (ℓ ↦{fullShare.right.left} f) ∗ (ℓ ↦{fullShare.right.right} f)) := by
  have h : (ℓ ↦{fullShare} f : sProp 𝕄) = iprop((ℓ ↦{fullShare.left} f) ∗ (ℓ ↦{fullShare.right} f)) :=
    eq_of_equiv (pointsTo_share (PosShare.mem_left_op_right fullShare))
  have hl : (ℓ ↦{fullShare.left} f : sProp 𝕄) = iprop((ℓ ↦{fullShare.left.left} f) ∗ (ℓ ↦{fullShare.left.right} f)) :=
    eq_of_equiv (pointsTo_share (PosShare.mem_left_op_right fullShare.left))
  have hr : (ℓ ↦{fullShare.right} f : sProp 𝕄) = iprop((ℓ ↦{fullShare.right.left} f) ∗ (ℓ ↦{fullShare.right.right} f)) :=
    eq_of_equiv (pointsTo_share (PosShare.mem_left_op_right fullShare.right))
  rw [h, hl, hr]
  apply eq_of_equiv
  constructor
  · iintro ⟨⟨H0, H1⟩, H2, H3⟩
    isplitl [H0]; · iexact H0
    isplitl [H1]; · iexact H1
    isplitl [H2]; · iexact H2
    iexact H3
  · iintro ⟨H0, H1, H2, H3⟩
    isplitl [H0 H1]
    · isplitl [H0]; · iexact H0
      iexact H1
    isplitl [H2]; · iexact H2
    iexact H3

/-- The distinct buffers behind the eleven windows' arrays are eight: the stacked pre-activation matrix, the three
    carried states, and the four results. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v10) ↦{fullShare} Vc main_v10)
        ∗ (((c : Thread nD τ).loc main_arg2) ↦{fullShare} Vc main_arg2)
        ∗ (((c : Thread nD τ).loc main_arg3) ↦{fullShare} Vc main_arg3)
        ∗ (((c : Thread nD τ).loc main_arg4) ↦{fullShare} Vc main_arg4)
        ∗ (((c : Thread nD τ).loc main_v11_0) ↦{fullShare} Vc main_v11_0)
        ∗ (((c : Thread nD τ).loc main_v11_1) ↦{fullShare} Vc main_v11_1)
        ∗ (((c : Thread nD τ).loc main_v11_2) ↦{fullShare} Vc main_v11_2)
        ∗ (((c : Thread nD τ).loc main_v11_3) ↦{fullShare} Vc main_v11_3)) := by
  unfold Pipeline.arrBufs
  exact bigSep_eq_bigSepL_of_eq [main_v10, main_arg2, main_arg3, main_arg4, main_v11_0, main_v11_1, main_v11_2, main_v11_3] (by decide) (by decide) _

/-- The windows' arrays at contents read off one valuation of the buffers, window by window: each array is a whole
    buffer; the four windows on the stacked matrix hold a quarter each, every other window its buffer whole. -/
theorem arrays1_eq (c : Dev nD) (Vc : (b : Ref sig .tc) → Buf (Elt F) ((c : Thread nD τ).loc b)) :
    (dat1 V c).arrays (fun w => Vc (Pipeline.arrRef spec1 w))
      = iprop((((c : Thread nD τ).loc main_v10) ↦{fullShare.left.left} Vc main_v10)
        ∗ (((c : Thread nD τ).loc main_v10) ↦{fullShare.left.right} Vc main_v10)
        ∗ (((c : Thread nD τ).loc main_v10) ↦{fullShare.right.left} Vc main_v10)
        ∗ (((c : Thread nD τ).loc main_v10) ↦{fullShare.right.right} Vc main_v10)
        ∗ (((c : Thread nD τ).loc main_arg2) ↦{fullShare} Vc main_arg2)
        ∗ (((c : Thread nD τ).loc main_arg3) ↦{fullShare} Vc main_arg3)
        ∗ (((c : Thread nD τ).loc main_arg4) ↦{fullShare} Vc main_arg4)
        ∗ (((c : Thread nD τ).loc main_v11_0) ↦{fullShare} Vc main_v11_0)
        ∗ (((c : Thread nD τ).loc main_v11_1) ↦{fullShare} Vc main_v11_1)
        ∗ (((c : Thread nD τ).loc main_v11_2) ↦{fullShare} Vc main_v11_2)
        ∗ (((c : Thread nD τ).loc main_v11_3) ↦{fullShare} Vc main_v11_3)) := by
  have hset : ∀ w : Fin 11, (cfg1.win w).arr.view.set = Finset.univ := fun w => (arr_whole1 w).set_eq_univ
  unfold Dat.arrays
  rw [bigSep_W1]
  simp only [hset 0, hset 1, hset 2, hset 3, hset 4, hset 5, hset 6, hset 7, hset 8, hset 9, hset 10]
  rfl

/-- The windows' arrays at one valuation of the buffers are the distinct buffers behind them at that valuation, each
    whole: the four quarters of the stacked matrix, held at one contents, are the whole of it. -/
theorem arrays1_eq_arrBufs (c : Dev nD) (Vc : (b : Ref sig .tc) → Buf (Elt F) ((c : Thread nD τ).loc b)) :
    (dat1 V c).arrays (fun w => Vc (Pipeline.arrRef spec1 w))
      = (Pipeline.arrBufs (Ix := Unit) (Name := ℕ) (U := UR sig nD τ) (Lvl := ℕ) spec1 c Vc : sProp 𝕄) := by
  rw [arrays1_eq, arrBufs1_eq, pointsTo_quarters (Vc main_v10)]
  apply eq_of_equiv
  constructor
  · iintro ⟨H0, H1, H2, H3, H4, H5, H6, H7, H8, H9, H10⟩
    isplitl [H0 H1 H2 H3]
    · isplitl [H0]; · iexact H0
      isplitl [H1]; · iexact H1
      isplitl [H2]; · iexact H2
      iexact H3
    isplitl [H4]; · iexact H4
    isplitl [H5]; · iexact H5
    isplitl [H6]; · iexact H6
    isplitl [H7]; · iexact H7
    isplitl [H8]; · iexact H8
    isplitl [H9]; · iexact H9
    iexact H10
  · iintro ⟨⟨H0, H1, H2, H3⟩, H4, H5, H6, H7, H8, H9, H10⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- ENTRY: the distinct buffers behind the windows' arrays, each whole, make the windows' arrays at their shares. -/
theorem hsplit1 (c : Dev nD) :
    (Pipeline.arrBufs (Ix := Unit) (Name := ℕ) (U := UR sig nD τ) (Lvl := ℕ) spec1 c (V c) : sProp 𝕄)
      ⊢ (dat1 V c).arrays ((dat1 V c).arrAt · 0) :=
  Entails.of_eq (arrays1_eq_arrBufs V c (V c)).symm

/-- EXIT: the windows' arrays at their final contents make the distinct buffers behind them, each whole, at any
    contents V' that agree with those. -/
theorem hjoin1 (V' : (c : Dev nD) → (b : Ref sig .tc) → Buf (Elt F) ((c : Thread nD τ).loc b)) (c : Dev nD)
    (hF : ∀ w, (dat1 V c).arrAt w cfg1.N = V' c (Pipeline.arrRef spec1 w)) :
    (dat1 V c).arrays ((dat1 V c).arrAt · cfg1.N)
      ⊢ (Pipeline.arrBufs (Ix := Unit) (Name := ℕ) (U := UR sig nD τ) (Lvl := ℕ) spec1 c (V' c) : sProp 𝕄) :=
  have hG : (fun w => (dat1 V c).arrAt w cfg1.N) = fun w => V' c (Pipeline.arrRef spec1 w) := funext hF
  (Entails.of_eq (congrArg (dat1 V c).arrays hG)).trans (Entails.of_eq (arrays1_eq_arrBufs V c (V' c)))

end Cert.KernelIdeal.Fr

end
-- ==== Proof.Ki.Run.lean ====
/-
  The run of the whole program: one stretch of host operations, the blocked product, the pointwise recombination.
  The buffer contents at each boundary, the two kernel regions as segments over the thread state "every unscoped
  buffer at the boundary's contents", and the launch over the three segments: every weakly fair execution terminates
  and every final memory holds, at each unscoped buffer, the last boundary's contents; in particular each argument
  array ends as launched.
-/
import proofs.«109682_j16561393893827_1_alg».proof.Proof.Ki.R0Frame
import proofs.«109682_j16561393893827_1_alg».proof.Proof.Ki.R1Frame
import proofs.«109682_j16561393893827_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m ((c : Dev nD), b)
/-- After the host operations (the product's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b

theorem V1_eq (c : Dev nD) : ∀ b, V1 m c b = StableHlo.after hostOps0 (fun b => m (c, b)) (Proc.devRef .tc b) := fun _ => rfl

/-- At the product's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W2_v10 (c : Dev nD) : W2 m c (Proc.devRef .tc main_v10) = (dat0 (V1 m) c).arrAt 3 cfg0.N := W2_arr m c 3
/-- The same read at the TensorCore's references (the recombination's entry). -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the recombination's exit: each of its four results at what the pipeline leaves, every other buffer as entered. -/
def W3 (c : Dev nD) : Valuation τ sig (Elt F) :=
  Function.update (Function.update (Function.update (Function.update (W2 m c)
    (Proc.devRef .tc main_v11_0) ((dat1 (V2 m) c).arrAt 7 cfg1.N))
    (Proc.devRef .tc main_v11_1) ((dat1 (V2 m) c).arrAt 8 cfg1.N))
    (Proc.devRef .tc main_v11_2) ((dat1 (V2 m) c).arrAt 9 cfg1.N))
    (Proc.devRef .tc main_v11_3) ((dat1 (V2 m) c).arrAt 10 cfg1.N)
/-- The same read at the TensorCore's references. -/
abbrev V3 : (c : Dev nD) → (b : Ref sig .tc) → Buf (Elt F) ((c : Thread nD τ).loc b) := fun c b => W3 m c b

theorem W3_res7 (c : Dev nD) : W3 m c (Proc.devRef .tc main_v11_0) = (dat1 (V2 m) c).arrAt 7 cfg1.N := by
  unfold W3
  rw [Function.update_of_ne (StableHlo.devRef_ne_of_ne (by decide)), Function.update_of_ne (StableHlo.devRef_ne_of_ne (by decide)),
    Function.update_of_ne (StableHlo.devRef_ne_of_ne (by decide)), Function.update_self]
theorem W3_res8 (c : Dev nD) : W3 m c (Proc.devRef .tc main_v11_1) = (dat1 (V2 m) c).arrAt 8 cfg1.N := by
  unfold W3
  rw [Function.update_of_ne (StableHlo.devRef_ne_of_ne (by decide)), Function.update_of_ne (StableHlo.devRef_ne_of_ne (by decide)),
    Function.update_self]
theorem W3_res9 (c : Dev nD) : W3 m c (Proc.devRef .tc main_v11_2) = (dat1 (V2 m) c).arrAt 9 cfg1.N := by
  unfold W3
  rw [Function.update_of_ne (StableHlo.devRef_ne_of_ne (by decide)), Function.update_self]
theorem W3_res10 (c : Dev nD) : W3 m c (Proc.devRef .tc main_v11_3) = (dat1 (V2 m) c).arrAt 10 cfg1.N := by
  unfold W3
  rw [Function.update_self]
/-- Off the four results the recombination leaves every buffer as it found it. -/
theorem W3_of (c : Dev nD) (r : Ref sig .tc) (h : r ∉ ([main_v11_0, main_v11_1, main_v11_2, main_v11_3] : List (Ref sig .tc))) :
    W3 m c (Proc.devRef .tc r) = W2 m c (Proc.devRef .tc r) := by
  unfold W3
  rw [Function.update_of_ne (StableHlo.devRef_ne_of_ne (List.ne_of_not_mem_cons (List.not_mem_of_not_mem_cons (List.not_mem_of_not_mem_cons (List.not_mem_of_not_mem_cons h))))),
    Function.update_of_ne (StableHlo.devRef_ne_of_ne (List.ne_of_not_mem_cons (List.not_mem_of_not_mem_cons (List.not_mem_of_not_mem_cons h)))),
    Function.update_of_ne (StableHlo.devRef_ne_of_ne (List.ne_of_not_mem_cons (List.not_mem_of_not_mem_cons h))),
    Function.update_of_ne (StableHlo.devRef_ne_of_ne (List.ne_of_not_mem_cons h))]

/-- A buffer that no host operation writes and that is neither the product's result nor one of the recombination's
    results reaches the end as launched. -/
theorem W3_launch (c : Dev nD) (r : Ref sig .tc)
    (h3 : r ∉ ([main_v11_0, main_v11_1, main_v11_2, main_v11_3] : List (Ref sig .tc)))
    (h2 : ∀ w, Pipeline.arrRef spec0 w ≠ r) (h1 : r ∉ hostOps0_W) :
    W3 m c (Proc.devRef .tc r) = m ((c : Thread nD τ).loc r) :=
  (W3_of m c r h3).trans <| (W2_of_ne m c r h2).trans <| (V1_of m c r h1).trans rfl

/-! ### The arguments end as launched -/

theorem W3_main_arg0 (c : Dev nD) : W3 m c (Proc.devRef .tc main_arg0) = m ((c : Thread nD τ).loc main_arg0) :=
  W3_launch m c main_arg0 (by decide) (by decide) (by decide)
theorem W3_main_arg1 (c : Dev nD) : W3 m c (Proc.devRef .tc main_arg1) = m ((c : Thread nD τ).loc main_arg1) :=
  W3_launch m c main_arg1 (by decide) (by decide) (by decide)
theorem W3_main_arg2 (c : Dev nD) : W3 m c (Proc.devRef .tc main_arg2) = m ((c : Thread nD τ).loc main_arg2) :=
  W3_launch m c main_arg2 (by decide) (by decide) (by decide)
theorem W3_main_arg3 (c : Dev nD) : W3 m c (Proc.devRef .tc main_arg3) = m ((c : Thread nD τ).loc main_arg3) :=
  W3_launch m c main_arg3 (by decide) (by decide) (by decide)
theorem W3_main_arg4 (c : Dev nD) : W3 m c (Proc.devRef .tc main_arg4) = m ((c : Thread nD τ).loc main_arg4) :=
  W3_launch m c main_arg4 (by decide) (by decide) (by decide)
theorem W3_main_arg5 (c : Dev nD) : W3 m c (Proc.devRef .tc main_arg5) = m ((c : Thread nD τ).loc main_arg5) :=
  W3_launch m c main_arg5 (by decide) (by decide) (by decide)
theorem W3_main_arg6 (c : Dev nD) : W3 m c (Proc.devRef .tc main_arg6) = m ((c : Thread nD τ).loc main_arg6) :=
  W3_launch m c main_arg6 (by decide) (by decide) (by decide)
theorem W3_main_arg7 (c : Dev nD) : W3 m c (Proc.devRef .tc main_arg7) = m ((c : Thread nD τ).loc main_arg7) :=
  W3_launch m c main_arg7 (by decide) (by decide) (by decide)
theorem W3_main_arg8 (c : Dev nD) : W3 m c (Proc.devRef .tc main_arg8) = m ((c : Thread nD τ).loc main_arg8) :=
  W3_launch m c main_arg8 (by decide) (by decide) (by decide)
theorem W3_main_arg9 (c : Dev nD) : W3 m c (Proc.devRef .tc main_arg9) = m ((c : Thread nD τ).loc main_arg9) :=
  W3_launch m c main_arg9 (by decide) (by decide) (by decide)
theorem W3_main_arg10 (c : Dev nD) : W3 m c (Proc.devRef .tc main_arg10) = m ((c : Thread nD τ).loc main_arg10) :=
  W3_launch m c main_arg10 (by decide) (by decide) (by decide)
theorem W3_main_arg11 (c : Dev nD) : W3 m c (Proc.devRef .tc main_arg11) = m ((c : Thread nD τ).loc main_arg11) :=
  W3_launch m c main_arg11 (by decide) (by decide) (by decide)
theorem W3_main_arg12 (c : Dev nD) : W3 m c (Proc.devRef .tc main_arg12) = m ((c : Thread nD τ).loc main_arg12) :=
  W3_launch m c main_arg12 (by decide) (by decide) (by decide)
theorem W3_main_arg13 (c : Dev nD) : W3 m c (Proc.devRef .tc main_arg13) = m ((c : Thread nD τ).loc main_arg13) :=
  W3_launch m c main_arg13 (by decide) (by decide) (by decide)
theorem W3_main_arg14 (c : Dev nD) : W3 m c (Proc.devRef .tc main_arg14) = m ((c : Thread nD τ).loc main_arg14) :=
  W3_launch m c main_arg14 (by decide) (by decide) (by decide)
theorem W3_main_arg15 (c : Dev nD) : W3 m c (Proc.devRef .tc main_arg15) = m ((c : Thread nD τ).loc main_arg15) :=
  W3_launch m c main_arg15 (by decide) (by decide) (by decide)
theorem W3_main_arg16 (c : Dev nD) : W3 m c (Proc.devRef .tc main_arg16) = m ((c : Thread nD τ).loc main_arg16) :=
  W3_launch m c main_arg16 (by decide) (by decide) (by decide)
theorem W3_main_arg17 (c : Dev nD) : W3 m c (Proc.devRef .tc main_arg17) = m ((c : Thread nD τ).loc main_arg17) :=
  W3_launch m c main_arg17 (by decide) (by decide) (by decide)
theorem W3_main_arg18 (c : Dev nD) : W3 m c (Proc.devRef .tc main_arg18) = m ((c : Thread nD τ).loc main_arg18) :=
  W3_launch m c main_arg18 (by decide) (by decide) (by decide)
theorem W3_main_arg19 (c : Dev nD) : W3 m c (Proc.devRef .tc main_arg19) = m ((c : Thread nD τ).loc main_arg19) :=
  W3_launch m c main_arg19 (by decide) (by decide) (by decide)
theorem W3_main_arg20 (c : Dev nD) : W3 m c (Proc.devRef .tc main_arg20) = m ((c : Thread nD τ).loc main_arg20) :=
  W3_launch m c main_arg20 (by decide) (by decide) (by decide)

theorem V2_main_arg2 (c : Dev nD) : V2 m c main_arg2 = m ((c : Thread nD τ).loc main_arg2) :=
  (W2_of_ne m c main_arg2 (by decide)).trans <| (V1_of m c main_arg2 (by decide)).trans rfl
theorem V2_main_arg3 (c : Dev nD) : V2 m c main_arg3 = m ((c : Thread nD τ).loc main_arg3) :=
  (W2_of_ne m c main_arg3 (by decide)).trans <| (V1_of m c main_arg3 (by decide)).trans rfl
theorem V2_main_arg4 (c : Dev nD) : V2 m c main_arg4 = m ((c : Thread nD τ).loc main_arg4) :=
  (W2_of_ne m c main_arg4 (by decide)).trans <| (V1_of m c main_arg4 (by decide)).trans rfl

/-! ## What the recombination's exit needs of the last contents -/

/-- Each of the recombination's windows finds, in the last contents, what the pipeline leaves in its array: the seven
    inputs unchanged (four of them on the product's result), the four results at their write-backs. -/
theorem hF1 (c : Dev nD) : ∀ w : Fin cfg1.W, (dat1 (V2 m) c).arrAt w cfg1.N = V3 m c (Pipeline.arrRef spec1 w)
  | 0 => ((dat1 (V2 m) c).arrAt_in 0 rfl _).trans ((A_eq1 (V2 m) c 0).trans (W3_of m c main_v10 (by decide)).symm)
  | 1 => ((dat1 (V2 m) c).arrAt_in 1 rfl _).trans ((A_eq1 (V2 m) c 1).trans (W3_of m c main_v10 (by decide)).symm)
  | 2 => ((dat1 (V2 m) c).arrAt_in 2 rfl _).trans ((A_eq1 (V2 m) c 2).trans (W3_of m c main_v10 (by decide)).symm)
  | 3 => ((dat1 (V2 m) c).arrAt_in 3 rfl _).trans ((A_eq1 (V2 m) c 3).trans (W3_of m c main_v10 (by decide)).symm)
  | 4 => ((dat1 (V2 m) c).arrAt_in 4 rfl _).trans ((A_eq1 (V2 m) c 4).trans (W3_of m c main_arg2 (by decide)).symm)
  | 5 => ((dat1 (V2 m) c).arrAt_in 5 rfl _).trans ((A_eq1 (V2 m) c 5).trans (W3_of m c main_arg3 (by decide)).symm)
  | 6 => ((dat1 (V2 m) c).arrAt_in 6 rfl _).trans ((A_eq1 (V2 m) c 6).trans (W3_of m c main_arg4 (by decide)).symm)
  | 7 => (W3_res7 m c).symm
  | 8 => (W3_res8 m c).symm
  | 9 => (W3_res9 m c).symm
  | 10 => (W3_res10 m c).symm
  | ⟨_ + 11, h⟩ => absurd h (Nat.not_lt.2 (Nat.le_add_left _ _))

/-- The four results are among the recombination's arrays. -/
theorem res_mem_arr1 : ∀ r ∈ ([main_v11_0, main_v11_1, main_v11_2, main_v11_3] : List (Ref sig .tc)),
    r ∈ Finset.univ.image (Pipeline.arrRef spec1) := by decide

/-- Off the recombination's arrays the first and the last contents agree, so the buffers that bypass the region are
    the same resource at either. -/
theorem hrest1 (c : Dev nD) :
    (Pipeline.unscopedRest (Ix := Unit) (Name := ℕ) (U := UR sig nD τ) (Lvl := ℕ) spec1 c (V2 m c) : sProp 𝕄)
      = Pipeline.unscopedRest spec1 c (V3 m c) := by
  unfold Pipeline.unscopedRest
  exact bigSep_congr fun b hb => by
    rw [show V3 m c b = V2 m c b from W3_of m c b fun hmem => (Finset.mem_sdiff.mp hb).2 (res_mem_arr1 b hmem)]

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at
    some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The blocked product over the thread state: entered from every unscoped buffer at W1, left at W2. Its arrays split
    out of the unscoped buffers and put back at the exit contents; the generator register and the scoped buffers no
    window stages (the accumulator among them) into the invariant and out; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pointwise recombination over the thread state: entered from every unscoped buffer at W2, left at W3. Four of
    its input windows read one array, so the distinct buffers behind its windows are split out of the unscoped
    buffers, dealt to the windows at their shares, and collected again at the exit; the buffers that bypass the
    region are the same at the first and the last contents. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (StableHlo.held (c : Thread nD τ) (Pipeline.ucRefs τ sig) (W2 m c) : sProp 𝕄)
        ⊢ iprop((pdats m 1 c).arrays ((pdats m 1 c).arrAt · 0)
            ∗ Pipeline.unscopedRest (Ix := Unit) (Name := ℕ) (U := UR sig nD τ) (Lvl := ℕ) spec1 c (V2 m c)) := by
      rw [← Pipeline.unscopedBufs_held (Ix := Unit) (Name := ℕ) (U := UR sig nD τ) (Lvl := ℕ) c (W2 m c),
        Pipeline.unscopedBufs_split₀ (Ix := Unit) (Name := ℕ) (U := UR sig nD τ) (Lvl := ℕ) cfgs (1 : Fin 2) winFacts₀1.arr_unscoped c (V2 m c)]
      exact sep_mono (hsplit1 (V2 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
            ∗ Pipeline.unscopedRest (Ix := Unit) (Name := ℕ) (U := UR sig nD τ) (Lvl := ℕ) spec1 c (V2 m c))
        ⊢ (StableHlo.held (c : Thread nD τ) (Pipeline.ucRefs τ sig) (W3 m c) : sProp 𝕄) := by
      rw [← Pipeline.unscopedBufs_held (Ix := Unit) (Name := ℕ) (U := UR sig nD τ) (Lvl := ℕ) c (W3 m c),
        Pipeline.unscopedBufs_split₀ (Ix := Unit) (Name := ℕ) (U := UR sig nD τ) (Lvl := ℕ) cfgs (1 : Fin 2) winFacts₀1.arr_unscoped c (V3 m c),
        hrest1 m c]
      exact sep_mono (hjoin1 (V2 m) (V3 m) c (hF1 m c)) .rfl
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order: the host stretch from the launch contents, then the two regions. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- The program is the run of the segments. -/
theorem main_run (c : Dev nD) : main (F := F) c = Pipeline.Seg.run (segs m) := (main_chain c).trans (by chain_rfl)

set_option backward.isDefEq.respectTransparency.types false in
/-- THE RUN: from any memory with zero counters, every weakly fair execution of the program on the TensorCores
    terminates, nothing faulting, and every final memory holds, at each unscoped buffer of each core, the last
    boundary's contents W3. -/
theorem run_all : θ_run defs (onTc (τ := τ) (main (F := F))) ⟨m, fun _ => 0, ρ⟩
    (fun r => ∀ c : Dev nD, ∀ b ∈ Pipeline.ucRefs τ sig, r.2.mem ((c : Thread nD τ).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: every final memory has the argument arrays as launched, each read off the last contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    ⟨(h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c),
      (h c _ (mem_uc main_arg9 (by decide))).trans (W3_main_arg9 m c),
      (h c _ (mem_uc main_arg10 (by decide))).trans (W3_main_arg10 m c),
      (h c _ (mem_uc main_arg11 (by decide))).trans (W3_main_arg11 m c),
      (h c _ (mem_uc main_arg12 (by decide))).trans (W3_main_arg12 m c),
      (h c _ (mem_uc main_arg13 (by decide))).trans (W3_main_arg13 m c),
      (h c _ (mem_uc main_arg14 (by decide))).trans (W3_main_arg14 m c),
      (h c _ (mem_uc main_arg15 (by decide))).trans (W3_main_arg15 m c),
      (h c _ (mem_uc main_arg16 (by decide))).trans (W3_main_arg16 m c),
      (h c _ (mem_uc main_arg17 (by decide))).trans (W3_main_arg17 m c),
      (h c _ (mem_uc main_arg18 (by decide))).trans (W3_main_arg18 m c),
      (h c _ (mem_uc main_arg19 (by decide))).trans (W3_main_arg19 m c),
      (h c _ (mem_uc main_arg20 (by decide))).trans (W3_main_arg20 m c)⟩) (run_all m ρ)

end Cert.KernelIdeal.Fr

end
-- ==== Proof.Spec.lean ====
/-
  The mathematics of one step of the exponential-gated recurrent cell, on the extended reals, with no program in sight.

  Four gates z, i, f, o. Each gate's pre-activation at batch row r and hidden unit j is the sum of two affine maps,
      (sum_k x[r,k] w[j,k] + b[j]) + (sum_k h[r,k] u[j,k] + d[j]),
  one of the input x and one of the previous hidden state h (linAt). The stacked form lays the four gates side by
  side along the columns of one matrix with 4 * 2048 columns: column g * 2048 + j is gate g at unit j (col, preCat), and
  contracts over the 2 * 2048 columns of [x, h] against the rows of [[w, u]] in two halves (accPre), adding the two biases
  after the products: ((sum over the x half) + (sum over the h half)) + (b[j] + d[j]). The two groupings are the same
  four terms: addition on the extended reals is commutative and associative (lin_regroup), so nothing here needs an
  entry to be finite.

  The recombination is pointwise (mNew .. hNew): with s = f + m the stabiliser is max s i, the two gates are
  exp (i - max) and exp (s - max), the cell and normaliser states are updated affinely in them and the hidden state is
  logistic(o) * c / n.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with a rows and b columns, indexed as the arrays of the programs are. -/
abbrev Mat (a b : Nat) : Type := (⟨2, ![a, b]⟩ : Shape).Idx → EReal
/-- A vector of extended reals of length a. -/
abbrev Row (a : Nat) : Type := (⟨1, ![a]⟩ : Shape).Idx → EReal

/-- Entry (r, j) of the product of x with the transpose of w: the sum over k of x[r,k] w[j,k]. -/
def dotT (x : Mat 4096 2048) (w : Mat 2048 2048) (r : Fin 4096) (j : Fin 2048) : EReal :=
  ∑ k : Fin 2048, x (ix2 r k) * w (ix2 j k)

/-- One gate's pre-activation at (r, j): the affine map of x plus the affine map of h. -/
def linAt (x h : Mat 4096 2048) (w : Mat 2048 2048) (b : Row 2048) (u : Mat 2048 2048) (d : Row 2048)
    (r : Fin 4096) (j : Fin 2048) : EReal :=
  (dotT x w r j + b (ix1 j)) + (dotT h u r j + d (ix1 j))

/-- The same four terms with the two products first and the two biases after. -/
theorem lin_regroup (x h : Mat 4096 2048) (w : Mat 2048 2048) (b : Row 2048) (u : Mat 2048 2048) (d : Row 2048)
    (r : Fin 4096) (j : Fin 2048) :
    (dotT x w r j + dotT h u r j) + (b (ix1 j) + d (ix1 j)) = linAt x h w b u d r j :=
  add_add_add_comm _ _ _ _

/-! ## The pointwise recombination -/

/-- The new stabiliser: the larger of f + m and i. -/
def mNew (f i mp : EReal) : EReal := max (f + mp) i
/-- The stabilised input gate. -/
def iHat (f i mp : EReal) : EReal := Ideal.exp (i - mNew f i mp)
/-- The stabilised forget gate. -/
def fHat (f i mp : EReal) : EReal := Ideal.exp ((f + mp) - mNew f i mp)
/-- The new cell state. -/
def cNew (z f i mp cp : EReal) : EReal := fHat f i mp * cp + iHat f i mp * Ideal.tanh z
/-- The new normaliser state. -/
def nNew (f i mp np : EReal) : EReal := fHat f i mp * np + iHat f i mp
/-- The new hidden state. -/
def hNew (z f i o mp cp np : EReal) : EReal :=
  Ideal.div (Ideal.logistic o * cNew z f i mp cp) (nNew f i mp np)

/-! ## The four gates side by side -/

/-- Column g * 2048 + j of the stacked matrix: gate g at hidden unit j. -/
def col (g : Fin 4) (j : Fin 2048) : Fin 8192 := ⟨g.val * 2048 + j.val, by omega⟩

theorem col_val (g : Fin 4) (j : Fin 2048) : (col g j).val = g.val * 2048 + j.val := rfl

/-- The four results from a stacked pre-activation matrix P (gate order z, i, f, o) and the previous states. -/
def gateH (P : Mat 4096 8192) (C N M : Mat 4096 2048) : Mat 4096 2048 := fun p =>
  hNew (P (ix2 (p 0) (col 0 (p 1)))) (P (ix2 (p 0) (col 2 (p 1)))) (P (ix2 (p 0) (col 1 (p 1))))
    (P (ix2 (p 0) (col 3 (p 1)))) (M p) (C p) (N p)
def gateC (P : Mat 4096 8192) (C M : Mat 4096 2048) : Mat 4096 2048 := fun p =>
  cNew (P (ix2 (p 0) (col 0 (p 1)))) (P (ix2 (p 0) (col 2 (p 1)))) (P (ix2 (p 0) (col 1 (p 1)))) (M p) (C p)
def gateN (P : Mat 4096 8192) (N M : Mat 4096 2048) : Mat 4096 2048 := fun p =>
  nNew (P (ix2 (p 0) (col 2 (p 1)))) (P (ix2 (p 0) (col 1 (p 1)))) (M p) (N p)
def gateM (P : Mat 4096 8192) (M : Mat 4096 2048) : Mat 4096 2048 := fun p =>
  mNew (P (ix2 (p 0) (col 2 (p 1)))) (P (ix2 (p 0) (col 1 (p 1)))) (M p)

/-! ## The arguments, and the stacked pre-activation as the reference groups it -/

/-- The twenty-one arguments of the cell. -/
structure Inp where
  x : Mat 4096 2048
  h : Mat 4096 2048
  c : Mat 4096 2048
  n : Mat 4096 2048
  m : Mat 4096 2048
  wz : Mat 2048 2048
  bz : Row 2048
  wi : Mat 2048 2048
  bi : Row 2048
  wf : Mat 2048 2048
  bf : Row 2048
  wo : Mat 2048 2048
  bo : Row 2048
  uz : Mat 2048 2048
  dz : Row 2048
  ui : Mat 2048 2048
  di : Row 2048
  uf : Mat 2048 2048
  df : Row 2048
  uo : Mat 2048 2048
  dO : Row 2048

/-- Gate g's input weights, input bias, recurrent weights and recurrent bias. -/
def Inp.w (a : Inp) : Fin 4 → Mat 2048 2048 := ![a.wz, a.wi, a.wf, a.wo]
def Inp.b (a : Inp) : Fin 4 → Row 2048 := ![a.bz, a.bi, a.bf, a.bo]
def Inp.u (a : Inp) : Fin 4 → Mat 2048 2048 := ![a.uz, a.ui, a.uf, a.uo]
def Inp.d (a : Inp) : Fin 4 → Row 2048 := ![a.dz, a.di, a.df, a.dO]

/-- Gate g's pre-activation at (r, j). -/
def preG (a : Inp) (g : Fin 4) (r : Fin 4096) (j : Fin 2048) : EReal :=
  linAt a.x a.h (a.w g) (a.b g) (a.u g) (a.d g) r j

/-- The stacked pre-activation matrix: column n is gate n / 2048 at unit n % 2048. -/
def preCat (a : Inp) : Mat 4096 8192 := fun p =>
  preG a ⟨(p 1).val / 2048, by have := (p 1).isLt; simp only [Matrix.cons_val_one, Matrix.cons_val_zero] at this; omega⟩ (p 0)
    ⟨(p 1).val % 2048, Nat.mod_lt _ (by norm_num)⟩

theorem preCat_col (a : Inp) (r : Fin 4096) (g : Fin 4) (j : Fin 2048) :
    preCat a (ix2 r (col g j)) = preG a g r j := by
  unfold preCat
  have h1 : (g.val * 2048 + j.val) / 2048 = g.val := by omega
  have h2 : (g.val * 2048 + j.val) % 2048 = j.val := by omega
  congr 1
  · exact Fin.ext h1
  · exact Fin.ext h2

/-! ## The stacked operands, and the product taken in two halves -/

/-- [x, h]: the input beside the previous hidden state. -/
def catX (a : Inp) : Mat 4096 4096 := fun p =>
  if hlt : (p 1).val < 2048 then a.x (ix2 (p 0) ⟨(p 1).val, hlt⟩)
  else a.h (ix2 (p 0) ⟨(p 1).val - 2048, by have := (p 1).isLt; simp only [Matrix.cons_val_one, Matrix.cons_val_zero] at this; omega⟩)

/-- [[w, u]] for the four gates stacked: row g * 2048 + j holds gate g's input weights of unit j, then its recurrent ones. -/
def catW (a : Inp) : Mat 8192 4096 := fun p =>
  if hlt : (p 1).val < 2048 then
    a.w ⟨(p 0).val / 2048, by have := (p 0).isLt; simp only [Matrix.cons_val_zero] at this; omega⟩
      (ix2 ⟨(p 0).val % 2048, Nat.mod_lt _ (by norm_num)⟩ ⟨(p 1).val, hlt⟩)
  else
    a.u ⟨(p 0).val / 2048, by have := (p 0).isLt; simp only [Matrix.cons_val_zero] at this; omega⟩
      (ix2 ⟨(p 0).val % 2048, Nat.mod_lt _ (by norm_num)⟩
        ⟨(p 1).val - 2048, by have := (p 1).isLt; simp only [Matrix.cons_val_one, Matrix.cons_val_zero] at this; omega⟩)

/-- The two biases added, as one row of 4 * 2048 entries. -/
def catB (a : Inp) : Mat 1 8192 := fun p =>
  a.b ⟨(p 1).val / 2048, by have := (p 1).isLt; simp only [Matrix.cons_val_one, Matrix.cons_val_zero] at this; omega⟩
      (ix1 ⟨(p 1).val % 2048, Nat.mod_lt _ (by norm_num)⟩)
    + a.d ⟨(p 1).val / 2048, by have := (p 1).isLt; simp only [Matrix.cons_val_one, Matrix.cons_val_zero] at this; omega⟩
      (ix1 ⟨(p 1).val % 2048, Nat.mod_lt _ (by norm_num)⟩)

/-- Column k of the first half, and of the second half, of a contraction over 2 * 2048. -/
def lo (k : Fin 2048) : Fin 4096 := ⟨k.val, by omega⟩
def hi (k : Fin 2048) : Fin 4096 := ⟨2048 + k.val, by omega⟩

/-- A product of A with the transpose of B over 2 * 2048 columns taken as two sums of 2048 terms, then a one-row
    bias added: what accumulating the two halves in turn and adding the bias last leaves. -/
def accPre (A : Mat 4096 4096) (B : Mat 8192 4096) (bias : Mat 1 8192) : Mat 4096 8192 := fun p =>
  ((∑ k : Fin 2048, A (ix2 (p 0) (lo k)) * B (ix2 (p 1) (lo k)))
    + (∑ k : Fin 2048, A (ix2 (p 0) (hi k)) * B (ix2 (p 1) (hi k))))
    + bias (ix2 (0 : Fin 1) (p 1))

end Cert.Spec

end
-- ==== Proof.Val.Inp.lean ====
/-
  The cell's twenty-one arguments, read out of a memory at the kernel program's argument buffers and at the
  reference program's, as the arguments of Spec.lean; memories that agree on the argument buffers give the same
  arguments.
-/
import proofs.«109682_j16561393893827_1_alg».proof.KernelIdeal
import proofs.«109682_j16561393893827_1_alg».proof.ReferenceIdeal
import proofs.«109682_j16561393893827_1_alg».proof.Proof.Spec

noncomputable section

namespace Cert.Val

open Idealize.ShloMosaic Idealize.ShloMosaic.TcCoe Idealize.SL.Sem

/-- The arguments as the kernel program's memory holds them on core c. -/
def inpOf (m : (ℓ : Loc Cert.KernelIdeal.nD Cert.KernelIdeal.τ Cert.KernelIdeal.sig) → Buf (Elt Ideal) ℓ) (c : Dev Cert.KernelIdeal.nD) : Cert.Spec.Inp where
  x := m ((c.tc : Thread Cert.KernelIdeal.nD Cert.KernelIdeal.τ).loc Cert.KernelIdeal.main_arg0)
  h := m ((c.tc : Thread Cert.KernelIdeal.nD Cert.KernelIdeal.τ).loc Cert.KernelIdeal.main_arg1)
  c := m ((c.tc : Thread Cert.KernelIdeal.nD Cert.KernelIdeal.τ).loc Cert.KernelIdeal.main_arg2)
  n := m ((c.tc : Thread Cert.KernelIdeal.nD Cert.KernelIdeal.τ).loc Cert.KernelIdeal.main_arg3)
  m := m ((c.tc : Thread Cert.KernelIdeal.nD Cert.KernelIdeal.τ).loc Cert.KernelIdeal.main_arg4)
  wz := m ((c.tc : Thread Cert.KernelIdeal.nD Cert.KernelIdeal.τ).loc Cert.KernelIdeal.main_arg5)
  bz := m ((c.tc : Thread Cert.KernelIdeal.nD Cert.KernelIdeal.τ).loc Cert.KernelIdeal.main_arg6)
  wi := m ((c.tc : Thread Cert.KernelIdeal.nD Cert.KernelIdeal.τ).loc Cert.KernelIdeal.main_arg7)
  bi := m ((c.tc : Thread Cert.KernelIdeal.nD Cert.KernelIdeal.τ).loc Cert.KernelIdeal.main_arg8)
  wf := m ((c.tc : Thread Cert.KernelIdeal.nD Cert.KernelIdeal.τ).loc Cert.KernelIdeal.main_arg9)
  bf := m ((c.tc : Thread Cert.KernelIdeal.nD Cert.KernelIdeal.τ).loc Cert.KernelIdeal.main_arg10)
  wo := m ((c.tc : Thread Cert.KernelIdeal.nD Cert.KernelIdeal.τ).loc Cert.KernelIdeal.main_arg11)
  bo := m ((c.tc : Thread Cert.KernelIdeal.nD Cert.KernelIdeal.τ).loc Cert.KernelIdeal.main_arg12)
  uz := m ((c.tc : Thread Cert.KernelIdeal.nD Cert.KernelIdeal.τ).loc Cert.KernelIdeal.main_arg13)
  dz := m ((c.tc : Thread Cert.KernelIdeal.nD Cert.KernelIdeal.τ).loc Cert.KernelIdeal.main_arg14)
  ui := m ((c.tc : Thread Cert.KernelIdeal.nD Cert.KernelIdeal.τ).loc Cert.KernelIdeal.main_arg15)
  di := m ((c.tc : Thread Cert.KernelIdeal.nD Cert.KernelIdeal.τ).loc Cert.KernelIdeal.main_arg16)
  uf := m ((c.tc : Thread Cert.KernelIdeal.nD Cert.KernelIdeal.τ).loc Cert.KernelIdeal.main_arg17)
  df := m ((c.tc : Thread Cert.KernelIdeal.nD Cert.KernelIdeal.τ).loc Cert.KernelIdeal.main_arg18)
  uo := m ((c.tc : Thread Cert.KernelIdeal.nD Cert.KernelIdeal.τ).loc Cert.KernelIdeal.main_arg19)
  dO := m ((c.tc : Thread Cert.KernelIdeal.nD Cert.KernelIdeal.τ).loc Cert.KernelIdeal.main_arg20)

/-- The arguments as the reference program's memory holds them on core c. -/
def inpOfRef (m : (ℓ : Loc Cert.ReferenceIdeal.nD Cert.ReferenceIdeal.τ Cert.ReferenceIdeal.sig) → Buf (Elt Ideal) ℓ) (c : Dev Cert.ReferenceIdeal.nD) : Cert.Spec.Inp where
  x := m ((c.tc : Thread Cert.ReferenceIdeal.nD Cert.ReferenceIdeal.τ).loc Cert.ReferenceIdeal.main_arg0)
  h := m ((c.tc : Thread Cert.ReferenceIdeal.nD Cert.ReferenceIdeal.τ).loc Cert.ReferenceIdeal.main_arg1)
  c := m ((c.tc : Thread Cert.ReferenceIdeal.nD Cert.ReferenceIdeal.τ).loc Cert.ReferenceIdeal.main_arg2)
  n := m ((c.tc : Thread Cert.ReferenceIdeal.nD Cert.ReferenceIdeal.τ).loc Cert.ReferenceIdeal.main_arg3)
  m := m ((c.tc : Thread Cert.ReferenceIdeal.nD Cert.ReferenceIdeal.τ).loc Cert.ReferenceIdeal.main_arg4)
  wz := m ((c.tc : Thread Cert.ReferenceIdeal.nD Cert.ReferenceIdeal.τ).loc Cert.ReferenceIdeal.main_arg5)
  bz := m ((c.tc : Thread Cert.ReferenceIdeal.nD Cert.ReferenceIdeal.τ).loc Cert.ReferenceIdeal.main_arg6)
  wi := m ((c.tc : Thread Cert.ReferenceIdeal.nD Cert.ReferenceIdeal.τ).loc Cert.ReferenceIdeal.main_arg7)
  bi := m ((c.tc : Thread Cert.ReferenceIdeal.nD Cert.ReferenceIdeal.τ).loc Cert.ReferenceIdeal.main_arg8)
  wf := m ((c.tc : Thread Cert.ReferenceIdeal.nD Cert.ReferenceIdeal.τ).loc Cert.ReferenceIdeal.main_arg9)
  bf := m ((c.tc : Thread Cert.ReferenceIdeal.nD Cert.ReferenceIdeal.τ).loc Cert.ReferenceIdeal.main_arg10)
  wo := m ((c.tc : Thread Cert.ReferenceIdeal.nD Cert.ReferenceIdeal.τ).loc Cert.ReferenceIdeal.main_arg11)
  bo := m ((c.tc : Thread Cert.ReferenceIdeal.nD Cert.ReferenceIdeal.τ).loc Cert.ReferenceIdeal.main_arg12)
  uz := m ((c.tc : Thread Cert.ReferenceIdeal.nD Cert.ReferenceIdeal.τ).loc Cert.ReferenceIdeal.main_arg13)
  dz := m ((c.tc : Thread Cert.ReferenceIdeal.nD Cert.ReferenceIdeal.τ).loc Cert.ReferenceIdeal.main_arg14)
  ui := m ((c.tc : Thread Cert.ReferenceIdeal.nD Cert.ReferenceIdeal.τ).loc Cert.ReferenceIdeal.main_arg15)
  di := m ((c.tc : Thread Cert.ReferenceIdeal.nD Cert.ReferenceIdeal.τ).loc Cert.ReferenceIdeal.main_arg16)
  uf := m ((c.tc : Thread Cert.ReferenceIdeal.nD Cert.ReferenceIdeal.τ).loc Cert.ReferenceIdeal.main_arg17)
  df := m ((c.tc : Thread Cert.ReferenceIdeal.nD Cert.ReferenceIdeal.τ).loc Cert.ReferenceIdeal.main_arg18)
  uo := m ((c.tc : Thread Cert.ReferenceIdeal.nD Cert.ReferenceIdeal.τ).loc Cert.ReferenceIdeal.main_arg19)
  dO := m ((c.tc : Thread Cert.ReferenceIdeal.nD Cert.ReferenceIdeal.τ).loc Cert.ReferenceIdeal.main_arg20)

end Cert.Val

end
-- ==== Proof.Val.Host.lean ====
/-
  What the host leaves in the three arrays the blocked product reads.

  Before the product the program lays its operands side by side: the input beside the previous hidden state
  (columns 0 .. 2047 are x, columns 2048 .. 4095 are h); the four gates' input weights stacked by rows beside the four
  gates' recurrent weights stacked by rows (row g * 2048 + j of the result is gate g's unit j: its input weights in the
  first 2048 columns, its recurrent weights in the last 2048); and the four input biases end to end plus the four
  recurrent biases end to end, laid out as one row. The two changes of float format on the way are the identity on the
  extended reals. Entry by entry these are Spec.lean's catX, catW and catB of the arguments.
-/
import proofs.«109682_j16561393893827_1_alg».proof.Proof.Gen.KernelIdeal.Launch
import proofs.«109682_j16561393893827_1_alg».proof.Proof.Val.Inp
import Idealize.ShloMosaic.Lib.StableHlo.Run
import Idealize.ShloMosaic.Lib.Pipeline.Value
import Idealize.ShloMosaic.Lib.ValueIdx

noncomputable section

namespace Cert.Val

open Idealize.ShloMosaic Idealize.ShloMosaic.TcCoe Idealize.SL.Sem Idealize.ShloMosaic.ValueIdx
open Cert.KernelIdeal Cert.KernelIdeal.Gen

/-! ## Pieces laid side by side, read at an entry -/

/-- Two matrices of 2048 columns side by side: an entry left of column 2048 is the first's. -/
theorem besideL {R : Nat} (x₁ x₂ : Cert.Spec.Mat R 2048)
    (h : Shape.Concatenates [(⟨2, ![R, 2048]⟩ : Shape), ⟨2, ![R, 2048]⟩] ⟨2, ![R, 4096]⟩ 1)
    (r : Fin R) (q : Fin 4096) (hq : q.val < 2048) :
    concatenate (⟨2, ![R, 4096]⟩ : Shape) 1 [⟨⟨2, ![R, 2048]⟩, x₁⟩, ⟨⟨2, ![R, 2048]⟩, x₂⟩] h (ix2 r q)
      = x₁ (ix2 r ⟨q.val, hq⟩) :=
  concatenate_pair_apply_left (t := ⟨2, ![R, 4096]⟩) (s₁ := ⟨2, ![R, 2048]⟩) (s₂ := ⟨2, ![R, 2048]⟩) (1 : Fin 2) x₁ x₂ h
    (ix2 r q) rfl (ix2 r ⟨q.val, hq⟩) (fun b => by match b with | ⟨0, _⟩ => rfl | ⟨1, _⟩ => rfl)

/-- … and an entry from column 2048 on is the second's, 2048 columns to the left. -/
theorem besideR {R : Nat} (x₁ x₂ : Cert.Spec.Mat R 2048)
    (h : Shape.Concatenates [(⟨2, ![R, 2048]⟩ : Shape), ⟨2, ![R, 2048]⟩] ⟨2, ![R, 4096]⟩ 1)
    (r : Fin R) (q : Fin 4096) (hq : ¬ q.val < 2048) :
    concatenate (⟨2, ![R, 4096]⟩ : Shape) 1 [⟨⟨2, ![R, 2048]⟩, x₁⟩, ⟨⟨2, ![R, 2048]⟩, x₂⟩] h (ix2 r q)
      = x₂ (ix2 r ⟨q.val - 2048, by omega⟩) :=
  concatenate_pair_apply_right (t := ⟨2, ![R, 4096]⟩) (s₁ := ⟨2, ![R, 2048]⟩) (s₂ := ⟨2, ![R, 2048]⟩) (1 : Fin 2) x₁ x₂ h
    (ix2 r q) rfl rfl (ix2 r ⟨q.val - 2048, by omega⟩)
    (fun b hb => by match b with | ⟨0, _⟩ => rfl | ⟨1, _⟩ => exact absurd rfl hb)
    (by show q.val - 2048 + 2048 = q.val; omega)

/-- Four square matrices stacked by rows: row r is row r % 2048 of matrix r / 2048. -/
theorem stack4 (f : Fin 4 → Cert.Spec.Mat 2048 2048)
    (h : Shape.Concatenates ((List.ofFn fun n : Fin 4 => (⟨⟨2, ![2048, 2048]⟩, f n⟩ : (s : Shape) × (s.Idx → EReal))).map (·.1)) ⟨2, ![8192, 2048]⟩ 0)
    (r : Fin 8192) (q : Fin 2048) :
    concatenate (⟨2, ![8192, 2048]⟩ : Shape) 0 (List.ofFn fun n : Fin 4 => (⟨⟨2, ![2048, 2048]⟩, f n⟩ : (s : Shape) × (s.Idx → EReal))) h (ix2 r q)
      = f ⟨r.val / 2048, by omega⟩ (ix2 ⟨r.val % 2048, Nat.mod_lt _ (by norm_num)⟩ q) :=
  concatenate_ofFn_apply (t := ⟨2, ![8192, 2048]⟩) (s₁ := ⟨2, ![2048, 2048]⟩) (0 : Fin 2) f h rfl 2048 rfl (ix2 r q)
    ⟨r.val / 2048, by omega⟩ rfl (ix2 ⟨r.val % 2048, Nat.mod_lt _ (by norm_num)⟩ q) rfl
    (fun b hb => by match b with | ⟨0, _⟩ => exact absurd rfl hb | ⟨1, _⟩ => rfl)

/-- Four vectors end to end: entry n is entry n % 2048 of vector n / 2048. -/
theorem chain4 (f : Fin 4 → Cert.Spec.Row 2048)
    (h : Shape.Concatenates ((List.ofFn fun n : Fin 4 => (⟨⟨1, ![2048]⟩, f n⟩ : (s : Shape) × (s.Idx → EReal))).map (·.1)) ⟨1, ![8192]⟩ 0)
    (q : Fin 8192) :
    concatenate (⟨1, ![8192]⟩ : Shape) 0 (List.ofFn fun n : Fin 4 => (⟨⟨1, ![2048]⟩, f n⟩ : (s : Shape) × (s.Idx → EReal))) h (ix1 q)
      = f ⟨q.val / 2048, by omega⟩ (ix1 ⟨q.val % 2048, Nat.mod_lt _ (by norm_num)⟩) :=
  concatenate_ofFn_apply (t := ⟨1, ![8192]⟩) (s₁ := ⟨1, ![2048]⟩) (0 : Fin 1) f h rfl 2048 rfl (ix1 q)
    ⟨q.val / 2048, by omega⟩ rfl (ix1 ⟨q.val % 2048, Nat.mod_lt _ (by norm_num)⟩) rfl
    (fun b hb => by match b with | ⟨0, _⟩ => exact absurd rfl hb)

/-- A vector of 8192 entries laid out as one row. -/
theorem asRow (v : Cert.Spec.Row 8192) (h : (⟨1, ![8192]⟩ : Shape).ShapeCasts ⟨2, ![1, 8192]⟩) (z : Fin 1) (q : Fin 8192) :
    shapeCast (⟨2, ![1, 8192]⟩ : Shape) v h (ix2 z q) = v (ix1 q) :=
  shapeCast_apply v h (ix2 z q) (ix1 q) (by
    rw [Shape.rowMajor_val_two, Shape.rowMajor_val_one]
    show q.val = z.val * 8192 + q.val
    have := z.isLt; omega)

variable (m : (ℓ : Loc nD τ sig) → Buf (Elt Ideal) ℓ) (c : Dev nD)

/-! ## The three arrays as the operations compose -/

theorem host_v7_term :
    (StableHlo.after (hostOps0 (F := Ideal)) (fun b => m (c, b)) (Proc.devRef .tc main_v7) : S4096x4096.Idx → EReal)
      = truncf .bf16 (concatenate S4096x4096 1 [⟨S4096x2048, (inpOf m c).x⟩, ⟨S4096x2048, (inpOf m c).h⟩] concatenates_S4096x2048_S4096x2048_S4096x4096_d1 : FVec Ideal S4096x4096 .f32) bitsLt_bf16_f32 := by
  after_results
  rfl

theorem host_v8_term :
    (StableHlo.after (hostOps0 (F := Ideal)) (fun b => m (c, b)) (Proc.devRef .tc main_v8) : S8192x4096.Idx → EReal)
      = truncf .bf16 (concatenate S8192x4096 1
          [⟨S8192x2048, concatenate S8192x2048 0 (List.ofFn fun n : Fin 4 => (⟨S2048x2048, (inpOf m c).w n⟩ : (s : Shape) × (s.Idx → EReal))) concatenates_S2048x2048_S2048x2048_S2048x2048_S2048x2048_S8192x2048_d0⟩,
           ⟨S8192x2048, concatenate S8192x2048 0 (List.ofFn fun n : Fin 4 => (⟨S2048x2048, (inpOf m c).u n⟩ : (s : Shape) × (s.Idx → EReal))) concatenates_S2048x2048_S2048x2048_S2048x2048_S2048x2048_S8192x2048_d0⟩]
          concatenates_S8192x2048_S8192x2048_S8192x4096_d1 : FVec Ideal S8192x4096 .f32) bitsLt_bf16_f32 := by
  after_results
  rfl

theorem host_v9_term :
    (StableHlo.after (hostOps0 (F := Ideal)) (fun b => m (c, b)) (Proc.devRef .tc main_v9) : S1x8192.Idx → EReal)
      = shapeCast S1x8192 (addf (F := Ideal) (φ := .f32)
          (concatenate S8192 0 (List.ofFn fun n : Fin 4 => (⟨S2048, (inpOf m c).b n⟩ : (s : Shape) × (s.Idx → EReal))) concatenates_S2048_S2048_S2048_S2048_S8192_d0)
          (concatenate S8192 0 (List.ofFn fun n : Fin 4 => (⟨S2048, (inpOf m c).d n⟩ : (s : Shape) × (s.Idx → EReal))) concatenates_S2048_S2048_S2048_S2048_S8192_d0))
        shapeCasts_S8192_S1x8192 := by
  after_results
  rfl

/-! ## Entry by entry -/

/-- The first operand of the product is the input beside the previous hidden state. -/
theorem host_v7 :
    (StableHlo.after (hostOps0 (F := Ideal)) (fun b => m (c, b)) (Proc.devRef .tc main_v7) : Cert.Spec.Mat 4096 4096)
      = Cert.Spec.catX (inpOf m c) := by
  refine (host_v7_term m c).trans ?_
  funext p
  obtain ⟨r, q, rfl⟩ : ∃ (r : Fin 4096) (q : Fin 4096), p = ix2 r q := ⟨p 0, p 1, eq_ix2 p⟩
  rw [truncf_apply]
  unfold Cert.Spec.catX
  by_cases hq : q.val < 2048
  · rw [dif_pos (show ((ix2 r q : (⟨2, ![4096, 4096]⟩ : Shape).Idx) 1).val < 2048 from hq)]
    exact besideL _ _ _ r q hq
  · rw [dif_neg (show ¬ ((ix2 r q : (⟨2, ![4096, 4096]⟩ : Shape).Idx) 1).val < 2048 from hq)]
    exact besideR _ _ _ r q hq

/-- The second operand is the stacked input weights beside the stacked recurrent weights. -/
theorem host_v8 :
    (StableHlo.after (hostOps0 (F := Ideal)) (fun b => m (c, b)) (Proc.devRef .tc main_v8) : Cert.Spec.Mat 8192 4096)
      = Cert.Spec.catW (inpOf m c) := by
  refine (host_v8_term m c).trans ?_
  funext p
  obtain ⟨r, q, rfl⟩ : ∃ (r : Fin 8192) (q : Fin 4096), p = ix2 r q := ⟨p 0, p 1, eq_ix2 p⟩
  rw [truncf_apply]
  unfold Cert.Spec.catW
  by_cases hq : q.val < 2048
  · rw [dif_pos (show ((ix2 r q : (⟨2, ![8192, 4096]⟩ : Shape).Idx) 1).val < 2048 from hq)]
    refine (besideL _ _ _ r q hq).trans ?_
    exact stack4 _ _ r ⟨q.val, hq⟩
  · rw [dif_neg (show ¬ ((ix2 r q : (⟨2, ![8192, 4096]⟩ : Shape).Idx) 1).val < 2048 from hq)]
    refine (besideR _ _ _ r q hq).trans ?_
    exact stack4 _ _ r ⟨q.val - 2048, by omega⟩

/-- The bias row is the input biases plus the recurrent biases, gate after gate. -/
theorem host_v9 :
    (StableHlo.after (hostOps0 (F := Ideal)) (fun b => m (c, b)) (Proc.devRef .tc main_v9) : Cert.Spec.Mat 1 8192)
      = Cert.Spec.catB (inpOf m c) := by
  refine (host_v9_term m c).trans ?_
  funext p
  obtain ⟨z, q, rfl⟩ : ∃ (z : Fin 1) (q : Fin 8192), p = ix2 z q := ⟨p 0, p 1, eq_ix2 p⟩
  refine (asRow _ _ z q).trans ?_
  rw [addf_apply]
  unfold Cert.Spec.catB
  exact congrArg₂ (· + ·) (chain4 _ _ q) (chain4 _ _ q)

end Cert.Val

end
-- ==== Proof.Val.R0Pay.lean ====
/-
  The three values the blocked product's body stores, entry by entry on the extended reals.

  The body keeps a 1024 x 1024 accumulator. Its reset stores zero everywhere. Its accumulation adds to entry (r, q)
  the sum over the 2048 columns k of one half of a[r, k] * b[q, k]: row r of a block of the first operand against row q
  of a block of the second (the second operand enters transposed). Its last step adds entry q of the bias block to
  every row. A change of float format is the identity here.
-/
import proofs.«109682_j16561393893827_1_alg».proof.Proof.Gen.KernelIdeal.Skeleton
import proofs.«109682_j16561393893827_1_alg».proof.Proof.Spec
import Idealize.ShloMosaic.Lib.Pipeline.Value
import Idealize.ShloMosaic.Lib.ValueIdx
import Idealize.ShloMosaic.PureOps.Ideal.Laws

noncomputable section

open scoped BigOperators

namespace Cert.Val

open Idealize.ShloMosaic Idealize.ShloMosaic.TcCoe Idealize.SL.Sem Idealize.ShloMosaic.ValueIdx
open Cert.KernelIdeal Cert.KernelIdeal.Gen

/-! ## The product's index maps: rows of the first operand against rows of the second -/

theorem lhs_mm_0 (i : S1024x1024.Idx) (q : dot_S1024x2048_S1024x2048_S1024x1024_1_1_0_0_n_n.contr.Idx) :
    (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
theorem lhs_mm_1 (i : S1024x1024.Idx) (q : dot_S1024x2048_S1024x2048_S1024x1024_1_1_0_0_n_n.contr.Idx) :
    (dot_S1024x2048_S1024x2048_S1024x1024_1_1_0_0_n_n.lhsIdx i q 1).val = (q ⟨0, by decide⟩).val :=
  dot_S1024x2048_S1024x2048_S1024x1024_1_1_0_0_n_n.lhsIdx_val_of_single rfl i q
theorem rhs_mm_0 (i : S1024x1024.Idx) (q : dot_S1024x2048_S1024x2048_S1024x1024_1_1_0_0_n_n.contr.Idx) :
    (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
theorem rhs_mm_1 (i : S1024x1024.Idx) (q : dot_S1024x2048_S1024x2048_S1024x1024_1_1_0_0_n_n.contr.Idx) :
    (dot_S1024x2048_S1024x2048_S1024x1024_1_1_0_0_n_n.rhsIdx i q 1).val = (q ⟨0, by decide⟩).val :=
  dot_S1024x2048_S1024x2048_S1024x1024_1_1_0_0_n_n.rhsIdx_val_of_single rfl i q

/-- A block product into a zero accumulator: entry (r, q) is row r of the first block against row q of the second. -/
theorem mm_apply (a b : FVec Ideal S1024x2048 .bf16) (r q : Fin 1024) :
    FloatOps.matmul dot_S1024x2048_S1024x2048_S1024x1024_1_1_0_0_n_n none a b (constant (F := Ideal) S1024x1024 .f32 0x00000000#32) (ix2 r q)
      = ∑ k : Fin 2048, a (ix2 r k) * b (ix2 q k) := by
  rw [Ideal.matmul_constant_zero_apply, ← Equiv.sum_comp (ValueIdx.contrEquiv1 dot_S1024x2048_S1024x2048_S1024x1024_1_1_0_0_n_n 2048 rfl rfl).symm]
  refine Finset.sum_congr rfl fun k _ => ?_
  have hk := ValueIdx.contrEquiv1_symm_val dot_S1024x2048_S1024x2048_S1024x1024_1_1_0_0_n_n 2048 rfl rfl k
  have el : dot_S1024x2048_S1024x2048_S1024x1024_1_1_0_0_n_n.lhsIdx (ix2 r q) ((ValueIdx.contrEquiv1 dot_S1024x2048_S1024x2048_S1024x1024_1_1_0_0_n_n 2048 rfl rfl).symm k) = ix2 r k := funext fun x => Fin.ext (by
    match x with
    | ⟨0, _⟩ => exact lhs_mm_0 _ _
    | ⟨1, _⟩ => exact (lhs_mm_1 _ _).trans hk)
  have er : dot_S1024x2048_S1024x2048_S1024x1024_1_1_0_0_n_n.rhsIdx (ix2 r q) ((ValueIdx.contrEquiv1 dot_S1024x2048_S1024x2048_S1024x1024_1_1_0_0_n_n 2048 rfl rfl).symm k) = ix2 q k := funext fun x => Fin.ext (by
    match x with
    | ⟨0, _⟩ => exact rhs_mm_0 _ _
    | ⟨1, _⟩ => exact (rhs_mm_1 _ _).trans hk)
  rw [el, er]

/-! ## The three stored values, entry by entry -/

/-- The reset stores zero. -/
theorem pay1_apply (r q : Fin 1024) : (k0_pay1 (F := Ideal)) (ix2 r q) = 0 := by
  unfold k0_pay1
  rw [shapeCast_self]
  exact Ideal.ofBits_zero_f32

/-- The accumulation adds one half's block product to what the accumulator held. -/
theorem pay2_apply (acc : FVec Ideal S1024x1024 .f32) (a b : FVec Ideal S1024x2048 .bf16) (r q : Fin 1024) :
    k0_pay2 (F := Ideal) acc a b (ix2 r q) = acc (ix2 r q) + ∑ k : Fin 2048, a (ix2 r k) * b (ix2 q k) := by
  unfold k0_pay2
  simp only [shapeCast_self]
  refine (addf_apply _ _ _).trans ?_
  exact congrArg (acc (ix2 r q) + ·) (mm_apply a b r q)

/-- The last step adds the bias row to every row of the accumulator. -/
theorem pay3_apply (acc : FVec Ideal S1024x1024 .f32) (bias : FVec Ideal S1x1024 .f32) (r q : Fin 1024) :
    k0_pay3 (F := Ideal) acc bias (ix2 r q) = acc (ix2 r q) + bias (ix2 (0 : Fin 1) q) := by
  unfold k0_pay3
  refine (addf_apply _ _ _).trans ?_
  refine congrArg (acc (ix2 r q) + ·) ?_
  rw [shapeCast_self]
  exact broadcastTo_apply bias broadcasts_S1x1024_S1024x1024 (ix2 r q) (ix2 (0 : Fin 1) q)
    (fun x => by match x with | ⟨0, _⟩ => rfl | ⟨1, _⟩ => rfl)

end Cert.Val

end
-- ==== Proof.Val.R0Value.lean ====
/-
  What the blocked product leaves in its result array, on the extended reals.

  The product is taken block by block: grid point t = (i * 8 + j) * 2 + k works on rows i * 1024 .. of the first
  operand, rows j * 1024 .. of the second, and half k of the 4096 contracted columns. At k = 0 the accumulator is set
  to zero and the first half's 2048 products are added to it; at k = 1 the second half's are added and the sum plus
  the bias entry of column j * 1024 + q is stored as entry (r, q) of block (i, j) of the result. Only the points with
  k = 1 write a block back, and their 32 blocks tile the 4096 x 8192 result. So entry (R, Q) of the result is
      ((0 + sum over the first half of A[R, .] * B[Q, .]) + sum over the second half) + bias[Q],
  and 0 + s = s.
-/
import proofs.«109682_j16561393893827_1_alg».proof.Proof.Ki.R0Frame
import proofs.«109682_j16561393893827_1_alg».proof.Proof.Val.R0Pay
import Idealize.ShloMosaic.Lib.Pipeline.Value
import Idealize.ShloMosaic.Lib.ValueIdx
import Idealize.ShloMosaic.Lib.Tactic

noncomputable section

open scoped BigOperators

namespace Cert.Val

open Idealize.ShloMosaic Idealize.ShloMosaic.TcCoe Idealize.SL.Sem Idealize.ShloMosaic.ValueIdx Idealize.ShloMosaic.Tactic
open Idealize.ShloMosaic.Pipeline (Dat)
open Cert.KernelIdeal Cert.KernelIdeal.Gen Cert.KernelIdeal.Fr

/-! ## What each case of the body leaves, as the stored values -/

section Pieces
variable {F : FTy → Type} [FloatOps F]

theorem hz : (![0, 0] : Fin 2 → Nat) = fun _ => 0 := funext fun a => by fin_cases a <;> rfl

/-- At a point of the first half the accumulator ends at the accumulation over the reset. -/
theorem sout_A (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 x1 : Vec F S1024x2048 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x2048) hz]

/-- At a point of the second half the accumulator ends at the accumulation over what it held. -/
theorem sout_B (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x2048 .bf16) (x2 : Vec F S1x1024 .f32) (xs0 : Vec F S1024x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h7.read_unread, View.ld_unit_zero (S := S1024x2048) hz,
    View.ld_unit_zero (S := S1024x1024) hz]

/-- … and the output block at that accumulation plus the bias row. -/
theorem out_B (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x2048 .bf16) (x2 : Vec F S1x1024 .f32) (xs0 : Vec F S1024x1024 .f32) :
    out0_B_3 c i a3 h3 a4 h4 a5 h5 a6 h6 a7 h7 hc0 hc1 x0 x1 x2 xs0 = k0_pay3 (k0_pay2 xs0 x0 x1) x2 := by
  unfold out0_B_3
  rw [View.read_writes_eq_canon _ _ _ (cover0_B_3 c i a3 h3 a4 h4 a5 h5 a6 h6 a7 h7 hc0 hc1 x0 x1 x2 xs0)]
  unfold kernelRun0_B
  dsimp only
  sl_unfold_words
  rw [View.canon_unit_zero hz, View.readCov_unit_zero (S := S1024x1024) _ hz]
  simp only [View.readAt_eq_ld, h3.read_unread, h4.read_unread, h5.read_unread, h7.read_unread,
    View.ld_unit_zero (S := S1024x2048) hz, View.ld_unit_zero (S := S1024x1024) hz, View.ld_unit_zero (S := S1x1024) hz]

end Pieces

/-! ## Grid points and the blocks they read -/

variable (V : (c : Dev nD) → (b : Ref sig .tc) → Buf (Elt Ideal) ((c : Thread nD τ).loc b))

/-- The three arrays the product reads, as matrices of extended reals. -/
abbrev arrA (c : Dev nD) : Cert.Spec.Mat 4096 4096 := V c main_v7
abbrev arrB (c : Dev nD) : Cert.Spec.Mat 8192 4096 := V c main_v8
abbrev arrC (c : Dev nD) : Cert.Spec.Mat 1 8192 := V c main_v9

theorem tlt (t : Fin cfg0.N) : t.val < 64 := lt_of_lt_of_eq t.isLt (show cfg0.N = 64 from N_0)

/-- Point t = (i * 8 + j) * 2 + k reads block (i, k) of the first operand, block (j, k) of the second, block j of the
    bias row, and works on block (i, j) of the result. -/
theorem idx_facts : ∀ t : Fin cfg0.N,
    win0_0.index t (0 : Fin 2) = t.val / 16 ∧ win0_0.index t (1 : Fin 2) = t.val % 2
    ∧ win0_1.index t (0 : Fin 2) = t.val / 2 % 8 ∧ win0_1.index t (1 : Fin 2) = t.val % 2
    ∧ win0_2.index t (0 : Fin 2) = 0 ∧ win0_2.index t (1 : Fin 2) = t.val / 2 % 8
    ∧ win0_3.index t (0 : Fin 2) = t.val / 16 ∧ win0_3.index t (1 : Fin 2) = t.val / 2 % 8 :=
  (by decide +kernel : ∀ t : Fin grid0.N, _)

/-- Row r of the point's block of rows of the first operand (and of the result). -/
def rowA (t : Fin cfg0.N) (r : Fin 1024) : Fin 4096 := ⟨t.val / 16 * 1024 + r.val, by have := tlt t; have := r.isLt; omega⟩
/-- Row q of the point's block of rows of the second operand: column q of the point's block of the result. -/
def rowB (t : Fin cfg0.N) (q : Fin 1024) : Fin 8192 := ⟨t.val / 2 % 8 * 1024 + q.val, by have := q.isLt; omega⟩
/-- Column k of the point's half of the contracted columns. -/
def colK (t : Fin cfg0.N) (k : Fin 2048) : Fin 4096 := ⟨t.val % 2 * 2048 + k.val, by have := k.isLt; omega⟩

theorem blkA_apply (c : Dev nD) (t : Fin cfg0.N) (r : Fin 1024) (k : Fin 2048) :
    (iblk0 V c 0 t : FVec Ideal S1024x2048 .bf16) (ix2 r k) = arrA V c (ix2 (rowA t r) (colK t k)) := by
  obtain ⟨e0, e1, -⟩ := idx_facts t
  unfold iblk0
  rw [View.read_apply]
  show V c main_v7 _ = V c main_v7 _
  congr 1
  funext a; apply Fin.ext
  match a with
  | ⟨0, _⟩ => show win0_0.index t (0 : Fin 2) * 1024 + 1 * r.val = t.val / 16 * 1024 + r.val; rw [e0]; omega
  | ⟨1, _⟩ => show win0_0.index t (1 : Fin 2) * 2048 + 1 * k.val = t.val % 2 * 2048 + k.val; rw [e1]; omega

theorem blkB_apply (c : Dev nD) (t : Fin cfg0.N) (q : Fin 1024) (k : Fin 2048) :
    (iblk0 V c 1 t : FVec Ideal S1024x2048 .bf16) (ix2 q k) = arrB V c (ix2 (rowB t q) (colK t k)) := by
  obtain ⟨-, -, e0, e1, -⟩ := idx_facts t
  unfold iblk0
  rw [View.read_apply]
  show V c main_v8 _ = V c main_v8 _
  congr 1
  funext a; apply Fin.ext
  match a with
  | ⟨0, _⟩ => show win0_1.index t (0 : Fin 2) * 1024 + 1 * q.val = t.val / 2 % 8 * 1024 + q.val; rw [e0]; omega
  | ⟨1, _⟩ => show win0_1.index t (1 : Fin 2) * 2048 + 1 * k.val = t.val % 2 * 2048 + k.val; rw [e1]; omega

theorem blkC_apply (c : Dev nD) (t : Fin cfg0.N) (z : Fin 1) (q : Fin 1024) :
    (iblk0 V c 2 t : FVec Ideal S1x1024 .f32) (ix2 z q) = arrC V c (ix2 (0 : Fin 1) (rowB t q)) := by
  obtain ⟨-, -, -, -, e0, e1, -⟩ := idx_facts t
  unfold iblk0
  rw [View.read_apply]
  show V c main_v9 _ = V c main_v9 _
  congr 1
  funext a; apply Fin.ext
  match a with
  | ⟨0, _⟩ => show win0_2.index t (0 : Fin 2) * 1 + 1 * z.val = 0; rw [e0]; have := z.isLt; omega
  | ⟨1, _⟩ => show win0_2.index t (1 : Fin 2) * 1024 + 1 * q.val = t.val / 2 % 8 * 1024 + q.val; rw [e1]; omega

/-! ## The accumulator after the first half, the output block after the second -/

/-- After a point of the first half the accumulator holds zero plus the first half's products. -/
theorem acc_even (c : Dev nD) (t : Fin cfg0.N) (h0 : t.val % 2 = 0) (r q : Fin 1024) :
    ((outsAt0 V c t.val t.isLt).2 : FVec Ideal S1024x1024 .f32) (ix2 r q)
      = 0 + ∑ k : Fin 2048, arrA V c (ix2 (rowA t r) (Cert.Spec.lo k))
          * arrB V c (ix2 (rowB t q) (Cert.Spec.lo k)) := by
  have h1 : ¬t.val % 2 = 1 := by omega
  rw [outsAt0_A V c t h0 h1]
  dsimp only
  refine (congrFun (sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) (ix2 r q)).trans ?_
  refine (pay2_apply (k0_pay1 (F := Ideal)) (iblk0 V c 0 t) (iblk0 V c 1 t) r q).trans ?_
  rw [pay1_apply]
  refine congrArg (0 + ·) (Finset.sum_congr rfl fun k _ => ?_)
  rw [blkA_apply, blkB_apply]
  have e : colK t k = Cert.Spec.lo k := Fin.ext (by show t.val % 2 * 2048 + k.val = k.val; omega)
  rw [e]

/-- After a point of the second half the output block holds the two halves' products and the bias. -/
theorem out_odd (c : Dev nD) (t : Fin cfg0.N) (h1 : t.val % 2 = 1) (r q : Fin 1024) :
    ((outsAt0 V c t.val t.isLt).1 : FVec Ideal S1024x1024 .f32) (ix2 r q)
      = ((∑ k : Fin 2048, arrA V c (ix2 (rowA t r) (Cert.Spec.lo k))
            * arrB V c (ix2 (rowB t q) (Cert.Spec.lo k)))
          + ∑ k : Fin 2048, arrA V c (ix2 (rowA t r) (Cert.Spec.hi k))
            * arrB V c (ix2 (rowB t q) (Cert.Spec.hi k)))
        + arrC V c (ix2 (0 : Fin 1) (rowB t q)) := by
  have h0 : ¬t.val % 2 = 0 := by omega
  have hp : t.val - 1 < cfg0.N := Nat.lt_of_le_of_lt (Nat.sub_le _ _) t.isLt
  rw [outsAt0_B V c t h0 h1]
  dsimp only
  refine (congrFun (out_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) hp).2) (ix2 r q)).trans ?_
  refine (pay3_apply (k0_pay2 (F := Ideal) (outsAt0 V c (t.val - 1) hp).2 (iblk0 V c 0 t) (iblk0 V c 1 t)) (iblk0 V c 2 t) r q).trans ?_
  rw [blkC_apply]
  refine congrArg (· + arrC V c (ix2 (0 : Fin 1) (rowB t q))) ?_
  refine (pay2_apply (outsAt0 V c (t.val - 1) hp).2 (iblk0 V c 0 t) (iblk0 V c 1 t) r q).trans ?_
  have ea : rowA ⟨t.val - 1, hp⟩ r = rowA t r := Fin.ext (by show (t.val - 1) / 16 * 1024 + r.val = t.val / 16 * 1024 + r.val; omega)
  have eb : rowB ⟨t.val - 1, hp⟩ q = rowB t q := Fin.ext (by show (t.val - 1) / 2 % 8 * 1024 + q.val = t.val / 2 % 8 * 1024 + q.val; omega)
  rw [acc_even V c ⟨t.val - 1, hp⟩ (by show (t.val - 1) % 2 = 0; omega) r q, ea, eb, zero_add]
  refine congrArg (_ + ·) (Finset.sum_congr rfl fun k _ => ?_)
  rw [blkA_apply, blkB_apply]
  have e : colK t k = Cert.Spec.hi k := Fin.ext (by show t.val % 2 * 2048 + k.val = 2048 + k.val; omega)
  rw [e]

/-! ## From the blocks to the array -/

/-- What a point of the second half writes back is its block of the product taken in two halves. -/
theorem flushed_eq (c : Dev nD) (t : Fin cfg0.N) (hf : (cfg0.win 3).flush t = true) :
    (dat0 (F := Ideal) V c).flushed 3 t
      = ((cfg0.win 3).blk t).view.read (Elt Ideal) (Cert.Spec.accPre (V c main_v7) (V c main_v8) (V c main_v9)) := by
  have h1 : t.val % 2 = 1 := (flush0_3 t).mp hf
  obtain ⟨-, -, -, -, -, -, e0, e1⟩ := idx_facts t
  show (cfg0.win 3).cut (grid0.coords t) ((dat0 (F := Ideal) V c).after 3 t) = _
  rw [after0_3]
  funext j
  obtain ⟨r, q, rfl⟩ : ∃ (r q : Fin 1024), j = ix2 r q := ⟨j 0, j 1, eq_ix2 j⟩
  rw [View.read_apply]
  refine (out_odd V c t h1 r q).trans ?_
  have ej : ((cfg0.win 3).blk t).view.emb (ix2 r q) = (ix2 (rowA t r) (rowB t q) : (⟨2, ![4096, 8192]⟩ : Shape).Idx) := by
    funext a; apply Fin.ext
    match a with
    | ⟨0, _⟩ => show win0_3.index t (0 : Fin 2) * 1024 + 1 * r.val = t.val / 16 * 1024 + r.val; rw [e0]; omega
    | ⟨1, _⟩ => show win0_3.index t (1 : Fin 2) * 1024 + 1 * q.val = t.val / 2 % 8 * 1024 + q.val; rw [e1]; omega
  rw [ej]
  rfl

/-- An entry of the result lies in a point's block when each coordinate lies in the block's range. -/
theorem mem_blk (t : Fin cfg0.N) (i : S4096x8192.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v10).slice (win0_3.rect t)).set ↔ _
  rw [View.set_slice_whole, Rect.mem_set_unit]
  exact Iff.rfl

/-- Every entry (R, Q) of the result is in the block of the point (R / 1024, Q / 1024, 1), which writes back. -/
theorem covered (i : S4096x8192.Idx) :
    ∃ t : Fin cfg0.N, (cfg0.win 3).flush t = true ∧ i ∈ ((cfg0.win 3).blk t).view.set := by
  have hi0 : (i 0).val < 4096 := (i 0).isLt
  have hi1 : (i 1).val < 8192 := (i 1).isLt
  have hN : cfg0.N = 64 := N_0
  let t : Fin cfg0.N := ⟨((i 0).val / 1024 * 8 + (i 1).val / 1024) * 2 + 1, by rw [hN]; omega⟩
  have tv : t.val = ((i 0).val / 1024 * 8 + (i 1).val / 1024) * 2 + 1 := rfl
  obtain ⟨-, -, -, -, -, -, e0, e1⟩ := idx_facts t
  refine ⟨t, (flush0_3 t).mpr (by rw [tv]; omega), ?_⟩
  rw [mem_blk]
  intro a
  match a with
  | ⟨0, _⟩ => show win0_3.index t (0 : Fin 2) * 1024 ≤ (i 0).val ∧ (i 0).val < win0_3.index t (0 : Fin 2) * 1024 + 1024; rw [e0, tv]; omega
  | ⟨1, _⟩ => show win0_3.index t (1 : Fin 2) * 1024 ≤ (i 1).val ∧ (i 1).val < win0_3.index t (1 : Fin 2) * 1024 + 1024; rw [e1, tv]; omega

/-- The result array after the region: the product of the first operand with the transpose of the second, taken in
    two halves, plus the bias row. -/
theorem pre_value (c : Dev nD) :
    ((dat0 (F := Ideal) V c).arrAt 3 cfg0.N : Cert.Spec.Mat 4096 8192)
      = Cert.Spec.accPre (V c main_v7) (V c main_v8) (V c main_v9) :=
  (dat0 (F := Ideal) V c).arrAt_eq_of_cover 3 (Cert.Spec.accPre (V c main_v7) (V c main_v8) (V c main_v9))
    (fun t hf => flushed_eq V c t hf) covered

end Cert.Val

end
-- ==== Proof.Val.R1Value.lean ====
/-
  Region 1, the pointwise recombination, read as values on the extended reals: each of its four result arrays is,
  entry by entry, the recombination of Spec.lean (hNew, cNew, nNew, mNew) of the stacked pre-activation matrix and the
  three previous states, whatever those arrays hold when the region is entered.

  Three steps. (1) The body's arithmetic at one entry (r, q) of a 128 x 2048 block: on the extended reals the maximum,
  the two exponentials of differences, the products and sums, the hyperbolic tangent, the logistic function and the
  quotient are exactly the terms of mNew, iHat, fHat, cNew, nNew, hNew, the loaded blocks taken in the order
  z, i, f, o, m, c, n. (2) Where a block sits: at point t of the 32 every window's block is rows 128 t .. 128 t + 127;
  the window of gate g on the stacked matrix takes columns 2048 g .. 2048 g + 2047, so its entry (r, q) is entry
  (128 t + r, col g q) of the matrix; the state windows and the result windows take all 2048 columns. Hence what point
  t writes back is block t of one function of the whole arrays. (3) Row n of a result array lies in the block of point
  n / 128, so the 32 blocks cover the array and it ends holding that function everywhere.
-/
import proofs.«109682_j16561393893827_1_alg».proof.Proof.Ki.R1Frame
import proofs.«109682_j16561393893827_1_alg».proof.Proof.Spec
import Idealize.ShloMosaic.Lib.Pipeline.Value
import Idealize.ShloMosaic.Lib.ValueIdx

noncomputable section

namespace Cert.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace R1

/-! ## The body's arithmetic at one entry of a block -/

theorem pay_m_apply (x1 x2 x6 : Vec Ideal S128x2048 .f32) (r : Fin 128) (q : Fin 2048) :
    k1_pay3 x1 x2 x6 (ix2 r q) = Cert.Spec.mNew (x2 (ix2 r q)) (x1 (ix2 r q)) (x6 (ix2 r q)) := by
  unfold k1_pay3 k1_pay1 k1_pay2
  simp only [shapeCast_self]
  rfl

theorem pay_i_apply (x1 x2 x6 : Vec Ideal S128x2048 .f32) (r : Fin 128) (q : Fin 2048) :
    k1_pay4 x1 x2 x6 (ix2 r q) = Cert.Spec.iHat (x2 (ix2 r q)) (x1 (ix2 r q)) (x6 (ix2 r q)) := by
  unfold k1_pay4 k1_pay3 k1_pay1 k1_pay2
  simp only [shapeCast_self]
  rfl

theorem pay_f_apply (x1 x2 x6 : Vec Ideal S128x2048 .f32) (r : Fin 128) (q : Fin 2048) :
    k1_pay5 x1 x2 x6 (ix2 r q) = Cert.Spec.fHat (x2 (ix2 r q)) (x1 (ix2 r q)) (x6 (ix2 r q)) := by
  unfold k1_pay5 k1_pay3 k1_pay1 k1_pay2
  simp only [shapeCast_self]
  rfl

theorem pay_c_apply (x0 x1 x2 x6 x4 : Vec Ideal S128x2048 .f32) (r : Fin 128) (q : Fin 2048) :
    k1_pay6 x0 x1 x2 x6 x4 (ix2 r q)
      = Cert.Spec.cNew (x0 (ix2 r q)) (x2 (ix2 r q)) (x1 (ix2 r q)) (x6 (ix2 r q)) (x4 (ix2 r q)) := by
  unfold k1_pay6
  simp only [shapeCast_self]
  show k1_pay5 x1 x2 x6 (ix2 r q) * x4 (ix2 r q) + k1_pay4 x1 x2 x6 (ix2 r q) * Ideal.tanh (x0 (ix2 r q)) = _
  rw [pay_f_apply, pay_i_apply]
  rfl

theorem pay_n_apply (x1 x2 x6 x5 : Vec Ideal S128x2048 .f32) (r : Fin 128) (q : Fin 2048) :
    k1_pay7 x1 x2 x6 x5 (ix2 r q)
      = Cert.Spec.nNew (x2 (ix2 r q)) (x1 (ix2 r q)) (x6 (ix2 r q)) (x5 (ix2 r q)) := by
  unfold k1_pay7
  show k1_pay5 x1 x2 x6 (ix2 r q) * x5 (ix2 r q) + k1_pay4 x1 x2 x6 (ix2 r q) = _
  rw [pay_f_apply, pay_i_apply]
  rfl

theorem pay_h_apply (x0 x1 x2 x3 x6 x4 x5 : Vec Ideal S128x2048 .f32) (r : Fin 128) (q : Fin 2048) :
    k1_pay8 x0 x1 x2 x3 x6 x4 x5 (ix2 r q)
      = Cert.Spec.hNew (x0 (ix2 r q)) (x2 (ix2 r q)) (x1 (ix2 r q)) (x3 (ix2 r q)) (x6 (ix2 r q)) (x4 (ix2 r q)) (x5 (ix2 r q)) := by
  unfold k1_pay8
  simp only [shapeCast_self]
  show Ideal.div (Ideal.logistic (x3 (ix2 r q)) * k1_pay6 x0 x1 x2 x6 x4 (ix2 r q)) (k1_pay7 x1 x2 x6 x5 (ix2 r q)) = _
  rw [pay_c_apply, pay_n_apply]
  rfl

/-! ## Where a block sits in its array

The grid has 32 points. At point t every window's block is rows 128 t .. 128 t + 127 of its array; the four windows
on the stacked pre-activation matrix take columns 2048 g .. 2048 g + 2047 (gate g = 0, 1, 2, 3), the others all 2048
columns. -/

theorem hz1 : (![0, 0] : Fin 2 → Nat) = fun _ => 0 := funext fun a => by fin_cases a <;> rfl

/-- Row r of the block of point t is row 128 t + r of the array. -/
def rowOf (t : Fin cfg1.N) (r : Fin 128) : Fin 4096 :=
  ⟨t.val * 128 + r.val, by have h : t.val < 32 := Nat.lt_of_lt_of_eq t.isLt N_1; omega⟩

/-- The block index of every window at every point: (t, g) for the window of gate g, (t, 0) for the others. -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 1)
    ∧ (win1_2.index t (0 : Fin 2) = t.val ∧ win1_2.index t (1 : Fin 2) = 2)
    ∧ (win1_3.index t (0 : Fin 2) = t.val ∧ win1_3.index t (1 : Fin 2) = 3)
    ∧ (win1_4.index t (0 : Fin 2) = t.val ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0)
    ∧ (win1_7.index t (0 : Fin 2) = t.val ∧ win1_7.index t (1 : Fin 2) = 0)
    ∧ (win1_8.index t (0 : Fin 2) = t.val ∧ win1_8.index t (1 : Fin 2) = 0)
    ∧ (win1_9.index t (0 : Fin 2) = t.val ∧ win1_9.index t (1 : Fin 2) = 0)
    ∧ (win1_10.index t (0 : Fin 2) = t.val ∧ win1_10.index t (1 : Fin 2) = 0) :=
  (by decide +kernel : ∀ t : Fin grid1.N, _)

/-! ## The input blocks as entries of the arrays -/

/-- Entry (r, q) of gate 0's block at point t is entry (128 t + r, 2048 * 0 + q) of the stacked matrix. -/
theorem blk_gate0 (c : Dev nD) (t : Fin cfg1.N) (r : Fin 128) (q : Fin 2048) :
    (iblk1 V c 0 t : Vec Ideal S128x2048 .f32) (ix2 r q)
      = (V c main_v10 : Cert.Spec.Mat 4096 8192) (ix2 (rowOf t r) (Cert.Spec.col 0 q)) := by
  obtain ⟨⟨e0, e1⟩, -, -, -, -, -, -, -, -, -, -⟩ := idx_facts1 t
  show V c main_v10 (((cfg1.win 0).blk t).view.emb (ix2 r q)) = _
  congr 1
  funext a; apply Fin.ext
  match a with
  | ⟨0, _⟩ => show win1_0.index t (0 : Fin 2) * 128 + 1 * r.val = t.val * 128 + r.val; omega
  | ⟨1, _⟩ => show win1_0.index t (1 : Fin 2) * 2048 + 1 * q.val = 0 * 2048 + q.val; omega

/-- Entry (r, q) of gate 1's block at point t is entry (128 t + r, 2048 * 1 + q) of the stacked matrix. -/
theorem blk_gate1 (c : Dev nD) (t : Fin cfg1.N) (r : Fin 128) (q : Fin 2048) :
    (iblk1 V c 1 t : Vec Ideal S128x2048 .f32) (ix2 r q)
      = (V c main_v10 : Cert.Spec.Mat 4096 8192) (ix2 (rowOf t r) (Cert.Spec.col 1 q)) := by
  obtain ⟨-, ⟨e0, e1⟩, -, -, -, -, -, -, -, -, -⟩ := idx_facts1 t
  show V c main_v10 (((cfg1.win 1).blk t).view.emb (ix2 r q)) = _
  congr 1
  funext a; apply Fin.ext
  match a with
  | ⟨0, _⟩ => show win1_1.index t (0 : Fin 2) * 128 + 1 * r.val = t.val * 128 + r.val; omega
  | ⟨1, _⟩ => show win1_1.index t (1 : Fin 2) * 2048 + 1 * q.val = 1 * 2048 + q.val; omega

/-- Entry (r, q) of gate 2's block at point t is entry (128 t + r, 2048 * 2 + q) of the stacked matrix. -/
theorem blk_gate2 (c : Dev nD) (t : Fin cfg1.N) (r : Fin 128) (q : Fin 2048) :
    (iblk1 V c 2 t : Vec Ideal S128x2048 .f32) (ix2 r q)
      = (V c main_v10 : Cert.Spec.Mat 4096 8192) (ix2 (rowOf t r) (Cert.Spec.col 2 q)) := by
  obtain ⟨-, -, ⟨e0, e1⟩, -, -, -, -, -, -, -, -⟩ := idx_facts1 t
  show V c main_v10 (((cfg1.win 2).blk t).view.emb (ix2 r q)) = _
  congr 1
  funext a; apply Fin.ext
  match a with
  | ⟨0, _⟩ => show win1_2.index t (0 : Fin 2) * 128 + 1 * r.val = t.val * 128 + r.val; omega
  | ⟨1, _⟩ => show win1_2.index t (1 : Fin 2) * 2048 + 1 * q.val = 2 * 2048 + q.val; omega

/-- Entry (r, q) of gate 3's block at point t is entry (128 t + r, 2048 * 3 + q) of the stacked matrix. -/
theorem blk_gate3 (c : Dev nD) (t : Fin cfg1.N) (r : Fin 128) (q : Fin 2048) :
    (iblk1 V c 3 t : Vec Ideal S128x2048 .f32) (ix2 r q)
      = (V c main_v10 : Cert.Spec.Mat 4096 8192) (ix2 (rowOf t r) (Cert.Spec.col 3 q)) := by
  obtain ⟨-, -, -, ⟨e0, e1⟩, -, -, -, -, -, -, -⟩ := idx_facts1 t
  show V c main_v10 (((cfg1.win 3).blk t).view.emb (ix2 r q)) = _
  congr 1
  funext a; apply Fin.ext
  match a with
  | ⟨0, _⟩ => show win1_3.index t (0 : Fin 2) * 128 + 1 * r.val = t.val * 128 + r.val; omega
  | ⟨1, _⟩ => show win1_3.index t (1 : Fin 2) * 2048 + 1 * q.val = 3 * 2048 + q.val; omega

/-- Entry (r, q) of window 4's block at point t is entry (128 t + r, q) of its array. -/
theorem blk_state4 (c : Dev nD) (t : Fin cfg1.N) (r : Fin 128) (q : Fin 2048) :
    (iblk1 V c 4 t : Vec Ideal S128x2048 .f32) (ix2 r q)
      = (V c main_arg2 : Cert.Spec.Mat 4096 2048) (ix2 (rowOf t r) q) := by
  obtain ⟨-, -, -, -, ⟨e0, e1⟩, -, -, -, -, -, -⟩ := idx_facts1 t
  show V c main_arg2 (((cfg1.win 4).blk t).view.emb (ix2 r q)) = _
  congr 1
  funext a; apply Fin.ext
  match a with
  | ⟨0, _⟩ => show win1_4.index t (0 : Fin 2) * 128 + 1 * r.val = t.val * 128 + r.val; omega
  | ⟨1, _⟩ => show win1_4.index t (1 : Fin 2) * 2048 + 1 * q.val = q.val; omega

/-- Entry (r, q) of window 5's block at point t is entry (128 t + r, q) of its array. -/
theorem blk_state5 (c : Dev nD) (t : Fin cfg1.N) (r : Fin 128) (q : Fin 2048) :
    (iblk1 V c 5 t : Vec Ideal S128x2048 .f32) (ix2 r q)
      = (V c main_arg3 : Cert.Spec.Mat 4096 2048) (ix2 (rowOf t r) q) := by
  obtain ⟨-, -, -, -, -, ⟨e0, e1⟩, -, -, -, -, -⟩ := idx_facts1 t
  show V c main_arg3 (((cfg1.win 5).blk t).view.emb (ix2 r q)) = _
  congr 1
  funext a; apply Fin.ext
  match a with
  | ⟨0, _⟩ => show win1_5.index t (0 : Fin 2) * 128 + 1 * r.val = t.val * 128 + r.val; omega
  | ⟨1, _⟩ => show win1_5.index t (1 : Fin 2) * 2048 + 1 * q.val = q.val; omega

/-- Entry (r, q) of window 6's block at point t is entry (128 t + r, q) of its array. -/
theorem blk_state6 (c : Dev nD) (t : Fin cfg1.N) (r : Fin 128) (q : Fin 2048) :
    (iblk1 V c 6 t : Vec Ideal S128x2048 .f32) (ix2 r q)
      = (V c main_arg4 : Cert.Spec.Mat 4096 2048) (ix2 (rowOf t r) q) := by
  obtain ⟨-, -, -, -, -, -, ⟨e0, e1⟩, -, -, -, -⟩ := idx_facts1 t
  show V c main_arg4 (((cfg1.win 6).blk t).view.emb (ix2 r q)) = _
  congr 1
  funext a; apply Fin.ext
  match a with
  | ⟨0, _⟩ => show win1_6.index t (0 : Fin 2) * 128 + 1 * r.val = t.val * 128 + r.val; omega
  | ⟨1, _⟩ => show win1_6.index t (1 : Fin 2) * 2048 + 1 * q.val = q.val; omega

/-! ## Window 7: the new hidden state -/

/-- The one store of the whole buffer leaves the body's arithmetic of the seven loaded blocks. -/
theorem out7_eq (x0 x1 x2 x3 x4 x5 x6 : Vec Ideal S128x2048 .f32) :
    out1_7 x0 x1 x2 x3 x4 x5 x6 = k1_pay8 x0 x1 x2 x3 x6 x4 x5 := by
  unfold out1_7
  rw [View.canon_unit_zero hz1]
  simp only [View.ld_unit_zero (S := S128x2048) hz1]

/-- Entry (r, q) of the output block at point t is entry (128 t + r, q) of the result array. -/
theorem blk_out7 (t : Fin cfg1.N) (r : Fin 128) (q : Fin 2048) :
    ((cfg1.win 7).blk t).view.emb (ix2 r q) = (ix2 (rowOf t r) q : S4096x2048.Idx) := by
  obtain ⟨-, -, -, -, -, -, -, ⟨e0, e1⟩, -, -, -⟩ := idx_facts1 t
  funext a; apply Fin.ext
  match a with
  | ⟨0, _⟩ => show win1_7.index t (0 : Fin 2) * 128 + 1 * r.val = t.val * 128 + r.val; omega
  | ⟨1, _⟩ => show win1_7.index t (1 : Fin 2) * 2048 + 1 * q.val = q.val; omega

/-- What point t writes back is its block of the recombination of the whole arrays. -/
theorem flushed7_eq (c : Dev nD) (t : Fin cfg1.N) :
    (dat1 (F := Ideal) V c).flushed 7 t
      = ((cfg1.win 7).blk t).view.read (Elt Ideal) (Cert.Spec.gateH (V c main_v10) (V c main_arg2) (V c main_arg3) (V c main_arg4)) := by
  show (cfg1.win 7).cut (grid1.coords t) ((dat1 V c).after 7 t) = _
  rw [after1_7, out7_eq (iblk1 V c 0 t) (iblk1 V c 1 t) (iblk1 V c 2 t) (iblk1 V c 3 t) (iblk1 V c 4 t) (iblk1 V c 5 t) (iblk1 V c 6 t)]
  funext j
  obtain ⟨r, q, rfl⟩ : ∃ (r : Fin 128) (q : Fin 2048), j = ix2 r q := ⟨j 0, j 1, eq_ix2 j⟩
  show k1_pay8 (iblk1 V c 0 t) (iblk1 V c 1 t) (iblk1 V c 2 t) (iblk1 V c 3 t) (iblk1 V c 6 t) (iblk1 V c 4 t) (iblk1 V c 5 t) (ix2 r q)
      = Cert.Spec.gateH (V c main_v10) (V c main_arg2) (V c main_arg3) (V c main_arg4) (((cfg1.win 7).blk t).view.emb (ix2 r q))
  rw [blk_out7 t r q]
  refine (pay_h_apply (iblk1 V c 0 t) (iblk1 V c 1 t) (iblk1 V c 2 t) (iblk1 V c 3 t) (iblk1 V c 6 t) (iblk1 V c 4 t) (iblk1 V c 5 t) r q).trans ?_
  rw [blk_gate0 V c t r q, blk_gate1 V c t r q, blk_gate2 V c t r q, blk_gate3 V c t r q, blk_state6 V c t r q, blk_state4 V c t r q, blk_state5 V c t r q]
  rfl

/-- An entry of the result array is in point t's block iff each coordinate is in the block's range. -/
theorem mem_blk7 (t : Fin cfg1.N) (i : S4096x2048.Idx) :
    i ∈ ((cfg1.win 7).blk t).view.set ↔ ∀ a : Fin 2, win1_7.index t a * S128x2048.size a ≤ (i a).val ∧ (i a).val < win1_7.index t a * S128x2048.size a + S128x2048.size a := by
  show i ∈ ((View.whole main_v11_0).slice (win1_7.rect t)).set ↔ _
  rw [View.set_slice_whole, Rect.mem_set_unit]
  exact Iff.rfl

/-- Row n of the result array is written by point n / 128. -/
theorem cover7 (i : S4096x2048.Idx) :
    ∃ t : Fin cfg1.N, (cfg1.win 7).flush t = true ∧ i ∈ ((cfg1.win 7).blk t).view.set := by
  have hi0 : (i 0).val < 4096 := (i 0).isLt
  have hi1 : (i 1).val < 2048 := (i 1).isLt
  obtain ⟨t, ht⟩ : ∃ t : Fin cfg1.N, t.val = (i 0).val / 128 :=
    ⟨⟨(i 0).val / 128, Nat.lt_of_lt_of_eq (by omega) N_1.symm⟩, rfl⟩
  refine ⟨t, flush1_7 t, ?_⟩
  rw [mem_blk7]
  obtain ⟨-, -, -, -, -, -, -, ⟨e0, e1⟩, -, -, -⟩ := idx_facts1 t
  intro a
  match a with
  | ⟨0, _⟩ => show win1_7.index t (0 : Fin 2) * 128 ≤ (i 0).val ∧ (i 0).val < win1_7.index t (0 : Fin 2) * 128 + 128; omega
  | ⟨1, _⟩ => show win1_7.index t (1 : Fin 2) * 2048 ≤ (i 1).val ∧ (i 1).val < win1_7.index t (1 : Fin 2) * 2048 + 2048; omega

/-! ## Window 8: the new cell state -/

/-- The one store of the whole buffer leaves the body's arithmetic of the seven loaded blocks. -/
theorem out8_eq (x0 x1 x2 x3 x4 x5 x6 : Vec Ideal S128x2048 .f32) :
    out1_8 x0 x1 x2 x3 x4 x5 x6 = k1_pay6 x0 x1 x2 x6 x4 := by
  unfold out1_8
  rw [View.canon_unit_zero hz1]
  simp only [View.ld_unit_zero (S := S128x2048) hz1]

/-- Entry (r, q) of the output block at point t is entry (128 t + r, q) of the result array. -/
theorem blk_out8 (t : Fin cfg1.N) (r : Fin 128) (q : Fin 2048) :
    ((cfg1.win 8).blk t).view.emb (ix2 r q) = (ix2 (rowOf t r) q : S4096x2048.Idx) := by
  obtain ⟨-, -, -, -, -, -, -, -, ⟨e0, e1⟩, -, -⟩ := idx_facts1 t
  funext a; apply Fin.ext
  match a with
  | ⟨0, _⟩ => show win1_8.index t (0 : Fin 2) * 128 + 1 * r.val = t.val * 128 + r.val; omega
  | ⟨1, _⟩ => show win1_8.index t (1 : Fin 2) * 2048 + 1 * q.val = q.val; omega

/-- What point t writes back is its block of the recombination of the whole arrays. -/
theorem flushed8_eq (c : Dev nD) (t : Fin cfg1.N) :
    (dat1 (F := Ideal) V c).flushed 8 t
      = ((cfg1.win 8).blk t).view.read (Elt Ideal) (Cert.Spec.gateC (V c main_v10) (V c main_arg2) (V c main_arg4)) := by
  show (cfg1.win 8).cut (grid1.coords t) ((dat1 V c).after 8 t) = _
  rw [after1_8, out8_eq (iblk1 V c 0 t) (iblk1 V c 1 t) (iblk1 V c 2 t) (iblk1 V c 3 t) (iblk1 V c 4 t) (iblk1 V c 5 t) (iblk1 V c 6 t)]
  funext j
  obtain ⟨r, q, rfl⟩ : ∃ (r : Fin 128) (q : Fin 2048), j = ix2 r q := ⟨j 0, j 1, eq_ix2 j⟩
  show k1_pay6 (iblk1 V c 0 t) (iblk1 V c 1 t) (iblk1 V c 2 t) (iblk1 V c 6 t) (iblk1 V c 4 t) (ix2 r q)
      = Cert.Spec.gateC (V c main_v10) (V c main_arg2) (V c main_arg4) (((cfg1.win 8).blk t).view.emb (ix2 r q))
  rw [blk_out8 t r q]
  refine (pay_c_apply (iblk1 V c 0 t) (iblk1 V c 1 t) (iblk1 V c 2 t) (iblk1 V c 6 t) (iblk1 V c 4 t) r q).trans ?_
  rw [blk_gate0 V c t r q, blk_gate1 V c t r q, blk_gate2 V c t r q, blk_state6 V c t r q, blk_state4 V c t r q]
  rfl

/-- An entry of the result array is in point t's block iff each coordinate is in the block's range. -/
theorem mem_blk8 (t : Fin cfg1.N) (i : S4096x2048.Idx) :
    i ∈ ((cfg1.win 8).blk t).view.set ↔ ∀ a : Fin 2, win1_8.index t a * S128x2048.size a ≤ (i a).val ∧ (i a).val < win1_8.index t a * S128x2048.size a + S128x2048.size a := by
  show i ∈ ((View.whole main_v11_1).slice (win1_8.rect t)).set ↔ _
  rw [View.set_slice_whole, Rect.mem_set_unit]
  exact Iff.rfl

/-- Row n of the result array is written by point n / 128. -/
theorem cover8 (i : S4096x2048.Idx) :
    ∃ t : Fin cfg1.N, (cfg1.win 8).flush t = true ∧ i ∈ ((cfg1.win 8).blk t).view.set := by
  have hi0 : (i 0).val < 4096 := (i 0).isLt
  have hi1 : (i 1).val < 2048 := (i 1).isLt
  obtain ⟨t, ht⟩ : ∃ t : Fin cfg1.N, t.val = (i 0).val / 128 :=
    ⟨⟨(i 0).val / 128, Nat.lt_of_lt_of_eq (by omega) N_1.symm⟩, rfl⟩
  refine ⟨t, flush1_8 t, ?_⟩
  rw [mem_blk8]
  obtain ⟨-, -, -, -, -, -, -, -, ⟨e0, e1⟩, -, -⟩ := idx_facts1 t
  intro a
  match a with
  | ⟨0, _⟩ => show win1_8.index t (0 : Fin 2) * 128 ≤ (i 0).val ∧ (i 0).val < win1_8.index t (0 : Fin 2) * 128 + 128; omega
  | ⟨1, _⟩ => show win1_8.index t (1 : Fin 2) * 2048 ≤ (i 1).val ∧ (i 1).val < win1_8.index t (1 : Fin 2) * 2048 + 2048; omega

/-! ## Window 9: the new normaliser state -/

/-- The one store of the whole buffer leaves the body's arithmetic of the seven loaded blocks. -/
theorem out9_eq (x0 x1 x2 x3 x4 x5 x6 : Vec Ideal S128x2048 .f32) :
    out1_9 x0 x1 x2 x3 x4 x5 x6 = k1_pay7 x1 x2 x6 x5 := by
  unfold out1_9
  rw [View.canon_unit_zero hz1]
  simp only [View.ld_unit_zero (S := S128x2048) hz1]

/-- Entry (r, q) of the output block at point t is entry (128 t + r, q) of the result array. -/
theorem blk_out9 (t : Fin cfg1.N) (r : Fin 128) (q : Fin 2048) :
    ((cfg1.win 9).blk t).view.emb (ix2 r q) = (ix2 (rowOf t r) q : S4096x2048.Idx) := by
  obtain ⟨-, -, -, -, -, -, -, -, -, ⟨e0, e1⟩, -⟩ := idx_facts1 t
  funext a; apply Fin.ext
  match a with
  | ⟨0, _⟩ => show win1_9.index t (0 : Fin 2) * 128 + 1 * r.val = t.val * 128 + r.val; omega
  | ⟨1, _⟩ => show win1_9.index t (1 : Fin 2) * 2048 + 1 * q.val = q.val; omega

/-- What point t writes back is its block of the recombination of the whole arrays. -/
theorem flushed9_eq (c : Dev nD) (t : Fin cfg1.N) :
    (dat1 (F := Ideal) V c).flushed 9 t
      = ((cfg1.win 9).blk t).view.read (Elt Ideal) (Cert.Spec.gateN (V c main_v10) (V c main_arg3) (V c main_arg4)) := by
  show (cfg1.win 9).cut (grid1.coords t) ((dat1 V c).after 9 t) = _
  rw [after1_9, out9_eq (iblk1 V c 0 t) (iblk1 V c 1 t) (iblk1 V c 2 t) (iblk1 V c 3 t) (iblk1 V c 4 t) (iblk1 V c 5 t) (iblk1 V c 6 t)]
  funext j
  obtain ⟨r, q, rfl⟩ : ∃ (r : Fin 128) (q : Fin 2048), j = ix2 r q := ⟨j 0, j 1, eq_ix2 j⟩
  show k1_pay7 (iblk1 V c 1 t) (iblk1 V c 2 t) (iblk1 V c 6 t) (iblk1 V c 5 t) (ix2 r q)
      = Cert.Spec.gateN (V c main_v10) (V c main_arg3) (V c main_arg4) (((cfg1.win 9).blk t).view.emb (ix2 r q))
  rw [blk_out9 t r q]
  refine (pay_n_apply (iblk1 V c 1 t) (iblk1 V c 2 t) (iblk1 V c 6 t) (iblk1 V c 5 t) r q).trans ?_
  rw [blk_gate1 V c t r q, blk_gate2 V c t r q, blk_state6 V c t r q, blk_state5 V c t r q]
  rfl

/-- An entry of the result array is in point t's block iff each coordinate is in the block's range. -/
theorem mem_blk9 (t : Fin cfg1.N) (i : S4096x2048.Idx) :
    i ∈ ((cfg1.win 9).blk t).view.set ↔ ∀ a : Fin 2, win1_9.index t a * S128x2048.size a ≤ (i a).val ∧ (i a).val < win1_9.index t a * S128x2048.size a + S128x2048.size a := by
  show i ∈ ((View.whole main_v11_2).slice (win1_9.rect t)).set ↔ _
  rw [View.set_slice_whole, Rect.mem_set_unit]
  exact Iff.rfl

/-- Row n of the result array is written by point n / 128. -/
theorem cover9 (i : S4096x2048.Idx) :
    ∃ t : Fin cfg1.N, (cfg1.win 9).flush t = true ∧ i ∈ ((cfg1.win 9).blk t).view.set := by
  have hi0 : (i 0).val < 4096 := (i 0).isLt
  have hi1 : (i 1).val < 2048 := (i 1).isLt
  obtain ⟨t, ht⟩ : ∃ t : Fin cfg1.N, t.val = (i 0).val / 128 :=
    ⟨⟨(i 0).val / 128, Nat.lt_of_lt_of_eq (by omega) N_1.symm⟩, rfl⟩
  refine ⟨t, flush1_9 t, ?_⟩
  rw [mem_blk9]
  obtain ⟨-, -, -, -, -, -, -, -, -, ⟨e0, e1⟩, -⟩ := idx_facts1 t
  intro a
  match a with
  | ⟨0, _⟩ => show win1_9.index t (0 : Fin 2) * 128 ≤ (i 0).val ∧ (i 0).val < win1_9.index t (0 : Fin 2) * 128 + 128; omega
  | ⟨1, _⟩ => show win1_9.index t (1 : Fin 2) * 2048 ≤ (i 1).val ∧ (i 1).val < win1_9.index t (1 : Fin 2) * 2048 + 2048; omega

/-! ## Window 10: the new stabiliser -/

/-- The one store of the whole buffer leaves the body's arithmetic of the seven loaded blocks. -/
theorem out10_eq (x0 x1 x2 x3 x4 x5 x6 : Vec Ideal S128x2048 .f32) :
    out1_10 x0 x1 x2 x3 x4 x5 x6 = k1_pay3 x1 x2 x6 := by
  unfold out1_10
  rw [View.canon_unit_zero hz1]
  simp only [View.ld_unit_zero (S := S128x2048) hz1]

/-- Entry (r, q) of the output block at point t is entry (128 t + r, q) of the result array. -/
theorem blk_out10 (t : Fin cfg1.N) (r : Fin 128) (q : Fin 2048) :
    ((cfg1.win 10).blk t).view.emb (ix2 r q) = (ix2 (rowOf t r) q : S4096x2048.Idx) := by
  obtain ⟨-, -, -, -, -, -, -, -, -, -, ⟨e0, e1⟩⟩ := idx_facts1 t
  funext a; apply Fin.ext
  match a with
  | ⟨0, _⟩ => show win1_10.index t (0 : Fin 2) * 128 + 1 * r.val = t.val * 128 + r.val; omega
  | ⟨1, _⟩ => show win1_10.index t (1 : Fin 2) * 2048 + 1 * q.val = q.val; omega

/-- What point t writes back is its block of the recombination of the whole arrays. -/
theorem flushed10_eq (c : Dev nD) (t : Fin cfg1.N) :
    (dat1 (F := Ideal) V c).flushed 10 t
      = ((cfg1.win 10).blk t).view.read (Elt Ideal) (Cert.Spec.gateM (V c main_v10) (V c main_arg4)) := by
  show (cfg1.win 10).cut (grid1.coords t) ((dat1 V c).after 10 t) = _
  rw [after1_10, out10_eq (iblk1 V c 0 t) (iblk1 V c 1 t) (iblk1 V c 2 t) (iblk1 V c 3 t) (iblk1 V c 4 t) (iblk1 V c 5 t) (iblk1 V c 6 t)]
  funext j
  obtain ⟨r, q, rfl⟩ : ∃ (r : Fin 128) (q : Fin 2048), j = ix2 r q := ⟨j 0, j 1, eq_ix2 j⟩
  show k1_pay3 (iblk1 V c 1 t) (iblk1 V c 2 t) (iblk1 V c 6 t) (ix2 r q)
      = Cert.Spec.gateM (V c main_v10) (V c main_arg4) (((cfg1.win 10).blk t).view.emb (ix2 r q))
  rw [blk_out10 t r q]
  refine (pay_m_apply (iblk1 V c 1 t) (iblk1 V c 2 t) (iblk1 V c 6 t) r q).trans ?_
  rw [blk_gate1 V c t r q, blk_gate2 V c t r q, blk_state6 V c t r q]
  rfl

/-- An entry of the result array is in point t's block iff each coordinate is in the block's range. -/
theorem mem_blk10 (t : Fin cfg1.N) (i : S4096x2048.Idx) :
    i ∈ ((cfg1.win 10).blk t).view.set ↔ ∀ a : Fin 2, win1_10.index t a * S128x2048.size a ≤ (i a).val ∧ (i a).val < win1_10.index t a * S128x2048.size a + S128x2048.size a := by
  show i ∈ ((View.whole main_v11_3).slice (win1_10.rect t)).set ↔ _
  rw [View.set_slice_whole, Rect.mem_set_unit]
  exact Iff.rfl

/-- Row n of the result array is written by point n / 128. -/
theorem cover10 (i : S4096x2048.Idx) :
    ∃ t : Fin cfg1.N, (cfg1.win 10).flush t = true ∧ i ∈ ((cfg1.win 10).blk t).view.set := by
  have hi0 : (i 0).val < 4096 := (i 0).isLt
  have hi1 : (i 1).val < 2048 := (i 1).isLt
  obtain ⟨t, ht⟩ : ∃ t : Fin cfg1.N, t.val = (i 0).val / 128 :=
    ⟨⟨(i 0).val / 128, Nat.lt_of_lt_of_eq (by omega) N_1.symm⟩, rfl⟩
  refine ⟨t, flush1_10 t, ?_⟩
  rw [mem_blk10]
  obtain ⟨-, -, -, -, -, -, -, -, -, -, ⟨e0, e1⟩⟩ := idx_facts1 t
  intro a
  match a with
  | ⟨0, _⟩ => show win1_10.index t (0 : Fin 2) * 128 ≤ (i 0).val ∧ (i 0).val < win1_10.index t (0 : Fin 2) * 128 + 128; omega
  | ⟨1, _⟩ => show win1_10.index t (1 : Fin 2) * 2048 ≤ (i 1).val ∧ (i 1).val < win1_10.index t (1 : Fin 2) * 2048 + 2048; omega

end R1

/-! ## The four result arrays after the region -/

/-- The result array after the region: the new hidden state, entry by entry. -/
theorem gate_value7 (c : Dev nD) :
    ((dat1 (F := Ideal) V c).arrAt 7 cfg1.N : Cert.Spec.Mat 4096 2048)
      = Cert.Spec.gateH (V c main_v10) (V c main_arg2) (V c main_arg3) (V c main_arg4) :=
  (dat1 V c).arrAt_eq_of_cover 7 (Cert.Spec.gateH (V c main_v10) (V c main_arg2) (V c main_arg3) (V c main_arg4)) (fun t _ => R1.flushed7_eq V c t) R1.cover7

/-- The result array after the region: the new cell state, entry by entry. -/
theorem gate_value8 (c : Dev nD) :
    ((dat1 (F := Ideal) V c).arrAt 8 cfg1.N : Cert.Spec.Mat 4096 2048)
      = Cert.Spec.gateC (V c main_v10) (V c main_arg2) (V c main_arg4) :=
  (dat1 V c).arrAt_eq_of_cover 8 (Cert.Spec.gateC (V c main_v10) (V c main_arg2) (V c main_arg4)) (fun t _ => R1.flushed8_eq V c t) R1.cover8

/-- The result array after the region: the new normaliser state, entry by entry. -/
theorem gate_value9 (c : Dev nD) :
    ((dat1 (F := Ideal) V c).arrAt 9 cfg1.N : Cert.Spec.Mat 4096 2048)
      = Cert.Spec.gateN (V c main_v10) (V c main_arg3) (V c main_arg4) :=
  (dat1 V c).arrAt_eq_of_cover 9 (Cert.Spec.gateN (V c main_v10) (V c main_arg3) (V c main_arg4)) (fun t _ => R1.flushed9_eq V c t) R1.cover9

/-- The result array after the region: the new stabiliser, entry by entry. -/
theorem gate_value10 (c : Dev nD) :
    ((dat1 (F := Ideal) V c).arrAt 10 cfg1.N : Cert.Spec.Mat 4096 2048)
      = Cert.Spec.gateM (V c main_v10) (V c main_arg4) :=
  (dat1 V c).arrAt_eq_of_cover 10 (Cert.Spec.gateM (V c main_v10) (V c main_arg4)) (fun t _ => R1.flushed10_eq V c t) R1.cover10

end Cert.Val

end
-- ==== Proof.Val.Algebra.lean ====
/-
  The stacked product taken in two halves is the reference's grouping.

  Column q of the stacked pre-activation matrix is gate q / 2048 at hidden unit q % 2048. In the first half of the
  contraction the stacked operands [x, h] and [[w, u]] read x and w, in the second half h and u, so the two partial
  sums are the two products of that gate's affine maps, and the bias row holds the sum of its two biases. What is left
  is a regrouping of four terms (Spec.lin_regroup).
-/
import proofs.«109682_j16561393893827_1_alg».proof.Proof.Spec

noncomputable section

open scoped BigOperators

namespace Cert.Val

open Idealize.ShloMosaic Idealize.ShloMosaic.ValueIdx Cert.Spec

/-- The gate a stacked column belongs to. -/
def gateOf (q : Fin 8192) : Fin 4 := ⟨q.val / 2048, by omega⟩
/-- The hidden unit a stacked column belongs to. -/
def unitOf (q : Fin 8192) : Fin 2048 := ⟨q.val % 2048, Nat.mod_lt _ (by norm_num)⟩

theorem col_gateOf_unitOf (q : Fin 8192) : col (gateOf q) (unitOf q) = q := by
  apply Fin.ext
  simp only [col_val, gateOf, unitOf]
  omega

theorem gateOf_col (g : Fin 4) (j : Fin 2048) : gateOf (col g j) = g := by
  apply Fin.ext
  simp only [col_val, gateOf]
  omega

theorem unitOf_col (g : Fin 4) (j : Fin 2048) : unitOf (col g j) = j := by
  apply Fin.ext
  simp only [col_val, unitOf]
  omega

/-- The stacked pre-activation at (r, q) is gate q / 2048 at unit q % 2048. -/
theorem preCat_at (a : Inp) (r : Fin 4096) (q : Fin 8192) :
    preCat a (ix2 r q) = preG a (gateOf q) r (unitOf q) := rfl

/-- The first 2048 columns of [x, h] are x. -/
theorem catX_lo (a : Inp) (r : Fin 4096) (k : Fin 2048) : catX a (ix2 r (lo k)) = a.x (ix2 r k) := by
  unfold catX
  split
  · rfl
  · rename_i hn
    exact absurd k.isLt hn

/-- The last 2048 columns of [x, h] are h. -/
theorem catX_hi (a : Inp) (r : Fin 4096) (k : Fin 2048) : catX a (ix2 r (hi k)) = a.h (ix2 r k) := by
  unfold catX
  split
  · rename_i hlt
    have : 2048 + k.val < 2048 := hlt
    omega
  · congr 2
    apply Fin.ext
    show 2048 + k.val - 2048 = k.val
    omega

/-- The first 2048 columns of row q of [[w, u]] are that gate's input weights of that unit. -/
theorem catW_lo (a : Inp) (q : Fin 8192) (k : Fin 2048) :
    catW a (ix2 q (lo k)) = a.w (gateOf q) (ix2 (unitOf q) k) := by
  unfold catW
  split
  · rfl
  · rename_i hn
    exact absurd k.isLt hn

/-- The last 2048 columns of row q of [[w, u]] are that gate's recurrent weights of that unit. -/
theorem catW_hi (a : Inp) (q : Fin 8192) (k : Fin 2048) :
    catW a (ix2 q (hi k)) = a.u (gateOf q) (ix2 (unitOf q) k) := by
  unfold catW
  split
  · rename_i hlt
    have : 2048 + k.val < 2048 := hlt
    omega
  · show a.u (gateOf q) (ix2 (unitOf q) _) = _
    congr 2
    apply Fin.ext
    show 2048 + k.val - 2048 = k.val
    omega

/-- Entry q of the stacked bias row is the sum of that gate's two biases at that unit. -/
theorem catB_at (a : Inp) (q : Fin 8192) :
    catB a (ix2 (0 : Fin 1) q) = a.b (gateOf q) (ix1 (unitOf q)) + a.d (gateOf q) (ix1 (unitOf q)) := rfl

/-- The two-halves product at (r, q), written with the gate's own operands. -/
theorem accPre_cat_at (a : Inp) (r : Fin 4096) (q : Fin 8192) :
    accPre (catX a) (catW a) (catB a) (ix2 r q) = preG a (gateOf q) r (unitOf q) := by
  show ((∑ k : Fin 2048, catX a (ix2 r (lo k)) * catW a (ix2 q (lo k)))
      + (∑ k : Fin 2048, catX a (ix2 r (hi k)) * catW a (ix2 q (hi k))))
      + catB a (ix2 (0 : Fin 1) q) = _
  simp only [catX_lo, catX_hi, catW_lo, catW_hi, catB_at]
  exact lin_regroup a.x a.h (a.w (gateOf q)) (a.b (gateOf q)) (a.u (gateOf q)) (a.d (gateOf q)) r (unitOf q)

/-- The stacked product taken in two halves, with the two biases added last, is the stacked pre-activation. -/
theorem accPre_cat (a : Cert.Spec.Inp) :
    Cert.Spec.accPre (Cert.Spec.catX a) (Cert.Spec.catW a) (Cert.Spec.catB a) = Cert.Spec.preCat a := by
  funext p
  rw [eq_ix2 p]
  exact accPre_cat_at a (p 0) (p 1)

end Cert.Val

end
-- ==== Proof.Val.Ref.lean ====
/-
  The reference's four results, read through its generated run one operation at a time, are the cell's
  mathematics of Spec.lean at the reference's arguments.

  Each gate's pre-activation is the sum of two affine maps, each a contraction with a transposed weight matrix plus a
  bias row repeated along the batch; read at (r, j) that is column (g, j) of the stacked pre-activation matrix. The
  recombination is pointwise, and the reference spells the logistic as one over one plus the exponential of the negation.
-/
import proofs.«109682_j16561393893827_1_alg».proof.Proof.Gen.ReferenceIdeal.Run
import proofs.«109682_j16561393893827_1_alg».proof.Proof.Gen.ReferenceIdeal.Read
import proofs.«109682_j16561393893827_1_alg».proof.Proof.Spec
import proofs.«109682_j16561393893827_1_alg».proof.Proof.Val.Inp

noncomputable section

open scoped BigOperators

namespace Cert.Val

open Cert.ReferenceIdeal Cert.ReferenceIdeal.Read Idealize.ShloMosaic Idealize.ShloMosaic.TcCoe Idealize.SL.Sem
  Idealize.ShloMosaic.StableHlo Idealize.ShloMosaic.ValueIdx Cert.Spec

/-- An activation-sized array, a weight matrix and a bias row of the reference program, as arrays of extended reals. -/
abbrev RAct : Type := (⟨S4096x2048, .f32⟩ : BufTy).Contents (Elt Ideal)
abbrev RWgt : Type := (⟨S2048x2048, .f32⟩ : BufTy).Contents (Elt Ideal)
abbrev RRow : Type := (⟨S2048, .f32⟩ : BufTy).Contents (Elt Ideal)

/-! ## The eight affine maps

Each is the operand contracted with the TRANSPOSED weight matrix (entry (k, j) of the transpose is w[j, k]), plus the
bias row repeated along the batch: at (r, j) the sum over k of x[r, k] w[j, k], plus b[j]. -/

/-- The cell-input gate's affine map of the input at (r, j). -/
theorem aff_xz_at (x0 : RAct) (x5 : RWgt) (x6 : RRow) (r : Fin 4096) (j : Fin 2048) :
    val_main_v4 (F := Ideal) x0 x5 x6 (ix2 r j) = dotT x0 x5 r j + x6 (ix1 j) := by
  rw [val_main_v4_apply, val_main_v1_apply, val_main_v3_apply, val_main_v2_apply]
  unfold dotT
  rw [Ideal.addf_def]
  congr 1
  · refine Finset.sum_congr rfl fun k _ => ?_
    rw [val_main_v0_apply]
    congr 2 <;> exact funext fun a => Fin.ext (by match a with | ⟨0, _⟩ => rfl | ⟨1, _⟩ => rfl)
  · congr 1
    exact funext fun a => Fin.ext (by match a with | ⟨0, _⟩ => rfl)

/-- The cell-input gate's affine map of the previous hidden state at (r, j). -/
theorem aff_hz_at (x1 : RAct) (x13 : RWgt) (x14 : RRow) (r : Fin 4096) (j : Fin 2048) :
    val_main_v9 (F := Ideal) x1 x13 x14 (ix2 r j) = dotT x1 x13 r j + x14 (ix1 j) := by
  rw [val_main_v9_apply, val_main_v6_apply, val_main_v8_apply, val_main_v7_apply]
  unfold dotT
  rw [Ideal.addf_def]
  congr 1
  · refine Finset.sum_congr rfl fun k _ => ?_
    rw [val_main_v5_apply]
    congr 2 <;> exact funext fun a => Fin.ext (by match a with | ⟨0, _⟩ => rfl | ⟨1, _⟩ => rfl)
  · congr 1
    exact funext fun a => Fin.ext (by match a with | ⟨0, _⟩ => rfl)

/-- The input gate's affine map of the input at (r, j). -/
theorem aff_xi_at (x0 : RAct) (x7 : RWgt) (x8 : RRow) (r : Fin 4096) (j : Fin 2048) :
    val_main_v16 (F := Ideal) x0 x7 x8 (ix2 r j) = dotT x0 x7 r j + x8 (ix1 j) := by
  rw [val_main_v16_apply, val_main_v13_apply, val_main_v15_apply, val_main_v14_apply]
  unfold dotT
  rw [Ideal.addf_def]
  congr 1
  · refine Finset.sum_congr rfl fun k _ => ?_
    rw [val_main_v12_apply]
    congr 2 <;> exact funext fun a => Fin.ext (by match a with | ⟨0, _⟩ => rfl | ⟨1, _⟩ => rfl)
  · congr 1
    exact funext fun a => Fin.ext (by match a with | ⟨0, _⟩ => rfl)

/-- The input gate's affine map of the previous hidden state at (r, j). -/
theorem aff_hi_at (x1 : RAct) (x15 : RWgt) (x16 : RRow) (r : Fin 4096) (j : Fin 2048) :
    val_main_v21 (F := Ideal) x1 x15 x16 (ix2 r j) = dotT x1 x15 r j + x16 (ix1 j) := by
  rw [val_main_v21_apply, val_main_v18_apply, val_main_v20_apply, val_main_v19_apply]
  unfold dotT
  rw [Ideal.addf_def]
  congr 1
  · refine Finset.sum_congr rfl fun k _ => ?_
    rw [val_main_v17_apply]
    congr 2 <;> exact funext fun a => Fin.ext (by match a with | ⟨0, _⟩ => rfl | ⟨1, _⟩ => rfl)
  · congr 1
    exact funext fun a => Fin.ext (by match a with | ⟨0, _⟩ => rfl)

/-- The forget gate's affine map of the input at (r, j). -/
theorem aff_xf_at (x0 : RAct) (x9 : RWgt) (x10 : RRow) (r : Fin 4096) (j : Fin 2048) :
    val_main_v27 (F := Ideal) x0 x9 x10 (ix2 r j) = dotT x0 x9 r j + x10 (ix1 j) := by
  rw [val_main_v27_apply, val_main_v24_apply, val_main_v26_apply, val_main_v25_apply]
  unfold dotT
  rw [Ideal.addf_def]
  congr 1
  · refine Finset.sum_congr rfl fun k _ => ?_
    rw [val_main_v23_apply]
    congr 2 <;> exact funext fun a => Fin.ext (by match a with | ⟨0, _⟩ => rfl | ⟨1, _⟩ => rfl)
  · congr 1
    exact funext fun a => Fin.ext (by match a with | ⟨0, _⟩ => rfl)

/-- The forget gate's affine map of the previous hidden state at (r, j). -/
theorem aff_hf_at (x1 : RAct) (x17 : RWgt) (x18 : RRow) (r : Fin 4096) (j : Fin 2048) :
    val_main_v32 (F := Ideal) x1 x17 x18 (ix2 r j) = dotT x1 x17 r j + x18 (ix1 j) := by
  rw [val_main_v32_apply, val_main_v29_apply, val_main_v31_apply, val_main_v30_apply]
  unfold dotT
  rw [Ideal.addf_def]
  congr 1
  · refine Finset.sum_congr rfl fun k _ => ?_
    rw [val_main_v28_apply]
    congr 2 <;> exact funext fun a => Fin.ext (by match a with | ⟨0, _⟩ => rfl | ⟨1, _⟩ => rfl)
  · congr 1
    exact funext fun a => Fin.ext (by match a with | ⟨0, _⟩ => rfl)

/-- The output gate's affine map of the input at (r, j). -/
theorem aff_xo_at (x0 : RAct) (x11 : RWgt) (x12 : RRow) (r : Fin 4096) (j : Fin 2048) :
    val_main_v38 (F := Ideal) x0 x11 x12 (ix2 r j) = dotT x0 x11 r j + x12 (ix1 j) := by
  rw [val_main_v38_apply, val_main_v35_apply, val_main_v37_apply, val_main_v36_apply]
  unfold dotT
  rw [Ideal.addf_def]
  congr 1
  · refine Finset.sum_congr rfl fun k _ => ?_
    rw [val_main_v34_apply]
    congr 2 <;> exact funext fun a => Fin.ext (by match a with | ⟨0, _⟩ => rfl | ⟨1, _⟩ => rfl)
  · congr 1
    exact funext fun a => Fin.ext (by match a with | ⟨0, _⟩ => rfl)

/-- The output gate's affine map of the previous hidden state at (r, j). -/
theorem aff_ho_at (x1 : RAct) (x19 : RWgt) (x20 : RRow) (r : Fin 4096) (j : Fin 2048) :
    val_main_v43 (F := Ideal) x1 x19 x20 (ix2 r j) = dotT x1 x19 r j + x20 (ix1 j) := by
  rw [val_main_v43_apply, val_main_v40_apply, val_main_v42_apply, val_main_v41_apply]
  unfold dotT
  rw [Ideal.addf_def]
  congr 1
  · refine Finset.sum_congr rfl fun k _ => ?_
    rw [val_main_v39_apply]
    congr 2 <;> exact funext fun a => Fin.ext (by match a with | ⟨0, _⟩ => rfl | ⟨1, _⟩ => rfl)
  · congr 1
    exact funext fun a => Fin.ext (by match a with | ⟨0, _⟩ => rfl)

/-! ## The four pre-activations and the pointwise recombination -/

/-- The reference's literal one. -/
theorem ofBits_one_f32 : Ideal.ofBits .f32 0x3F800000#32 = (1 : EReal) := by
  simp [Ideal.ofBits, Ideal.ieee]
  rw [← EReal.coe_mul]
  norm_num

section
variable (x0 x1 x2 x3 x4 : RAct) (x5 : RWgt) (x6 : RRow) (x7 : RWgt) (x8 : RRow) (x9 : RWgt) (x10 : RRow) (x11 : RWgt) (x12 : RRow)
  (x13 : RWgt) (x14 : RRow) (x15 : RWgt) (x16 : RRow) (x17 : RWgt) (x18 : RRow) (x19 : RWgt) (x20 : RRow)

/-- The twenty-one arguments as the arguments of the cell. -/
def inpOfArgs : Inp :=
  ⟨x0, x1, x2, x3, x4, x5, x6, x7, x8, x9, x10, x11, x12, x13, x14, x15, x16, x17, x18, x19, x20⟩

/-- The cell-input gate's pre-activation at (r, j) is column (0, j) of the stacked pre-activation matrix. -/
theorem pre_z_at (r : Fin 4096) (j : Fin 2048) :
    val_main_v10 (F := Ideal) x0 x1 x5 x6 x13 x14 (ix2 r j) = preCat (inpOfArgs x0 x1 x2 x3 x4 x5 x6 x7 x8 x9 x10 x11 x12 x13 x14 x15 x16 x17 x18 x19 x20) (ix2 r (col 0 j)) := by
  rw [preCat_col, val_main_v10_apply, aff_xz_at, aff_hz_at, Ideal.addf_def]
  rfl

/-- The input gate's pre-activation at (r, j) is column (1, j) of the stacked pre-activation matrix. -/
theorem pre_i_at (r : Fin 4096) (j : Fin 2048) :
    val_main_v22 (F := Ideal) x0 x1 x7 x8 x15 x16 (ix2 r j) = preCat (inpOfArgs x0 x1 x2 x3 x4 x5 x6 x7 x8 x9 x10 x11 x12 x13 x14 x15 x16 x17 x18 x19 x20) (ix2 r (col 1 j)) := by
  rw [preCat_col, val_main_v22_apply, aff_xi_at, aff_hi_at, Ideal.addf_def]
  rfl

/-- The forget gate's pre-activation at (r, j) is column (2, j) of the stacked pre-activation matrix. -/
theorem pre_f_at (r : Fin 4096) (j : Fin 2048) :
    val_main_v33 (F := Ideal) x0 x1 x9 x10 x17 x18 (ix2 r j) = preCat (inpOfArgs x0 x1 x2 x3 x4 x5 x6 x7 x8 x9 x10 x11 x12 x13 x14 x15 x16 x17 x18 x19 x20) (ix2 r (col 2 j)) := by
  rw [preCat_col, val_main_v33_apply, aff_xf_at, aff_hf_at, Ideal.addf_def]
  rfl

/-- The output gate's pre-activation at (r, j) is column (3, j) of the stacked pre-activation matrix. -/
theorem pre_o_at (r : Fin 4096) (j : Fin 2048) :
    val_main_v44 (F := Ideal) x0 x1 x11 x12 x19 x20 (ix2 r j) = preCat (inpOfArgs x0 x1 x2 x3 x4 x5 x6 x7 x8 x9 x10 x11 x12 x13 x14 x15 x16 x17 x18 x19 x20) (ix2 r (col 3 j)) := by
  rw [preCat_col, val_main_v44_apply, aff_xo_at, aff_ho_at, Ideal.addf_def]
  rfl

/-- The new stabiliser at an index. -/
theorem stab_at (i : S4096x2048.Idx) :
    val_main_v52 (F := Ideal) x0 x1 x4 x7 x8 x9 x10 x15 x16 x17 x18 i = mNew (val_main_v33 (F := Ideal) x0 x1 x9 x10 x17 x18 i) (val_main_v22 (F := Ideal) x0 x1 x7 x8 x15 x16 i) (x4 i) := by
  rw [val_main_v52_apply, val_main_v51_apply, Ideal.maximumf_def, Ideal.addf_def]
  rfl

/-- The stabilised input gate at an index. -/
theorem ihat_at (i : S4096x2048.Idx) :
    val_main_v54 (F := Ideal) x0 x1 x4 x7 x8 x9 x10 x15 x16 x17 x18 i = iHat (val_main_v33 (F := Ideal) x0 x1 x9 x10 x17 x18 i) (val_main_v22 (F := Ideal) x0 x1 x7 x8 x15 x16 i) (x4 i) := by
  rw [val_main_v54_apply, val_main_v53_apply, stab_at, Ideal.hostUnary_exp_def, Ideal.subf_def]
  rfl

/-- The stabilised forget gate at an index. -/
theorem fhat_at (i : S4096x2048.Idx) :
    val_main_v57 (F := Ideal) x0 x1 x4 x7 x8 x9 x10 x15 x16 x17 x18 i = fHat (val_main_v33 (F := Ideal) x0 x1 x9 x10 x17 x18 i) (val_main_v22 (F := Ideal) x0 x1 x7 x8 x15 x16 i) (x4 i) := by
  rw [val_main_v57_apply, val_main_v56_apply, val_main_v55_apply, stab_at, Ideal.hostUnary_exp_def, Ideal.subf_def,
    Ideal.addf_def]
  rfl

/-- The output gate at an index: one over one plus the exponential of the negated pre-activation is the logistic. -/
theorem sig_at (i : S4096x2048.Idx) :
    val_main_v50 (F := Ideal) x0 x1 x11 x12 x19 x20 i = Ideal.logistic (val_main_v44 (F := Ideal) x0 x1 x11 x12 x19 x20 i) := by
  rw [val_main_v50_apply, val_main_v49_apply, val_main_cst_0_apply, val_main_v48_apply, val_main_v47_apply,
    val_main_cst_apply, val_main_v46_apply, val_main_v45_apply, Ideal.hostDivf_def, Ideal.addf_def,
    Ideal.hostUnary_exp_def, Ideal.hostNegf_def, Ideal.negf_def, Ideal.ofBits_def, ofBits_one_f32]
  rfl

/-- The new cell state at an index. -/
theorem cell_at (i : S4096x2048.Idx) :
    val_main_v60 (F := Ideal) x0 x1 x2 x4 x5 x6 x7 x8 x9 x10 x13 x14 x15 x16 x17 x18 i = cNew (val_main_v10 (F := Ideal) x0 x1 x5 x6 x13 x14 i) (val_main_v33 (F := Ideal) x0 x1 x9 x10 x17 x18 i) (val_main_v22 (F := Ideal) x0 x1 x7 x8 x15 x16 i) (x4 i) (x2 i) := by
  rw [val_main_v60_apply, val_main_v58_apply, val_main_v59_apply, val_main_v11_apply, fhat_at, ihat_at,
    Ideal.hostUnary_tanh_def, Ideal.addf_def, Ideal.mulf_def, Ideal.mulf_def]
  rfl

/-- The new normaliser state at an index. -/
theorem norm_at (i : S4096x2048.Idx) :
    val_main_v62 (F := Ideal) x0 x1 x3 x4 x7 x8 x9 x10 x15 x16 x17 x18 i = nNew (val_main_v33 (F := Ideal) x0 x1 x9 x10 x17 x18 i) (val_main_v22 (F := Ideal) x0 x1 x7 x8 x15 x16 i) (x4 i) (x3 i) := by
  rw [val_main_v62_apply, val_main_v61_apply, fhat_at, ihat_at, Ideal.addf_def, Ideal.mulf_def]
  rfl

/-- The new hidden state at an index. -/
theorem hid_at (i : S4096x2048.Idx) :
    val_main_v64 (F := Ideal) x0 x1 x2 x3 x4 x5 x6 x7 x8 x9 x10 x11 x12 x13 x14 x15 x16 x17 x18 x19 x20 i = hNew (val_main_v10 (F := Ideal) x0 x1 x5 x6 x13 x14 i) (val_main_v33 (F := Ideal) x0 x1 x9 x10 x17 x18 i) (val_main_v22 (F := Ideal) x0 x1 x7 x8 x15 x16 i) (val_main_v44 (F := Ideal) x0 x1 x11 x12 x19 x20 i) (x4 i) (x2 i) (x3 i) := by
  rw [val_main_v64_apply, val_main_v63_apply, sig_at, cell_at, norm_at, Ideal.hostDivf_def, Ideal.mulf_def]
  rfl

/-! ## The four results as arrays -/

/-- The reference's hidden state is the cell's. -/
theorem ref_h : val_main_v64 (F := Ideal) x0 x1 x2 x3 x4 x5 x6 x7 x8 x9 x10 x11 x12 x13 x14 x15 x16 x17 x18 x19 x20 = gateH (preCat (inpOfArgs x0 x1 x2 x3 x4 x5 x6 x7 x8 x9 x10 x11 x12 x13 x14 x15 x16 x17 x18 x19 x20)) x2 x3 x4 := by
  funext p
  obtain ⟨r, j, rfl⟩ : ∃ (r : Fin 4096) (j : Fin 2048), p = ix2 r j := ⟨p 0, p 1, eq_ix2 p⟩
  rw [hid_at, pre_z_at x0 x1 x2 x3 x4 x5 x6 x7 x8 x9 x10 x11 x12 x13 x14 x15 x16 x17 x18 x19 x20 r j, pre_f_at x0 x1 x2 x3 x4 x5 x6 x7 x8 x9 x10 x11 x12 x13 x14 x15 x16 x17 x18 x19 x20 r j, pre_i_at x0 x1 x2 x3 x4 x5 x6 x7 x8 x9 x10 x11 x12 x13 x14 x15 x16 x17 x18 x19 x20 r j, pre_o_at x0 x1 x2 x3 x4 x5 x6 x7 x8 x9 x10 x11 x12 x13 x14 x15 x16 x17 x18 x19 x20 r j]
  rfl

/-- The reference's cell state is the cell's. -/
theorem ref_c : val_main_v60 (F := Ideal) x0 x1 x2 x4 x5 x6 x7 x8 x9 x10 x13 x14 x15 x16 x17 x18 = gateC (preCat (inpOfArgs x0 x1 x2 x3 x4 x5 x6 x7 x8 x9 x10 x11 x12 x13 x14 x15 x16 x17 x18 x19 x20)) x2 x4 := by
  funext p
  obtain ⟨r, j, rfl⟩ : ∃ (r : Fin 4096) (j : Fin 2048), p = ix2 r j := ⟨p 0, p 1, eq_ix2 p⟩
  rw [cell_at, pre_z_at x0 x1 x2 x3 x4 x5 x6 x7 x8 x9 x10 x11 x12 x13 x14 x15 x16 x17 x18 x19 x20 r j, pre_f_at x0 x1 x2 x3 x4 x5 x6 x7 x8 x9 x10 x11 x12 x13 x14 x15 x16 x17 x18 x19 x20 r j, pre_i_at x0 x1 x2 x3 x4 x5 x6 x7 x8 x9 x10 x11 x12 x13 x14 x15 x16 x17 x18 x19 x20 r j]
  rfl

/-- The reference's normaliser state is the cell's. -/
theorem ref_n : val_main_v62 (F := Ideal) x0 x1 x3 x4 x7 x8 x9 x10 x15 x16 x17 x18 = gateN (preCat (inpOfArgs x0 x1 x2 x3 x4 x5 x6 x7 x8 x9 x10 x11 x12 x13 x14 x15 x16 x17 x18 x19 x20)) x3 x4 := by
  funext p
  obtain ⟨r, j, rfl⟩ : ∃ (r : Fin 4096) (j : Fin 2048), p = ix2 r j := ⟨p 0, p 1, eq_ix2 p⟩
  rw [norm_at, pre_f_at x0 x1 x2 x3 x4 x5 x6 x7 x8 x9 x10 x11 x12 x13 x14 x15 x16 x17 x18 x19 x20 r j, pre_i_at x0 x1 x2 x3 x4 x5 x6 x7 x8 x9 x10 x11 x12 x13 x14 x15 x16 x17 x18 x19 x20 r j]
  rfl

/-- The reference's stabiliser is the cell's. -/
theorem ref_m : val_main_v52 (F := Ideal) x0 x1 x4 x7 x8 x9 x10 x15 x16 x17 x18 = gateM (preCat (inpOfArgs x0 x1 x2 x3 x4 x5 x6 x7 x8 x9 x10 x11 x12 x13 x14 x15 x16 x17 x18 x19 x20)) x4 := by
  funext p
  obtain ⟨r, j, rfl⟩ : ∃ (r : Fin 4096) (j : Fin 2048), p = ix2 r j := ⟨p 0, p 1, eq_ix2 p⟩
  rw [stab_at, pre_f_at x0 x1 x2 x3 x4 x5 x6 x7 x8 x9 x10 x11 x12 x13 x14 x15 x16 x17 x18 x19 x20 r j, pre_i_at x0 x1 x2 x3 x4 x5 x6 x7 x8 x9 x10 x11 x12 x13 x14 x15 x16 x17 x18 x19 x20 r j]
  rfl

end

/-! ## The reference's run -/

/-- The reference runs to completion and leaves, on every core, the cell's four results at its own arguments, the
    arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v64)
            = gateH (preCat (inpOfRef m' c)) (inpOfRef m' c).c (inpOfRef m' c).n (inpOfRef m' c).m
        ∧ r.2.mem ((c.tc : Thread Cert.ReferenceIdeal.nD Cert.ReferenceIdeal.τ).loc Cert.ReferenceIdeal.main_v60)
            = gateC (preCat (inpOfRef m' c)) (inpOfRef m' c).c (inpOfRef m' c).m
        ∧ r.2.mem ((c.tc : Thread Cert.ReferenceIdeal.nD Cert.ReferenceIdeal.τ).loc Cert.ReferenceIdeal.main_v62)
            = gateN (preCat (inpOfRef m' c)) (inpOfRef m' c).n (inpOfRef m' c).m
        ∧ r.2.mem ((c.tc : Thread Cert.ReferenceIdeal.nD Cert.ReferenceIdeal.τ).loc Cert.ReferenceIdeal.main_v52)
            = gateM (preCat (inpOfRef m' c)) (inpOfRef m' c).m
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
        ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
        ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
        ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
        ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)) :=
  (θ_run _ _ _).mono (fun _ h c =>
      ⟨(h c).1.trans ((val_main_v64_eq m' c).trans (ref_h _ _ _ _ _ _ _ _ _ _ _ _ _ _ _ _ _ _ _ _ _)),
       (h c).2.1.trans ((val_main_v60_eq m' c).trans (ref_c _ _ _ _ _ _ _ _ _ _ _ _ _ _ _ _ _ _ _ _ _)),
       (h c).2.2.1.trans ((val_main_v62_eq m' c).trans (ref_n _ _ _ _ _ _ _ _ _ _ _ _ _ _ _ _ _ _ _ _ _)),
       (h c).2.2.2.1.trans ((val_main_v52_eq _ _ _ _ _ _ _ _ _ _ _).trans
         (ref_m (m' ((c.tc : Thread Cert.ReferenceIdeal.nD Cert.ReferenceIdeal.τ).loc Cert.ReferenceIdeal.main_arg0))
           (m' ((c.tc : Thread Cert.ReferenceIdeal.nD Cert.ReferenceIdeal.τ).loc Cert.ReferenceIdeal.main_arg1))
           (m' ((c.tc : Thread Cert.ReferenceIdeal.nD Cert.ReferenceIdeal.τ).loc Cert.ReferenceIdeal.main_arg2))
           (m' ((c.tc : Thread Cert.ReferenceIdeal.nD Cert.ReferenceIdeal.τ).loc Cert.ReferenceIdeal.main_arg3))
           (m' ((c.tc : Thread Cert.ReferenceIdeal.nD Cert.ReferenceIdeal.τ).loc Cert.ReferenceIdeal.main_arg4))
           (m' ((c.tc : Thread Cert.ReferenceIdeal.nD Cert.ReferenceIdeal.τ).loc Cert.ReferenceIdeal.main_arg5))
           (m' ((c.tc : Thread Cert.ReferenceIdeal.nD Cert.ReferenceIdeal.τ).loc Cert.ReferenceIdeal.main_arg6))
           (m' ((c.tc : Thread Cert.ReferenceIdeal.nD Cert.ReferenceIdeal.τ).loc Cert.ReferenceIdeal.main_arg7))
           (m' ((c.tc : Thread Cert.ReferenceIdeal.nD Cert.ReferenceIdeal.τ).loc Cert.ReferenceIdeal.main_arg8))
           (m' ((c.tc : Thread Cert.ReferenceIdeal.nD Cert.ReferenceIdeal.τ).loc Cert.ReferenceIdeal.main_arg9))
           (m' ((c.tc : Thread Cert.ReferenceIdeal.nD Cert.ReferenceIdeal.τ).loc Cert.ReferenceIdeal.main_arg10))
           (m' ((c.tc : Thread Cert.ReferenceIdeal.nD Cert.ReferenceIdeal.τ).loc Cert.ReferenceIdeal.main_arg11))
           (m' ((c.tc : Thread Cert.ReferenceIdeal.nD Cert.ReferenceIdeal.τ).loc Cert.ReferenceIdeal.main_arg12))
           (m' ((c.tc : Thread Cert.ReferenceIdeal.nD Cert.ReferenceIdeal.τ).loc Cert.ReferenceIdeal.main_arg13))
           (m' ((c.tc : Thread Cert.ReferenceIdeal.nD Cert.ReferenceIdeal.τ).loc Cert.ReferenceIdeal.main_arg14))
           (m' ((c.tc : Thread Cert.ReferenceIdeal.nD Cert.ReferenceIdeal.τ).loc Cert.ReferenceIdeal.main_arg15))
           (m' ((c.tc : Thread Cert.ReferenceIdeal.nD Cert.ReferenceIdeal.τ).loc Cert.ReferenceIdeal.main_arg16))
           (m' ((c.tc : Thread Cert.ReferenceIdeal.nD Cert.ReferenceIdeal.τ).loc Cert.ReferenceIdeal.main_arg17))
           (m' ((c.tc : Thread Cert.ReferenceIdeal.nD Cert.ReferenceIdeal.τ).loc Cert.ReferenceIdeal.main_arg18))
           (m' ((c.tc : Thread Cert.ReferenceIdeal.nD Cert.ReferenceIdeal.τ).loc Cert.ReferenceIdeal.main_arg19))
           (m' ((c.tc : Thread Cert.ReferenceIdeal.nD Cert.ReferenceIdeal.τ).loc Cert.ReferenceIdeal.main_arg20)))),
       (h c).2.2.2.2⟩)
    (Cert.ReferenceIdeal.Value.run (F := Ideal) m' ρ')

/-- The reference runs to completion and leaves its arguments unchanged. -/
theorem ref_frame (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
        ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
        ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
        ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
        ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)) :=
  (θ_run _ _ _).mono (fun _ h c => (h c).2.2.2.2) (Cert.ReferenceIdeal.Value.run (F := Ideal) m' ρ')

end Cert.Val

end
-- ==== Proof.lean ====
/-
  One step of an exponential-gated recurrent cell: the kernel's two regions against the reference.

  The kernel stacks the four gates' weights and the two operands [x, h], takes the one product in two halves of the
  contraction (an accumulator zeroed at the first half, the summed bias row added after the second) and recombines the
  four gate columns pointwise; the reference computes eight affine maps and the same recombination. On the extended
  reals the stacked product with the biases added last is the reference's sum of two affine maps term for term
  (addition is commutative and associative; no entry need be finite), the logistic is 1 / (1 + exp (-x)) on both sides
  by definition, and every other operation is the same function of the same operands. The frames: both regions run to
  the end on every core with nothing owed, the second region's four windows on the stacked matrix each holding a
  quarter of its share; no item writes an argument.
-/
import proofs.«109682_j16561393893827_1_alg».proof.Defs
import proofs.«109682_j16561393893827_1_alg».proof.Proof.Gen.Kernel
import proofs.«109682_j16561393893827_1_alg».proof.Proof.Gen.KernelIdeal
import proofs.«109682_j16561393893827_1_alg».proof.Proof.Gen.ReferenceIdeal
import proofs.«109682_j16561393893827_1_alg».proof.Proof.Gen.Pre_finite_inputs
import proofs.«109682_j16561393893827_1_alg».proof.Proof.K.Run
import proofs.«109682_j16561393893827_1_alg».proof.Proof.Ki.Run
import proofs.«109682_j16561393893827_1_alg».proof.Proof.Val.Host
import proofs.«109682_j16561393893827_1_alg».proof.Proof.Val.R0Value
import proofs.«109682_j16561393893827_1_alg».proof.Proof.Val.R1Value
import proofs.«109682_j16561393893827_1_alg».proof.Proof.Val.Algebra
import proofs.«109682_j16561393893827_1_alg».proof.Proof.Val.Ref
import Idealize.ShloMosaic.Adequacy
import Idealize.ShloMosaic.Init

noncomputable section

namespace Cert.Proof

open Idealize.ShloMosaic Idealize.ShloMosaic.TcCoe Idealize.SL.Sem
open Cert.KernelIdeal Cert.KernelIdeal.Fr Cert.Val

section Value

variable [Cert.KernelIdeal.Facts]
variable (m : (ℓ : Loc Cert.KernelIdeal.nD Cert.KernelIdeal.τ Cert.KernelIdeal.sig) → Buf (Elt Ideal) ℓ) (c : Dev Cert.KernelIdeal.nD)

/-- The stacked pre-activation matrix region 0 leaves: the host stretch's three arrays, their product taken in two
    halves with the bias row added last, regrouped as the sum of two affine maps per gate. -/
theorem pre_eq : (Fr.V2 (F := Ideal) m c main_v10 : Cert.Spec.Mat 4096 8192) = Cert.Spec.preCat (inpOf m c) := by
  have h := (Fr.W2_v10 (F := Ideal) m c).trans (pre_value (Fr.V1 (F := Ideal) m) c)
  rw [show (Fr.V1 (F := Ideal) m c main_v7 : Cert.Spec.Mat 4096 4096) = Cert.Spec.catX (inpOf m c) from host_v7 m c,
    show (Fr.V1 (F := Ideal) m c main_v8 : Cert.Spec.Mat 8192 4096) = Cert.Spec.catW (inpOf m c) from host_v8 m c,
    show (Fr.V1 (F := Ideal) m c main_v9 : Cert.Spec.Mat 1 8192) = Cert.Spec.catB (inpOf m c) from host_v9 m c,
    accPre_cat] at h
  exact h

/-- The new hidden state: region 1's first result array. -/
theorem res_h : (Fr.W3 (F := Ideal) m c (Proc.devRef .tc main_v11_0) : Cert.Spec.Mat 4096 2048)
    = Cert.Spec.gateH (Cert.Spec.preCat (inpOf m c)) (inpOf m c).c (inpOf m c).n (inpOf m c).m := by
  have h := gate_value7 (Fr.V2 (F := Ideal) m) c
  rw [pre_eq m c, Fr.V2_main_arg2, Fr.V2_main_arg3, Fr.V2_main_arg4] at h
  exact (Fr.W3_res7 m c).trans h

/-- The new cell state. -/
theorem res_c : (Fr.W3 (F := Ideal) m c (Proc.devRef .tc main_v11_1) : Cert.Spec.Mat 4096 2048)
    = Cert.Spec.gateC (Cert.Spec.preCat (inpOf m c)) (inpOf m c).c (inpOf m c).m := by
  have h := gate_value8 (Fr.V2 (F := Ideal) m) c
  rw [pre_eq m c, Fr.V2_main_arg2, Fr.V2_main_arg4] at h
  exact (Fr.W3_res8 m c).trans h

/-- The new normaliser state. -/
theorem res_n : (Fr.W3 (F := Ideal) m c (Proc.devRef .tc main_v11_2) : Cert.Spec.Mat 4096 2048)
    = Cert.Spec.gateN (Cert.Spec.preCat (inpOf m c)) (inpOf m c).n (inpOf m c).m := by
  have h := gate_value9 (Fr.V2 (F := Ideal) m) c
  rw [pre_eq m c, Fr.V2_main_arg3, Fr.V2_main_arg4] at h
  exact (Fr.W3_res9 m c).trans h

/-- The new stabiliser state. -/
theorem res_m : (Fr.W3 (F := Ideal) m c (Proc.devRef .tc main_v11_3) : Cert.Spec.Mat 4096 2048)
    = Cert.Spec.gateM (Cert.Spec.preCat (inpOf m c)) (inpOf m c).m := by
  have h := gate_value10 (Fr.V2 (F := Ideal) m) c
  rw [pre_eq m c, Fr.V2_main_arg4] at h
  exact (Fr.W3_res10 m c).trans h

/-- The idealized kernel's run with its four results named by the cell's mathematics. -/
theorem kernel_run (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v11_0) = Cert.Spec.gateH (Cert.Spec.preCat (inpOf m c)) (inpOf m c).c (inpOf m c).n (inpOf m c).m
      ∧ r.2.mem ((c.tc : Thread Cert.KernelIdeal.nD Cert.KernelIdeal.τ).loc Cert.KernelIdeal.main_v11_1) = Cert.Spec.gateC (Cert.Spec.preCat (inpOf m c)) (inpOf m c).c (inpOf m c).m
      ∧ r.2.mem ((c.tc : Thread Cert.KernelIdeal.nD Cert.KernelIdeal.τ).loc Cert.KernelIdeal.main_v11_2) = Cert.Spec.gateN (Cert.Spec.preCat (inpOf m c)) (inpOf m c).n (inpOf m c).m
      ∧ r.2.mem ((c.tc : Thread Cert.KernelIdeal.nD Cert.KernelIdeal.τ).loc Cert.KernelIdeal.main_v11_3) = Cert.Spec.gateM (Cert.Spec.preCat (inpOf m c)) (inpOf m c).m
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)) :=
  (θ_run (Cert.KernelIdeal.defs (F := Ideal)) _ _).mono (fun r h c =>
    ⟨(h c _ (Fr.mem_uc main_v11_0 (by decide))).trans (res_h m c),
     (h c _ (Fr.mem_uc main_v11_1 (by decide))).trans (res_c m c),
     (h c _ (Fr.mem_uc main_v11_2 (by decide))).trans (res_n m c),
     (h c _ (Fr.mem_uc main_v11_3 (by decide))).trans (res_m m c),
     (h c _ (Fr.mem_uc main_arg0 (by decide))).trans (Fr.W3_main_arg0 m c),
     (h c _ (Fr.mem_uc main_arg1 (by decide))).trans (Fr.W3_main_arg1 m c),
     (h c _ (Fr.mem_uc main_arg2 (by decide))).trans (Fr.W3_main_arg2 m c),
     (h c _ (Fr.mem_uc main_arg3 (by decide))).trans (Fr.W3_main_arg3 m c),
     (h c _ (Fr.mem_uc main_arg4 (by decide))).trans (Fr.W3_main_arg4 m c),
     (h c _ (Fr.mem_uc main_arg5 (by decide))).trans (Fr.W3_main_arg5 m c),
     (h c _ (Fr.mem_uc main_arg6 (by decide))).trans (Fr.W3_main_arg6 m c),
     (h c _ (Fr.mem_uc main_arg7 (by decide))).trans (Fr.W3_main_arg7 m c),
     (h c _ (Fr.mem_uc main_arg8 (by decide))).trans (Fr.W3_main_arg8 m c),
     (h c _ (Fr.mem_uc main_arg9 (by decide))).trans (Fr.W3_main_arg9 m c),
     (h c _ (Fr.mem_uc main_arg10 (by decide))).trans (Fr.W3_main_arg10 m c),
     (h c _ (Fr.mem_uc main_arg11 (by decide))).trans (Fr.W3_main_arg11 m c),
     (h c _ (Fr.mem_uc main_arg12 (by decide))).trans (Fr.W3_main_arg12 m c),
     (h c _ (Fr.mem_uc main_arg13 (by decide))).trans (Fr.W3_main_arg13 m c),
     (h c _ (Fr.mem_uc main_arg14 (by decide))).trans (Fr.W3_main_arg14 m c),
     (h c _ (Fr.mem_uc main_arg15 (by decide))).trans (Fr.W3_main_arg15 m c),
     (h c _ (Fr.mem_uc main_arg16 (by decide))).trans (Fr.W3_main_arg16 m c),
     (h c _ (Fr.mem_uc main_arg17 (by decide))).trans (Fr.W3_main_arg17 m c),
     (h c _ (Fr.mem_uc main_arg18 (by decide))).trans (Fr.W3_main_arg18 m c),
     (h c _ (Fr.mem_uc main_arg19 (by decide))).trans (Fr.W3_main_arg19 m c),
     (h c _ (Fr.mem_uc main_arg20 (by decide))).trans (Fr.W3_main_arg20 m c)⟩)
    (Fr.run_all (F := Ideal) m ρ)

end Value

theorem claim : Cert.Claim := ⟨Cert.Kernel.Gen.facts, Cert.KernelIdeal.Gen.facts, Cert.ReferenceIdeal.Gen.facts, Cert.Pre_finite_inputs.Gen.facts,
  fun m ρ _ => Cert.Kernel.Fr.frame m ρ,
  fun m ρ _ => Cert.KernelIdeal.Fr.frame m ρ,
  fun m ρ _ => Cert.Val.ref_frame m ρ,
  trivial,
  fun m ρ m' ρ' _ hagree => by
    have ha : ∀ c, inpOfRef m' c = inpOf m c := fun c => by
      obtain ⟨h0, h1, h2, h3, h4, h5, h6, h7, h8, h9, h10, h11, h12, h13, h14, h15, h16, h17, h18, h19, h20⟩ := hagree c
      unfold inpOfRef inpOf
      rw [h0, h1, h2, h3, h4, h5, h6, h7, h8, h9, h10, h11, h12, h13, h14, h15, h16, h17, h18, h19, h20]
    refine ⟨_, _, _, _, kernel_run m ρ, ?_⟩
    refine (θ_run (Cert.ReferenceIdeal.defs (F := Ideal)) _ _).mono (fun r h c => ?_) (ref_run m' ρ')
    have hc := h c
    rw [ha c] at hc
    exact hc⟩

end Cert.Proof

end
